-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part6 {F : FTy → Type} [FloatOps F] (main_arg1 : IVec S2x3200000 32) (main_arg22 : FVec F S1 .f32) (main_v98 : IVec S_ 1) (main_v101 : IVec S1x1 1) (main_c_39 : IVec S_ 1) : IVec S_ 1 :=
  let main_v102 : IVec S_ 1 := (fun x v => Host.reduce IntOp.andi x v reducesTo_S1x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  let main_c_42 : IVec S_ 32 := constantI S_ 32 0#32
  let main_v109 : IVec S2x3200000 32 := broadcastInDim S2x3200000 ![] bcast_S_S2x3200000 main_c_42
  let main_v110 : IVec S2x3200000 1 := cmpi .sge main_arg1 main_v109
  let main_c_43 : IVec S_ 32 := constantI S_ 32 100000#32
  let main_v111 : IVec S2x3200000 32 := broadcastInDim S2x3200000 ![] bcast_S_S2x3200000 main_c_43
  let main_v112 : IVec S2x3200000 1 := cmpi .slt main_arg1 main_v111
  let main_v113 : IVec S2x3200000 1 := andi main_v110 main_v112
  let main_c_44 : IVec S_ 1 := constantI S_ 1 1#1
  let main_v114 : IVec S_ 1 := (fun x v => Host.reduce IntOp.andi x v reducesTo_S2x3200000_S_d0_1 h_S_) main_v113 main_c_44
  let main_v115 : IVec S_ 1 := andi main_v108 main_v114
  main_v115

def fn_part5 {F : FTy → Type} [FloatOps F] (main_arg1 : IVec S2x3200000 32) (main_arg19 : FVec F S1 .f32) (main_arg20 : FVec F S1 .f32) (main_arg21 : FVec F S1x1 .f32) (main_arg22 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S1x1 .f32 := Host.absf main_arg21
  let main_cst_38 : FVec F S_ .f32 := constant S_ .f32 0x7F800000#32
  let main_v100 : FVec F S1x1 .f32 := broadcastInDim S1x1 ![] bcast_S_S1x1 main_cst_38
  let main_v101 : IVec S1x1 1 := cmpf .olt main_v99 main_v100
  let main_c_39 : IVec S_ 1 := constantI S_ 1 1#1
  fn_part6 (F := F) main_arg1 main_arg22 main_v98 main_v101 main_c_39

def fn_part4 {F : FTy → Type} [FloatOps F] (main_arg1 : IVec S2x3200000 32) (main_arg15 : FVec F S4 .f32) (main_arg16 : FVec F S4 .f32) (main_arg17 : FVec F S1 .f32) (main_arg18 : FVec F S1 .f32) (main_arg19 : FVec F S1 .f32) (main_arg20 : FVec F S1 .f32) (main_arg21 : FVec F S1x1 .f32) (main_arg22 : FVec F S1 .f32) (main_v63 : IVec S_ 1) (main_v67 : IVec S_ 1) : IVec S_ 1 :=
  let main_v68 : IVec S_ 1 := andi main_v63 main_v67
  let main_v69 : FVec F S4 .f32 := Host.absf main_arg15
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S4 .f32 := Host.absf main_arg16
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg1 main_arg19 main_arg20 main_arg21 main_arg22 main_v83 main_v84 main_cst_32

def fn_part3 {F : FTy → Type} [FloatOps F] (main_arg1 : IVec S2x3200000 32) (main_arg12 : FVec F S16 .f32) (main_arg13 : FVec F S4 .f32) (main_arg14 : FVec F S4 .f32) (main_arg15 : FVec F S4 .f32) (main_arg16 : FVec F S4 .f32) (main_arg17 : FVec F S1 .f32) (main_arg18 : FVec F S1 .f32) (main_arg19 : FVec F S1 .f32) (main_arg20 : FVec F S1 .f32) (main_arg21 : FVec F S1x1 .f32) (main_arg22 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16 .f32 := Host.absf main_arg12
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S4 .f32 := Host.absf main_arg13
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4 .f32 := Host.absf main_arg14
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg1 main_arg15 main_arg16 main_arg17 main_arg18 main_arg19 main_arg20 main_arg21 main_arg22 main_v63 main_v67

def fn_part2 {F : FTy → Type} [FloatOps F] (main_arg1 : IVec S2x3200000 32) (main_arg8 : FVec F S1 .f32) (main_arg9 : FVec F S16 .f32) (main_arg10 : FVec F S16 .f32) (main_arg11 : FVec F S16 .f32) (main_arg12 : FVec F S16 .f32) (main_arg13 : FVec F S4 .f32) (main_arg14 : FVec F S4 .f32) (main_arg15 : FVec F S4 .f32) (main_arg16 : FVec F S4 .f32) (main_arg17 : FVec F S1 .f32) (main_arg18 : FVec F S1 .f32) (main_arg19 : FVec F S1 .f32) (main_arg20 : FVec F S1 .f32) (main_arg21 : FVec F S1x1 .f32) (main_arg22 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg1 main_arg12 main_arg13 main_arg14 main_arg15 main_arg16 main_arg17 main_arg18 main_arg19 main_arg20 main_arg21 main_arg22 main_v48 main_v49 main_v50

def fn_part1 {F : FTy → Type} [FloatOps F] (main_arg1 : IVec S2x3200000 32) (main_arg5 : FVec F S16x4 .f32) (main_arg6 : FVec F S4 .f32) (main_arg7 : FVec F S4x1 .f32) (main_arg8 : FVec F S1 .f32) (main_arg9 : FVec F S16 .f32) (main_arg10 : FVec F S16 .f32) (main_arg11 : FVec F S16 .f32) (main_arg12 : FVec F S16 .f32) (main_arg13 : FVec F S4 .f32) (main_arg14 : FVec F S4 .f32) (main_arg15 : FVec F S4 .f32) (main_arg16 : FVec F S4 .f32) (main_arg17 : FVec F S1 .f32) (main_arg18 : FVec F S1 .f32) (main_arg19 : FVec F S1 .f32) (main_arg20 : FVec F S1 .f32) (main_arg21 : FVec F S1x1 .f32) (main_arg22 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x4 .f32 := Host.absf main_arg5
  let main_cst_6 : FVec F S_ .f32 := constant S_ .f32 0x7F800000#32
  let main_v20 : FVec F S16x4 .f32 := broadcastInDim S16x4 ![] bcast_S_S16x4 main_cst_6
  let main_v21 : IVec S16x4 1 := cmpf .olt main_v19 main_v20
  let main_c_7 : IVec S_ 1 := constantI S_ 1 1#1
  let main_v22 : IVec S_ 1 := (fun x v => Host.reduce IntOp.andi x v reducesTo_S16x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x1 .f32 := Host.absf main_arg7
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x1 .f32) (main_arg1 : IVec S2x3200000 32) (main_arg2 : FVec F S3200000 .f32) (main_arg3 : FVec F S1x16 .f32) (main_arg4 : FVec F S16 .f32) (main_arg5 : FVec F S16x4 .f32) (main_arg6 : FVec F S4 .f32) (main_arg7 : FVec F S4x1 .f32) (main_arg8 : FVec F S1 .f32) (main_arg9 : FVec F S16 .f32) (main_arg10 : FVec F S16 .f32) (main_arg11 : FVec F S16 .f32) (main_arg12 : FVec F S16 .f32) (main_arg13 : FVec F S4 .f32) (main_arg14 : FVec F S4 .f32) (main_arg15 : FVec F S4 .f32) (main_arg16 : FVec F S4 .f32) (main_arg17 : FVec F S1 .f32) (main_arg18 : FVec F S1 .f32) (main_arg19 : FVec F S1 .f32) (main_arg20 : FVec F S1 .f32) (main_arg21 : FVec F S1x1 .f32) (main_arg22 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S_ : Shape := ⟨0, ![]⟩
abbrev S3300000 : Shape := ⟨1, ![3300000]⟩
abbrev S1x3300000 : Shape := ⟨2, ![1, 3300000]⟩
abbrev S3300000x1 : Shape := ⟨2, ![3300000, 1]⟩
abbrev S100000x16 : Shape := ⟨2, ![100000, 16]⟩
abbrev S10000x1 : Shape := ⟨2, ![10000, 1]⟩
abbrev S10000x16 : Shape := ⟨2, ![10000, 16]⟩
abbrev S3300000x16 : Shape := ⟨2, ![3300000, 16]⟩
abbrev S100000x4 : Shape := ⟨2, ![100000, 4]⟩
abbrev S10000x4 : Shape := ⟨2, ![10000, 4]⟩
abbrev S3300000x4 : Shape := ⟨2, ![3300000, 4]⟩
abbrev S1x4 : Shape := ⟨2, ![1, 4]⟩

abbrev nBuf : Space → Nat
  | .hbm => 185
  | .vmem => 44
  | .smem => 0
  | _ => 0

abbrev hbmTy0_0 (i : Nat) : BufTy := match i % 128 with
  | 0 => ⟨S100000x1, .f32⟩
  | 1 => ⟨S2x3200000, .i32⟩
  | 2 => ⟨S3200000, .f32⟩
  | 3 => ⟨S1x16, .f32⟩
  | 4 => ⟨S16, .f32⟩
  | 5 => ⟨S16x4, .f32⟩
  | 6 => ⟨S4, .f32⟩
  | 7 => ⟨S4x1, .f32⟩
  | 8 => ⟨S1, .f32⟩
  | 9 => ⟨S16, .f32⟩
  | 10 => ⟨S16, .f32⟩
  | 11 => ⟨S16, .f32⟩
  | 12 => ⟨S16, .f32⟩
  | 13 => ⟨S4, .f32⟩
  | 14 => ⟨S4, .f32⟩
  | 15 => ⟨S4, .f32⟩
  | 16 => ⟨S4, .f32⟩
  | 17 => ⟨S1, .f32⟩
  | 18 => ⟨S1, .f32⟩
  | 19 => ⟨S1, .f32⟩
  | 20 => ⟨S1, .f32⟩
  | 21 => ⟨S1x1, .f32⟩
  | 22 => ⟨S1, .f32⟩
  | 23 => ⟨S100000, .i32⟩
  | 24 => ⟨S1x100000, .i32⟩
  | 25 => ⟨S1x100000, .i32⟩
  | 26 => ⟨S2x100000, .i32⟩
  | 27 => ⟨S2x3300000, .i32⟩
  | 28 => ⟨S_, .f32⟩
  | 29 => ⟨S100000, .f32⟩
  | 30 => ⟨S3300000, .f32⟩
  | 31 => ⟨S1x3300000, .i32⟩
  | 32 => ⟨S3300000, .i32⟩
  | 33 => ⟨S1x3300000, .i32⟩
  | 34 => ⟨S3300000, .i32⟩
  | 35 => ⟨S_, .f32⟩
  | 36 => ⟨S100000, .f32⟩
  | 37 => ⟨S3300000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S_, .f32⟩
  | 44 => ⟨S100000, .f32⟩
  | 45 => ⟨S100000, .f32⟩
  | 46 => ⟨S_, .f32⟩
  | 47 => ⟨S100000, .f32⟩
  | 48 => ⟨S100000, .i1⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000, .f32⟩
  | 73 => ⟨S3300000, .f32⟩
  | 74 => ⟨S100000x16, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S1, .i32⟩
  | 84 => ⟨S_, .i32⟩
  | 85 => ⟨S3300000x1, .i32⟩
  | 86 => ⟨S3300000x1, .i1⟩
  | 87 => ⟨S1x1, .i32⟩
  | 88 => ⟨S3300000x1, .i32⟩
  | 89 => ⟨S3300000x1, .i1⟩
  | 90 => ⟨S3300000x1, .i1⟩
  | 91 => ⟨S_, .i1⟩
  | 92 => ⟨S3300000, .i1⟩
  | 93 => ⟨S3300000x16, .f32⟩
  | 94 => ⟨S3300000x16, .i1⟩
  | 95 => ⟨S_, .f32⟩
  | 96 => ⟨S3300000x16, .f32⟩
  | 97 => ⟨S3300000x16, .f32⟩
  | 98 => ⟨S3300000x1, .f32⟩
  | 99 => ⟨S3300000x16, .f32⟩
  | 100 => ⟨S3300000x16, .f32⟩
  | 101 => ⟨S_, .f32⟩
  | 102 => ⟨S100000x16, .f32⟩
  | 103 => ⟨S3300000x1, .i32⟩
  | 104 => ⟨S100000x16, .f32⟩
  | 105 => ⟨S1x16, .f32⟩
  | 106 => ⟨S1x16, .f32⟩
  | 107 => ⟨S1x16, .f32⟩
  | 108 => ⟨S1x16, .f32⟩
  | 109 => ⟨S1x16, .f32⟩
  | 110 => ⟨S100000x16, .f32⟩
  | 111 => ⟨S100000x4, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S1, .i32⟩
  | 121 => ⟨S_, .i32⟩
  | 122 => ⟨S3300000x1, .i32⟩
  | 123 => ⟨S3300000x1, .i1⟩
  | 124 => ⟨S1x1, .i32⟩
  | 125 => ⟨S3300000x1, .i32⟩
  | 126 => ⟨S3300000x1, .i1⟩
  | 127 => ⟨S3300000x1, .i1⟩
  | _ => ⟨S100000x1, .f32⟩

abbrev hbmTy0_1 (i : Nat) : BufTy := match i % 128 with
  | 0 => ⟨S_, .i1⟩
  | 1 => ⟨S3300000, .i1⟩
  | 2 => ⟨S3300000x4, .f32⟩
  | 3 => ⟨S3300000x4, .i1⟩
  | 4 => ⟨S_, .f32⟩
  | 5 => ⟨S3300000x4, .f32⟩
  | 6 => ⟨S3300000x4, .f32⟩
  | 7 => ⟨S3300000x1, .f32⟩
  | 8 => ⟨S3300000x4, .f32⟩
  | 9 => ⟨S3300000x4, .f32⟩
  | 10 => ⟨S_, .f32⟩
  | 11 => ⟨S100000x4, .f32⟩
  | 12 => ⟨S3300000x1, .i32⟩
  | 13 => ⟨S100000x4, .f32⟩
  | 14 => ⟨S1x4, .f32⟩
  | 15 => ⟨S1x4, .f32⟩
  | 16 => ⟨S1x4, .f32⟩
  | 17 => ⟨S1x4, .f32⟩
  | 18 => ⟨S1x4, .f32⟩
  | 19 => ⟨S100000x4, .f32⟩
  | 20 => ⟨S100000x1, .f32⟩
  | 21 => ⟨S_, .i32⟩
  | 22 => ⟨S3300000, .i32⟩
  | 23 => ⟨S3300000, .i1⟩
  | 24 => ⟨S_, .i32⟩
  | 25 => ⟨S3300000, .i32⟩
  | 26 => ⟨S3300000, .i32⟩
  | 27 => ⟨S3300000, .i32⟩
  | 28 => ⟨S3300000x1, .i32⟩
  | 29 => ⟨S1, .i32⟩
  | 30 => ⟨S_, .i32⟩
  | 31 => ⟨S3300000x1, .i32⟩
  | 32 => ⟨S3300000x1, .i1⟩
  | 33 => ⟨S1x1, .i32⟩
  | 34 => ⟨S3300000x1, .i32⟩
  | 35 => ⟨S3300000x1, .i1⟩
  | 36 => ⟨S3300000x1, .i1⟩
  | 37 => ⟨S_, .i1⟩
  | 38 => ⟨S3300000, .i1⟩
  | 39 => ⟨S3300000x1, .f32⟩
  | 40 => ⟨S3300000x1, .i1⟩
  | 41 => ⟨S_, .f32⟩
  | 42 => ⟨S3300000x1, .f32⟩
  | 43 => ⟨S3300000x1, .f32⟩
  | 44 => ⟨S3300000x1, .f32⟩
  | 45 => ⟨S3300000x1, .f32⟩
  | 46 => ⟨S_, .f32⟩
  | 47 => ⟨S100000x1, .f32⟩
  | 48 => ⟨S3300000x1, .i32⟩
  | 49 => ⟨S100000x1, .f32⟩
  | 50 => ⟨S1x1, .f32⟩
  | 51 => ⟨S1x1, .f32⟩
  | 52 => ⟨S1x1, .f32⟩
  | 53 => ⟨S1x1, .f32⟩
  | 54 => ⟨S1x1, .f32⟩
  | 55 => ⟨S1x1, .f32⟩
  | 56 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S16x4, .f32⟩
  | .local _ .vmem, ⟨17, _⟩ => ⟨S10000x4, .f32⟩
  | .local _ .vmem, ⟨18, _⟩ => ⟨S10000x4, .f32⟩
  | .local _ .vmem, ⟨19, _⟩ => ⟨S10000x4, .f32⟩
  | .local _ .vmem, ⟨20, _⟩ => ⟨S10000x4, .f32⟩
  | .local _ .vmem, ⟨21, _⟩ => ⟨S1x4, .f32⟩
  | .local _ .vmem, ⟨22, _⟩ => ⟨S1x4, .f32⟩
  | .local _ .vmem, ⟨23, _⟩ => ⟨S1x4, .f32⟩
  | .local _ .vmem, ⟨24, _⟩ => ⟨S1x4, .f32⟩
  | .local _ .vmem, ⟨25, _⟩ => ⟨S1x4, .f32⟩
  | .local _ .vmem, ⟨26, _⟩ => ⟨S10000x4, .f32⟩
  | .local _ .vmem, ⟨27, _⟩ => ⟨S10000x4, .f32⟩
  | .local _ .vmem, ⟨28, _⟩ => ⟨S10000x4, .f32⟩
  | .local _ .vmem, ⟨29, _⟩ => ⟨S10000x4, .f32⟩
  | .local _ .vmem, ⟨30, _⟩ => ⟨S4x1, .f32⟩
  | .local _ .vmem, ⟨31, _⟩ => ⟨S10000x1, .f32⟩
  | .local _ .vmem, ⟨32, _⟩ => ⟨S10000x1, .f32⟩
  | .local _ .vmem, ⟨33, _⟩ => ⟨S10000x1, .f32⟩
  | .local _ .vmem, ⟨34, _⟩ => ⟨S10000x1, .f32⟩
  | .local _ .vmem, ⟨35, _⟩ => ⟨S1x1, .f32⟩
  | .local _ .vmem, ⟨36, _⟩ => ⟨S1x1, .f32⟩
  | .local _ .vmem, ⟨37, _⟩ => ⟨S1x1, .f32⟩
  | .local _ .vmem, ⟨38, _⟩ => ⟨S1x1, .f32⟩
  | .local _ .vmem, ⟨39, _⟩ => ⟨S1x1, .f32⟩
  | .local _ .vmem, ⟨40, _⟩ => ⟨S1x1, .f32⟩
  | .local _ .vmem, ⟨41, _⟩ => ⟨S1x1, .f32⟩
  | .local _ .vmem, ⟨42, _⟩ => ⟨S10000x1, .f32⟩
  | .local _ .vmem, ⟨43, _⟩ => ⟨S10000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v20 : Ref sig .tc := ⟨.hbm, 53, rfl⟩
abbrev main_c : Ref sig .tc := ⟨.hbm, 54, rfl⟩
abbrev main_v21 : Ref sig .tc := ⟨.hbm, 55, rfl⟩
abbrev main_v22 : Ref sig .tc := ⟨.hbm, 56, rfl⟩
abbrev main_c_5 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_6 : Ref sig .tc := ⟨.hbm, 64, rfl⟩
abbrev main_v29 : Ref sig .tc := ⟨.hbm, 65, rfl⟩
abbrev main_v30 : Ref sig .tc := ⟨.hbm, 66, rfl⟩
abbrev main_c_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_cst_8 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_call3_c : Ref sig .tc := ⟨.hbm, 112, rfl⟩
abbrev main_call3_v0 : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_c_1 : Ref sig .tc := ⟨.hbm, 120, rfl⟩
abbrev main_call3_c_2 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_c_3 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_call3_cst : Ref sig .tc := ⟨.hbm, 132, rfl⟩
abbrev main_call3_v15 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_cst_9 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_v60 : Ref sig .tc := ⟨.hbm, 143, rfl⟩
abbrev main_v61 : Ref sig .tc := ⟨.hbm, 144, rfl⟩
abbrev main_v62 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v66 : Ref sig .tc := ⟨.hbm, 171, rfl⟩
abbrev main_v67 : Ref sig .tc := ⟨.hbm, 172, rfl⟩
abbrev main_v68 : Ref sig .tc := ⟨.hbm, 173, rfl⟩
abbrev main_cst_10 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg7_0 : Ref sig .tc := ⟨.vmem, 41, rfl⟩
abbrev cc5_stg8_0 : Ref sig .tc := ⟨.vmem, 42, rfl⟩
abbrev cc5_stg8_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem7_0 : DmaSem sig := 41
abbrev cc5_sem8_0 : DmaSem sig := 42
abbrev cc5_sem8_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x4 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S10000x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  bcast_S_S100000 : S_.BroadcastsInDim S100000 (![] : Fin 0 → Fin S100000.rank)
  concatenates_S3200000_S100000_S3300000_d0 : Shape.Concatenates [S3200000, S100000] S3300000 0
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  inb_S10000x16_S10000x16_0_0 : ∀ a, (![0, 0] : Fin 2 → Nat) a + S10000x16.size a ≤ S10000x16.size a
  h_S10000x16 : 0 < S10000x16.numel
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  bcast_S3300000_S3300000x16_0 : S3300000.BroadcastsInDim S3300000x16 (![0] : Fin 1 → Fin S3300000x16.rank)
  bcast_S_S3300000x16 : S_.BroadcastsInDim S3300000x16 (![] : Fin 0 → Fin S3300000x16.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  shapeCasts_S1x16_S1x16 : S1x16.ShapeCasts S1x16
  broadcasts_S1x16_S10000x16 : S1x16.Broadcasts S10000x16
  inb_S16x4_S16x4_0_0 : ∀ a, (![0, 0] : Fin 2 → Nat) a + S16x4.size a ≤ S16x4.size a
  h_S16x4 : 0 < S16x4.numel
  inb_S10000x4_S10000x4_0_0 : ∀ a, (![0, 0] : Fin 2 → Nat) a + S10000x4.size a ≤ S10000x4.size a
  h_S10000x4 : 0 < S10000x4.numel
  bcast_S3300000_S3300000x4_0 : S3300000.BroadcastsInDim S3300000x4 (![0] : Fin 1 → Fin S3300000x4.rank)
  bcast_S_S3300000x4 : S_.BroadcastsInDim S3300000x4 (![] : Fin 0 → Fin S3300000x4.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  shapeCasts_S4_S1x4 : S4.ShapeCasts S1x4
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S4x1_S4x1_0_0 : ∀ a, (![0, 0] : Fin 2 → Nat) a + S4x1.size a ≤ S4x1.size a
  h_S4x1 : 0 < S4x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x1_S1x16_S10000x16_1_0_0_1_n_n_wf : DotDims.WF S10000x1 S1x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x4_S10000x4_1_0_0_1_n_n_wf : DotDims.WF S10000x16 S16x4 S10000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S10000x4_S4x1_S10000x1_1_0_0_1_n_n_wf : DotDims.WF S10000x4 S4x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x16.size a ≤ S1x16.size a
  hwx1_5 : ∀ i : grid1.Coords, EltTy.bits .f32 = 32 ∨ (Rect.block (s := S1x16) S1x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x16.size a ≤ S100000x16.size a
  hwx1_6 : ∀ i : grid1.Coords, EltTy.bits .f32 = 32 ∨ (Rect.block (s := S100000x16) S10000x16.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x4.size a ≤ S16x4.size a
  hwx2_1 : ∀ i : grid2.Coords, EltTy.bits .f32 = 32 ∨ (Rect.block (s := S16x4) S16x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S100000x4.size a
  hwx2_2 : ∀ i : grid2.Coords, EltTy.bits .f32 = 32 ∨ (Rect.block (s := S100000x4) S10000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x4.size a ≤ S100000x4.size a
  hwx3_0 : ∀ i : grid3.Coords, EltTy.bits .f32 = 32 ∨ (Rect.block (s := S100000x4) S10000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4.size a ≤ S1x4.size a
  hwx3_3 : ∀ i : grid3.Coords, EltTy.bits .f32 = 32 ∨ (Rect.block (s := S1x4) S1x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x4.size a ≤ S1x4.size a
  hwx3_4 : ∀ i : grid3.Coords, EltTy.bits .f32 = 32 ∨ (Rect.block (s := S1x4) S1x4.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x4.size a ≤ S1x4.size a
  hwx3_5 : ∀ i : grid3.Coords, EltTy.bits .f32 = 32 ∨ (Rect.block (s := S1x4) S1x4.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x4.size a ≤ S100000x4.size a
  hwx3_6 : ∀ i : grid3.Coords, EltTy.bits .f32 = 32 ∨ (Rect.block (s := S100000x4) S10000x4.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x4.size a ≤ S100000x4.size a
  hwx4_0 : ∀ i : grid4.Coords, EltTy.bits .f32 = 32 ∨ (Rect.block (s := S100000x4) S10000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x1.size a ≤ S4x1.size a
  hwx4_1 : ∀ i : grid4.Coords, EltTy.bits .f32 = 32 ∨ (Rect.block (s := S4x1) S4x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1.size a ≤ S1x1.size a
  hwx5_5 : ∀ i : grid5.Coords, EltTy.bits .f32 = 32 ∨ (Rect.block (s := S1x1) S1x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x1.size a ≤ S1x1.size a
  hwx5_7 : ∀ i : grid5.Coords, EltTy.bits .f32 = 32 ∨ (Rect.block (s := S1x1) S1x1.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S10000x1.size a ≤ S100000x1.size a
  hwx5_8 : ∀ i : grid5.Coords, EltTy.bits .f32 = 32 ∨ (Rect.block (s := S100000x1) S10000x1.size (cc5_transform_8 i) (hinb5_8 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x1_S1x16_S10000x16_1_0_0_1_n_n : DotDims S10000x1 S1x16 S10000x16 where
  lhsContracting := [1]
  rhsContracting := [0]
  lhsNonContracting := [0]
  rhsNonContracting := [1]
  lhsBatch := []
  rhsBatch := []
  wf := dot_S10000x1_S1x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x4_S10000x4_1_0_0_1_n_n : DotDims S10000x16 S16x4 S10000x4 where
  lhsContracting := [1]
  rhsContracting := [0]
  lhsNonContracting := [0]
  rhsNonContracting := [1]
  lhsBatch := []
  rhsBatch := []
  wf := dot_S10000x16_S16x4_S10000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S10000x4_S4x1_S10000x1_1_0_0_1_n_n : DotDims S10000x4 S4x1 S10000x1 where
  lhsContracting := [1]
  rhsContracting := [0]
  lhsNonContracting := [0]
  rhsNonContracting := [1]
  lhsBatch := []
  rhsBatch := []
  wf := dot_S10000x4_S4x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S10000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1x4.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v64) S10000x4.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v64) S10000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S4x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S1x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg21) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v77) S1x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v78) S10000x1.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S_ : Shape := ⟨0, ![]⟩
abbrev S3300000 : Shape := ⟨1, ![3300000]⟩
abbrev S1x3300000 : Shape := ⟨2, ![1, 3300000]⟩
abbrev S3300000x1 : Shape := ⟨2, ![3300000, 1]⟩
abbrev S100000x16 : Shape := ⟨2, ![100000, 16]⟩
abbrev S3300000x16 : Shape := ⟨2, ![3300000, 16]⟩
abbrev S100000x4 : Shape := ⟨2, ![100000, 4]⟩
abbrev S3300000x4 : Shape := ⟨2, ![3300000, 4]⟩
abbrev S1x4 : Shape := ⟨2, ![1, 4]⟩

abbrev nBuf : Space → Nat
  | .hbm => 199
  | .vmem => 0
  | .smem => 0
  | _ => 0

abbrev hbmTy0_0 (i : Nat) : BufTy := match i % 128 with
  | 0 => ⟨S100000x1, .f32⟩
  | 1 => ⟨S2x3200000, .i32⟩
  | 2 => ⟨S3200000, .f32⟩
  | 3 => ⟨S1x16, .f32⟩
  | 4 => ⟨S16, .f32⟩
  | 5 => ⟨S16x4, .f32⟩
  | 6 => ⟨S4, .f32⟩
  | 7 => ⟨S4x1, .f32⟩
  | 8 => ⟨S1, .f32⟩
  | 9 => ⟨S16, .f32⟩
  | 10 => ⟨S16, .f32⟩
  | 11 => ⟨S16, .f32⟩
  | 12 => ⟨S16, .f32⟩
  | 13 => ⟨S4, .f32⟩
  | 14 => ⟨S4, .f32⟩
  | 15 => ⟨S4, .f32⟩
  | 16 => ⟨S4, .f32⟩
  | 17 => ⟨S1, .f32⟩
  | 18 => ⟨S1, .f32⟩
  | 19 => ⟨S1, .f32⟩
  | 20 => ⟨S1, .f32⟩
  | 21 => ⟨S1x1, .f32⟩
  | 22 => ⟨S1, .f32⟩
  | 23 => ⟨S100000, .i32⟩
  | 24 => ⟨S1x100000, .i32⟩
  | 25 => ⟨S1x100000, .i32⟩
  | 26 => ⟨S2x100000, .i32⟩
  | 27 => ⟨S2x3300000, .i32⟩
  | 28 => ⟨S_, .f32⟩
  | 29 => ⟨S100000, .f32⟩
  | 30 => ⟨S3300000, .f32⟩
  | 31 => ⟨S1x3300000, .i32⟩
  | 32 => ⟨S3300000, .i32⟩
  | 33 => ⟨S1x3300000, .i32⟩
  | 34 => ⟨S3300000, .i32⟩
  | 35 => ⟨S_, .f32⟩
  | 36 => ⟨S100000, .f32⟩
  | 37 => ⟨S3300000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S_, .f32⟩
  | 44 => ⟨S100000, .f32⟩
  | 45 => ⟨S100000, .f32⟩
  | 46 => ⟨S_, .f32⟩
  | 47 => ⟨S100000, .f32⟩
  | 48 => ⟨S100000, .i1⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000, .f32⟩
  | 73 => ⟨S3300000, .f32⟩
  | 74 => ⟨S100000x16, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S3300000x16, .f32⟩
  | 84 => ⟨S3300000x1, .f32⟩
  | 85 => ⟨S3300000x16, .f32⟩
  | 86 => ⟨S3300000x16, .f32⟩
  | 87 => ⟨S_, .f32⟩
  | 88 => ⟨S100000x16, .f32⟩
  | 89 => ⟨S3300000x1, .i32⟩
  | 90 => ⟨S100000x16, .f32⟩
  | 91 => ⟨S1x16, .f32⟩
  | 92 => ⟨S100000x16, .f32⟩
  | 93 => ⟨S100000x16, .f32⟩
  | 94 => ⟨S1x16, .f32⟩
  | 95 => ⟨S100000x16, .f32⟩
  | 96 => ⟨S100000x16, .f32⟩
  | 97 => ⟨S_, .f32⟩
  | 98 => ⟨S16, .f32⟩
  | 99 => ⟨S16, .f32⟩
  | 100 => ⟨S16, .f32⟩
  | 101 => ⟨S1x16, .f32⟩
  | 102 => ⟨S100000x16, .f32⟩
  | 103 => ⟨S100000x16, .f32⟩
  | 104 => ⟨S1x16, .f32⟩
  | 105 => ⟨S100000x16, .f32⟩
  | 106 => ⟨S100000x16, .f32⟩
  | 107 => ⟨S1x16, .f32⟩
  | 108 => ⟨S100000x16, .f32⟩
  | 109 => ⟨S100000x16, .f32⟩
  | 110 => ⟨S_, .f32⟩
  | 111 => ⟨S100000x16, .f32⟩
  | 112 => ⟨S100000x16, .f32⟩
  | 113 => ⟨S100000x4, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x4, .f32⟩
  | 123 => ⟨S3300000x1, .f32⟩
  | 124 => ⟨S3300000x4, .f32⟩
  | 125 => ⟨S3300000x4, .f32⟩
  | 126 => ⟨S_, .f32⟩
  | 127 => ⟨S100000x4, .f32⟩
  | _ => ⟨S100000x1, .f32⟩

abbrev hbmTy0_1 (i : Nat) : BufTy := match i % 128 with
  | 0 => ⟨S3300000x1, .i32⟩
  | 1 => ⟨S100000x4, .f32⟩
  | 2 => ⟨S1x4, .f32⟩
  | 3 => ⟨S100000x4, .f32⟩
  | 4 => ⟨S100000x4, .f32⟩
  | 5 => ⟨S1x4, .f32⟩
  | 6 => ⟨S100000x4, .f32⟩
  | 7 => ⟨S100000x4, .f32⟩
  | 8 => ⟨S_, .f32⟩
  | 9 => ⟨S4, .f32⟩
  | 10 => ⟨S4, .f32⟩
  | 11 => ⟨S4, .f32⟩
  | 12 => ⟨S1x4, .f32⟩
  | 13 => ⟨S100000x4, .f32⟩
  | 14 => ⟨S100000x4, .f32⟩
  | 15 => ⟨S1x4, .f32⟩
  | 16 => ⟨S100000x4, .f32⟩
  | 17 => ⟨S100000x4, .f32⟩
  | 18 => ⟨S1x4, .f32⟩
  | 19 => ⟨S100000x4, .f32⟩
  | 20 => ⟨S100000x4, .f32⟩
  | 21 => ⟨S_, .f32⟩
  | 22 => ⟨S100000x4, .f32⟩
  | 23 => ⟨S100000x4, .f32⟩
  | 24 => ⟨S100000x1, .f32⟩
  | 25 => ⟨S_, .i32⟩
  | 26 => ⟨S3300000, .i32⟩
  | 27 => ⟨S3300000, .i1⟩
  | 28 => ⟨S_, .i32⟩
  | 29 => ⟨S3300000, .i32⟩
  | 30 => ⟨S3300000, .i32⟩
  | 31 => ⟨S3300000, .i32⟩
  | 32 => ⟨S3300000x1, .i32⟩
  | 33 => ⟨S3300000x1, .f32⟩
  | 34 => ⟨S3300000x1, .f32⟩
  | 35 => ⟨S3300000x1, .f32⟩
  | 36 => ⟨S_, .f32⟩
  | 37 => ⟨S100000x1, .f32⟩
  | 38 => ⟨S3300000x1, .i32⟩
  | 39 => ⟨S100000x1, .f32⟩
  | 40 => ⟨S1x1, .f32⟩
  | 41 => ⟨S100000x1, .f32⟩
  | 42 => ⟨S100000x1, .f32⟩
  | 43 => ⟨S1x1, .f32⟩
  | 44 => ⟨S100000x1, .f32⟩
  | 45 => ⟨S100000x1, .f32⟩
  | 46 => ⟨S_, .f32⟩
  | 47 => ⟨S1, .f32⟩
  | 48 => ⟨S1, .f32⟩
  | 49 => ⟨S1, .f32⟩
  | 50 => ⟨S1x1, .f32⟩
  | 51 => ⟨S100000x1, .f32⟩
  | 52 => ⟨S100000x1, .f32⟩
  | 53 => ⟨S1x1, .f32⟩
  | 54 => ⟨S100000x1, .f32⟩
  | 55 => ⟨S100000x1, .f32⟩
  | 56 => ⟨S1x1, .f32⟩
  | 57 => ⟨S100000x1, .f32⟩
  | 58 => ⟨S100000x1, .f32⟩
  | 59 => ⟨S100000x1, .f32⟩
  | 60 => ⟨S1x1, .f32⟩
  | 61 => ⟨S100000x1, .f32⟩
  | 62 => ⟨S100000x1, .f32⟩
  | 63 => ⟨S100000x1, .f32⟩
  | 64 => ⟨S100000x1, .f32⟩
  | 65 => ⟨S_, .f32⟩
  | 66 => ⟨S100000x1, .f32⟩
  | 67 => ⟨S100000x1, .f32⟩
  | 68 => ⟨S_, .f32⟩
  | 69 => ⟨S100000x1, .f32⟩
  | 70 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v20 : Ref sig .tc := ⟨.hbm, 53, rfl⟩
abbrev main_c : Ref sig .tc := ⟨.hbm, 54, rfl⟩
abbrev main_v21 : Ref sig .tc := ⟨.hbm, 55, rfl⟩
abbrev main_v22 : Ref sig .tc := ⟨.hbm, 56, rfl⟩
abbrev main_c_5 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_6 : Ref sig .tc := ⟨.hbm, 64, rfl⟩
abbrev main_v29 : Ref sig .tc := ⟨.hbm, 65, rfl⟩
abbrev main_v30 : Ref sig .tc := ⟨.hbm, 66, rfl⟩
abbrev main_c_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_8 : Ref sig .tc := ⟨.hbm, 75, rfl⟩
abbrev main_v38 : Ref sig .tc := ⟨.hbm, 76, rfl⟩
abbrev main_v39 : Ref sig .tc := ⟨.hbm, 77, rfl⟩
abbrev main_c_9 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_10 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_11 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call2_cst : Ref sig .tc := ⟨.hbm, 110, rfl⟩
abbrev main_call2_v0 : Ref sig .tc := ⟨.hbm, 111, rfl⟩
abbrev main_v69 : Ref sig .tc := ⟨.hbm, 112, rfl⟩
abbrev main_v70 : Ref sig .tc := ⟨.hbm, 113, rfl⟩
abbrev main_c_12 : Ref sig .tc := ⟨.hbm, 114, rfl⟩
abbrev main_v71 : Ref sig .tc := ⟨.hbm, 115, rfl⟩
abbrev main_v72 : Ref sig .tc := ⟨.hbm, 116, rfl⟩
abbrev main_c_13 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_14 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_15 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_call3_cst : Ref sig .tc := ⟨.hbm, 149, rfl⟩
abbrev main_call3_v0 : Ref sig .tc := ⟨.hbm, 150, rfl⟩
abbrev main_v102 : Ref sig .tc := ⟨.hbm, 151, rfl⟩
abbrev main_v103 : Ref sig .tc := ⟨.hbm, 152, rfl⟩
abbrev main_c_16 : Ref sig .tc := ⟨.hbm, 153, rfl⟩
abbrev main_v104 : Ref sig .tc := ⟨.hbm, 154, rfl⟩
abbrev main_v105 : Ref sig .tc := ⟨.hbm, 155, rfl⟩
abbrev main_c_17 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_18 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_cst_19 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_20 : Ref sig .tc := ⟨.hbm, 193, rfl⟩
abbrev main_v140 : Ref sig .tc := ⟨.hbm, 194, rfl⟩
abbrev main_v141 : Ref sig .tc := ⟨.hbm, 195, rfl⟩
abbrev main_cst_21 : Ref sig .tc := ⟨.hbm, 196, rfl⟩
abbrev main_v142 : Ref sig .tc := ⟨.hbm, 197, rfl⟩
abbrev main_v143 : Ref sig .tc := ⟨.hbm, 198, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  bcast_S_S100000 : S_.BroadcastsInDim S100000 (![] : Fin 0 → Fin S100000.rank)
  concatenates_S3200000_S100000_S3300000_d0 : Shape.Concatenates [S3200000, S100000] S3300000 0
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S16 : S_.BroadcastsInDim S16 (![] : Fin 0 → Fin S16.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S4 : S_.BroadcastsInDim S4 (![] : Fin 0 → Fin S4.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S1 : S_.BroadcastsInDim S1 (![] : Fin 0 → Fin S1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x16_S100000x16_1_0_0_1_n_n_wf : DotDims.WF S100000x1 S1x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x4_S100000x4_1_0_0_1_n_n_wf : DotDims.WF S100000x16 S16x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S100000x4_S4x1_S100000x1_1_0_0_1_n_n_wf : DotDims.WF S100000x4 S4x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  dot_S100000x1_S1x1_S100000x1_1_0_0_1_n_n_wf : DotDims.WF S100000x1 S1x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S100000x4_S4x1_S100000x1_1_0_0_1_n_n : DotDims S100000x4 S4x1 S100000x1 where
  lhsContracting := [1]
  rhsContracting := [0]
  lhsNonContracting := [0]
  rhsNonContracting := [1]
  lhsBatch := []
  rhsBatch := []
  wf := dot_S100000x4_S4x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def dot_S100000x1_S1x1_S100000x1_1_0_0_1_n_n : DotDims S100000x1 S1x1 S100000x1 where
  lhsContracting := [1]
  rhsContracting := [0]
  lhsNonContracting := [0]
  rhsNonContracting := [1]
  lhsBatch := []
  rhsBatch := []
  wf := dot_S100000x1_S1x1_S100000x1_1_0_0_1_n_n_wf

class Facts : Prop extends Facts₀ where

variable [Facts]
-- ==== Proof.PreRange.lean ====
/-
  From the precondition to the one fact about the edge list the proof uses: every word of the edge list is a node
  number, 0 ≤ word < 100000. The printed precondition is a conjunction of per-array tests; its last conjunct is the
  all-entries test of exactly this range.
-/
import proofs.«412636_j1769526526166_2_alg».proof.Defs
import proofs.«412636_j1769526526166_2_alg».proof.Proof.Gen.KernelIdeal
import proofs.«412636_j1769526526166_2_alg».proof.Proof.Gen.Pre_finite_inputs
import Idealize.ShloMosaic.Lib.ReduceAll
import Idealize.ShloMosaic.Lib.StableHlo.Predicate

noncomputable section

namespace Cert.KernelIdeal.KV

open Cert.KernelIdeal
open Idealize.ShloMosaic Idealize.ShloMosaic.TcCoe Idealize.SL.Sem

/-- Under the precondition every word of the edge list lies in 0 … 99999, on every device. -/
theorem ei_range_of_pre [Cert.Pre_finite_inputs.Facts] (m : (ℓ : Loc nD τ sig) → Buf (Elt Ideal) ℓ)
    (hpre : Cert.Pre_KernelIdeal m) (c : Dev nD) (j : S2x3200000.Idx) :
    0 ≤ ((m ((c.tc : Thread nD τ).loc main_arg1) : IVec S2x3200000 32) j).toInt
      ∧ ((m ((c.tc : Thread nD τ).loc main_arg1) : IVec S2x3200000 32) j).toInt < 100000 := by
  -- the precondition at its one index: a conjunction whose last conjunct is the all-entries test of the range
  have h := congrFun (hpre c) (fun a => a.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h
  obtain ⟨-, h114⟩ := IntOp.andi_eq_one.1 h
  clear h
  -- an all-entries conjunction that is 1 is 1 at entry j; there both comparisons hold, read as signed values
  haveI : Subsingleton Cert.Pre_finite_inputs.S_.Idx := ⟨fun a b => funext fun d => d.elim0⟩
  have hj := Host.reduce_andi_all _ _ _ _ _ h114 j
  obtain ⟨hge, hlt⟩ := IntOp.andi_eq_one.1 hj
  have hge' := IntOp.cmpi_sge.1 hge
  have hlt' := IntOp.cmpi_slt.1 hlt
  have z : (0#32 : BitVec 32).toInt = 0 := by decide
  have n : (100000#32 : BitVec 32).toInt = 100000 := by decide
  exact ⟨by rw [← z]; exact hge', by rw [← n]; exact hlt'⟩

end Cert.KernelIdeal.KV

end
-- ==== Proof.Take.lean ====
/-
  Reading rows of a table at an array of index words, the way the kernel's host code does it: a negative word is first
  moved up by the table's height, the rows are fetched, and a row whose moved word still lies outside the table is
  replaced by the not-a-number word. When every word already lies inside the table, no row is replaced.
-/
import proofs.«412636_j1769526526166_2_alg».proof.Proof.Gen.KernelIdeal
import Idealize.ShloMosaic.Lib.Pipeline.Value
import Idealize.ShloMosaic.Lib.ValueIdx
import Idealize.ShloMosaic.Lib.ReduceAll
import Idealize.ShloMosaic.Lib.StableHlo.Predicate

noncomputable section

namespace Cert.KernelIdeal.KV

open Cert.KernelIdeal Cert.KernelIdeal.Facts₀ Cert.KernelIdeal.Facts
open Idealize.ShloMosaic Idealize.ShloMosaic.TcCoe

variable {F : FTy → Type} [FloatOps F]

/-- A negative index word moved up by the table's height (100000); the others kept. -/
def wrapRow (row : IVec S3300000 32) : IVec S3300000 32 :=
  select (cmpi .slt row (broadcastInDim S3300000 ![] bcast_S_S3300000 (constantI S_ 32 0#32)))
    (addi row (broadcastInDim S3300000 ![] bcast_S_S3300000 (constantI S_ 32 100000#32))) row

/-- The moved words as a column, the form the gather takes its start indices in. -/
def rowCol (row : IVec S3300000 32) : IVec S3300000x1 32 :=
  broadcastInDim S3300000x1 ![0] bcast_S3300000_S3300000x1_0 (wrapRow row)

/-- Per index word: does the moved word lie in 0 … 99999? -/
def inRange (row : IVec S3300000 32) : IVec S3300000 1 :=
  Host.reduce IntOp.andi
    (andi (cmpi .sge (rowCol row) (broadcastInDim S3300000x1 ![] bcast_S_S3300000x1 (constantI S_ 32 0#32)))
      (cmpi .sle (rowCol row) (broadcastInDim S3300000x1 ![0, 1] bcast_S1x1_S3300000x1_0_1
        (broadcastInDim S1x1 ![1] bcast_S1_S1x1_1 (constantI S1 32 99999#32)))))
    (constantI S_ 1 1#1) reducesTo_S3300000x1_S3300000_d1 h_S_

/-- The rows of a 16-wide table at the index words, rows at out-of-table words replaced by not-a-number. -/
def take16 (h : FVec F S100000x16 .f32) (row : IVec S3300000 32) : FVec F S3300000x16 .f32 :=
  select (broadcastInDim S3300000x16 ![0] bcast_S3300000_S3300000x16_0 (inRange row))
    (Host.gather gather_S100000x16_S3300000x1_S3300000x16_1_0_n_n_0_1_116 h (rowCol row))
    (broadcastInDim S3300000x16 ![] bcast_S_S3300000x16 (constant S_ .f32 0x7FC00000#32))

/-- The same for a 4-wide table. -/
def take4 (h : FVec F S100000x4 .f32) (row : IVec S3300000 32) : FVec F S3300000x4 .f32 :=
  select (broadcastInDim S3300000x4 ![0] bcast_S3300000_S3300000x4_0 (inRange row))
    (Host.gather gather_S100000x4_S3300000x1_S3300000x4_1_0_n_n_0_1_14 h (rowCol row))
    (broadcastInDim S3300000x4 ![] bcast_S_S3300000x4 (constant S_ .f32 0x7FC00000#32))

/-- The same for a 1-wide table. -/
def take1 (h : FVec F S100000x1 .f32) (row : IVec S3300000 32) : FVec F S3300000x1 .f32 :=
  select (broadcastInDim S3300000x1 ![0] bcast_S3300000_S3300000x1_0 (inRange row))
    (Host.gather gather_S100000x1_S3300000x1_S3300000x1_1_0_n_n_0_1_11 h (rowCol row))
    (broadcastInDim S3300000x1 ![] bcast_S_S3300000x1 (constant S_ .f32 0x7FC00000#32))

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A word in 0 … 99999 is kept by the move, and passes both comparisons. -/
theorem word_pass (w : BitVec 32) (h0 : 0 ≤ w.toInt) (h1 : w.toInt < 100000) :
    Scalar.select (IntOp.cmpi .slt w 0#32) (IntOp.addi w 100000#32) w = w
      ∧ IntOp.andi (IntOp.cmpi .sge w 0#32) (IntOp.cmpi .sle w 99999#32) = 1#1 := by
  have z : (0#32 : BitVec 32).toInt = 0 := by decide
  have n : (99999#32 : BitVec 32).toInt = 99999 := by decide
  refine ⟨?_, ?_⟩
  · have : IntOp.cmpi .slt w 0#32 = 0#1 := by
      simp only [IntOp.cmpi, BitVec.slt, z]
      rw [decide_eq_false (by omega)]; rfl
    rw [this]; rfl
  · have a : IntOp.cmpi .sge w 0#32 = 1#1 := by
      simp only [IntOp.cmpi, BitVec.sle, z]
      rw [decide_eq_true (by omega)]; rfl
    have b : IntOp.cmpi .sle w 99999#32 = 1#1 := by
      simp only [IntOp.cmpi, BitVec.sle, n]
      rw [decide_eq_true (by omega)]; rfl
    rw [a, b]; decide

/-- A select whose mask is 1 everywhere is its first operand. -/
theorem select_ones {α : Type} {s : Shape} (m : IVec s 1) (hm : ∀ j, m j = 1#1) (a b : s.Idx → α) :
    select m a b = a := by
  funext j
  show Scalar.select (m j) (a j) (b j) = a j
  rw [hm j]
  unfold Scalar.select
  exact if_pos rfl

/-- When every index word lies in 0 … 99999, every word passes the test. -/
theorem inRange_eq_ones (row : IVec S3300000 32)
    (hrow : ∀ e : S3300000.Idx, 0 ≤ (row e).toInt ∧ (row e).toInt < 100000) :
    inRange row = fun _ => 1#1 := by
  funext j
  unfold inRange
  rw [Host.reduce_eq_foldl]
  refine foldl_andi_ones _ (fun i => ?_) _
  have key : ∀ e : S3300000.Idx,
      IntOp.andi (IntOp.cmpi .sge (wrapRow row e) 0#32) (IntOp.cmpi .sle (wrapRow row e) 99999#32) = 1#1 := by
    intro e
    obtain ⟨h0, h1⟩ := hrow e
    obtain ⟨p, q⟩ := word_pass (row e) h0 h1
    have hw : wrapRow row e = row e := p
    rw [hw]; exact q
  exact key _

/-- … so no row is replaced: the take is the plain gather at the moved words. -/
theorem take16_eq (h : FVec F S100000x16 .f32) (row : IVec S3300000 32)
    (hrow : ∀ e : S3300000.Idx, 0 ≤ (row e).toInt ∧ (row e).toInt < 100000) :
    take16 h row = Host.gather gather_S100000x16_S3300000x1_S3300000x16_1_0_n_n_0_1_116 h (rowCol row) := by
  unfold take16
  rw [inRange_eq_ones row hrow]
  exact select_ones _ (fun _ => rfl) _ _

theorem take4_eq (h : FVec F S100000x4 .f32) (row : IVec S3300000 32)
    (hrow : ∀ e : S3300000.Idx, 0 ≤ (row e).toInt ∧ (row e).toInt < 100000) :
    take4 h row = Host.gather gather_S100000x4_S3300000x1_S3300000x4_1_0_n_n_0_1_14 h (rowCol row) := by
  unfold take4
  rw [inRange_eq_ones row hrow]
  exact select_ones _ (fun _ => rfl) _ _

theorem take1_eq (h : FVec F S100000x1 .f32) (row : IVec S3300000 32)
    (hrow : ∀ e : S3300000.Idx, 0 ≤ (row e).toInt ∧ (row e).toInt < 100000) :
    take1 h row = Host.gather gather_S100000x1_S3300000x1_S3300000x1_1_0_n_n_0_1_11 h (rowCol row) := by
  unfold take1
  rw [inRange_eq_ones row hrow]
  exact select_ones _ (fun _ => rfl) _ _

/-- The source-node words of all edges: the first row of the edge list followed by the self loops 0 … 99999. -/
def rowOf (ei : IVec S2x3200000 32) : IVec S3300000 32 :=
  shapeCast S3300000
    (extractStridedSlice S1x3300000 ![0, 0]
      (concatenate S2x3300000 1
        [⟨S2x3200000, ei⟩,
         ⟨S2x100000, concatenate S2x100000 0
            [⟨S1x100000, broadcastInDim S1x100000 ![1] bcast_S100000_S1x100000_1 (iotaInDim S100000 32 0)⟩,
             ⟨S1x100000, broadcastInDim S1x100000 ![1] bcast_S100000_S1x100000_1 (iotaInDim S100000 32 0)⟩]
            concatenates_S1x100000_S1x100000_S2x100000_d0⟩]
        concatenates_S2x3200000_S2x100000_S2x3300000_d1)
      slices_S2x3300000_S1x3300000_0_0)
    shapeCasts_S1x3300000_S3300000

/-- The source-node word of edge `p`: the edge list's first-row entry for p < 3200000, the self loop's node p − 3200000 after. -/
theorem rowOf_apply (ei : IVec S2x3200000 32) (p : Fin 3300000) :
    rowOf ei (ValueIdx.ix1 p)
      = if h : p.val < 3200000 then ei (ValueIdx.ix2 (0 : Fin 2) (⟨p.val, h⟩ : Fin 3200000))
        else BitVec.ofNat 32 (p.val - 3200000) := by
  unfold rowOf
  refine (shapeCast_apply _ _ (ValueIdx.ix1 p) (ValueIdx.ix2 (0 : Fin 1) p) ?_).trans ?_
  · rw [Shape.rowMajor_val_two, Shape.rowMajor_val_one]
    show 0 * 3300000 + p.val = p.val
    omega
  refine (extractStridedSlice_apply _ _ _ (ValueIdx.ix2 (0 : Fin 1) p) (ValueIdx.ix2 (0 : Fin 2) p)
    (fun a => match a with
      | ⟨0, _⟩ => by show (0 : Nat) = 0 + 0; rfl
      | ⟨1, _⟩ => by show p.val = 0 + p.val; omega)).trans ?_
  by_cases hp : p.val < 3200000
  · rw [dif_pos hp]
    exact concatenate_pair_apply_left (t := S2x3300000) (s₁ := S2x3200000) (s₂ := S2x100000) (1 : Fin 2) ei _ concatenates_S2x3200000_S2x100000_S2x3300000_d1
      (ValueIdx.ix2 (0 : Fin 2) p) rfl (ValueIdx.ix2 (0 : Fin 2) (⟨p.val, hp⟩ : Fin 3200000))
      (fun b => match b with | ⟨0, _⟩ => rfl | ⟨1, _⟩ => rfl)
  · rw [dif_neg hp]
    have hlt := p.isLt
    obtain ⟨q, hqv⟩ : ∃ q : Fin 100000, q.val + 3200000 = p.val :=
      ⟨⟨p.val - 3200000, by omega⟩, by show p.val - 3200000 + 3200000 = p.val; omega⟩
    rw [show p.val - 3200000 = q.val from by omega]
    refine (concatenate_pair_apply_right (t := S2x3300000) (s₁ := S2x3200000) (s₂ := S2x100000) (1 : Fin 2) ei _ concatenates_S2x3200000_S2x100000_S2x3300000_d1
      (ValueIdx.ix2 (0 : Fin 2) p) rfl rfl (ValueIdx.ix2 (0 : Fin 2) q)
      (fun b => match b with
        | ⟨0, _⟩ => fun _ => rfl
        | ⟨1, _⟩ => fun hb => absurd rfl hb)
      hqv).trans ?_
    refine (concatenate_pair_apply_left (t := S2x100000) (s₁ := S1x100000) (s₂ := S1x100000) (0 : Fin 2) _ _ concatenates_S1x100000_S1x100000_S2x100000_d0
      (ValueIdx.ix2 (0 : Fin 2) q) rfl
      (ValueIdx.ix2 (0 : Fin 1) q)
      (fun b => match b with | ⟨0, _⟩ => rfl | ⟨1, _⟩ => rfl)).trans ?_
    exact broadcastInDim_apply _ _ _ _ (ValueIdx.ix1 q)
      (fun a => match a with | ⟨0, _⟩ => (if_neg (show ¬ ((100000 : Nat) = 1) by decide)).symm)

/-- If every word of the edge list names a node, so does every source-node word (the self loops name nodes by construction). -/
theorem rowOf_range (ei : IVec S2x3200000 32)
    (hei : ∀ j : S2x3200000.Idx, 0 ≤ (ei j).toInt ∧ (ei j).toInt < 100000) (e : S3300000.Idx) :
    0 ≤ (rowOf ei e).toInt ∧ (rowOf ei e).toInt < 100000 := by
  obtain ⟨p, rfl⟩ : ∃ p : Fin 3300000, e = ValueIdx.ix1 p := ⟨e 0, ValueIdx.eq_ix1 e⟩
  rw [rowOf_apply ei p]
  split
  · exact hei _
  · next hp =>
    have hlt := p.isLt
    rw [StableHlo.Predicate.toInt_ofNat_small _ (by omega)]
    omega

end Cert.KernelIdeal.KV

end
-- ==== Proof.Hops.lean ====
/-
  The kernel program between its six regions: what each buffer the proof follows holds at each boundary of the host
  stretches and regions, read off the boundary contents of the generated frame. The edge words and the edge
  coefficients are computed once, before the first region, and no later operation writes them; the argument arrays are
  never written; each gather, scaled scatter-add and parameter reshape is one host stretch read back as a term of the
  contents before it; each region's result array is what its pipeline leaves.
-/
import proofs.«412636_j1769526526166_2_alg».proof.Proof.Gen.KernelIdeal.Frame
import proofs.«412636_j1769526526166_2_alg».proof.Proof.Take
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A host stretch that does not write a buffer leaves it as it was. -/
macro "skip_ops " ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## The edge words and coefficients, and the arguments, carried to where they are read -/

theorem arg0_at5 (c : Dev nD) : W5 m ρ c (Proc.devRef .tc main_arg0) = m ((c : Thread nD τ).loc main_arg0) :=
  calc W5 m ρ c (Proc.devRef .tc main_arg0)
    _ = W4 m ρ c (Proc.devRef .tc main_arg0) := by skip_ops hostOps0_4
    _ = W3 m ρ c (Proc.devRef .tc main_arg0) := by skip_ops hostOps0_3
    _ = W2 m ρ c (Proc.devRef .tc main_arg0) := by skip_ops hostOps0_2
    _ = W1 m ρ c (Proc.devRef .tc main_arg0) := by skip_ops hostOps0_1
    _ = W0 m ρ c (Proc.devRef .tc main_arg0) := by skip_ops hostOps0
    _ = m ((c : Thread nD τ).loc main_arg0) := rfl

theorem arg3_at5 (c : Dev nD) : W5 m ρ c (Proc.devRef .tc main_arg3) = m ((c : Thread nD τ).loc main_arg3) :=
  calc W5 m ρ c (Proc.devRef .tc main_arg3)
    _ = W4 m ρ c (Proc.devRef .tc main_arg3) := by skip_ops hostOps0_4
    _ = W3 m ρ c (Proc.devRef .tc main_arg3) := by skip_ops hostOps0_3
    _ = W2 m ρ c (Proc.devRef .tc main_arg3) := by skip_ops hostOps0_2
    _ = W1 m ρ c (Proc.devRef .tc main_arg3) := by skip_ops hostOps0_1
    _ = W0 m ρ c (Proc.devRef .tc main_arg3) := by skip_ops hostOps0
    _ = m ((c : Thread nD τ).loc main_arg3) := rfl

theorem v8_at6 (c : Dev nD) : W6 m ρ c (Proc.devRef .tc main_v8) = W5 m ρ c (Proc.devRef .tc main_v8) :=
  calc W6 m ρ c (Proc.devRef .tc main_v8)
    _ = W5 m ρ c (Proc.devRef .tc main_v8) := W6_of_ne m ρ c main_v8 (by decide)

theorem v10_at7 (c : Dev nD) : W7 m ρ c (Proc.devRef .tc main_v10) = W5 m ρ c (Proc.devRef .tc main_v10) :=
  calc W7 m ρ c (Proc.devRef .tc main_v10)
    _ = W6 m ρ c (Proc.devRef .tc main_v10) := by skip_ops hostOps1
    _ = W5 m ρ c (Proc.devRef .tc main_v10) := W6_of_ne m ρ c main_v10 (by decide)

theorem v36_at7 (c : Dev nD) : W7 m ρ c (Proc.devRef .tc main_v36) = W5 m ρ c (Proc.devRef .tc main_v36) :=
  calc W7 m ρ c (Proc.devRef .tc main_v36)
    _ = W6 m ρ c (Proc.devRef .tc main_v36) := by skip_ops hostOps1
    _ = W5 m ρ c (Proc.devRef .tc main_v36) := W6_of_ne m ρ c main_v36 (by decide)

theorem arg4_at7 (c : Dev nD) : W7 m ρ c (Proc.devRef .tc main_arg4) = m ((c : Thread nD τ).loc main_arg4) :=
  calc W7 m ρ c (Proc.devRef .tc main_arg4)
    _ = W6 m ρ c (Proc.devRef .tc main_arg4) := by skip_ops hostOps1
    _ = W5 m ρ c (Proc.devRef .tc main_arg4) := W6_of_ne m ρ c main_arg4 (by decide)
    _ = W4 m ρ c (Proc.devRef .tc main_arg4) := by skip_ops hostOps0_4
    _ = W3 m ρ c (Proc.devRef .tc main_arg4) := by skip_ops hostOps0_3
    _ = W2 m ρ c (Proc.devRef .tc main_arg4) := by skip_ops hostOps0_2
    _ = W1 m ρ c (Proc.devRef .tc main_arg4) := by skip_ops hostOps0_1
    _ = W0 m ρ c (Proc.devRef .tc main_arg4) := by skip_ops hostOps0
    _ = m ((c : Thread nD τ).loc main_arg4) := rfl

theorem arg9_at7 (c : Dev nD) : W7 m ρ c (Proc.devRef .tc main_arg9) = m ((c : Thread nD τ).loc main_arg9) :=
  calc W7 m ρ c (Proc.devRef .tc main_arg9)
    _ = W6 m ρ c (Proc.devRef .tc main_arg9) := by skip_ops hostOps1
    _ = W5 m ρ c (Proc.devRef .tc main_arg9) := W6_of_ne m ρ c main_arg9 (by decide)
    _ = W4 m ρ c (Proc.devRef .tc main_arg9) := by skip_ops hostOps0_4
    _ = W3 m ρ c (Proc.devRef .tc main_arg9) := by skip_ops hostOps0_3
    _ = W2 m ρ c (Proc.devRef .tc main_arg9) := by skip_ops hostOps0_2
    _ = W1 m ρ c (Proc.devRef .tc main_arg9) := by skip_ops hostOps0_1
    _ = W0 m ρ c (Proc.devRef .tc main_arg9) := by skip_ops hostOps0
    _ = m ((c : Thread nD τ).loc main_arg9) := rfl

theorem arg10_at7 (c : Dev nD) : W7 m ρ c (Proc.devRef .tc main_arg10) = m ((c : Thread nD τ).loc main_arg10) :=
  calc W7 m ρ c (Proc.devRef .tc main_arg10)
    _ = W6 m ρ c (Proc.devRef .tc main_arg10) := by skip_ops hostOps1
    _ = W5 m ρ c (Proc.devRef .tc main_arg10) := W6_of_ne m ρ c main_arg10 (by decide)
    _ = W4 m ρ c (Proc.devRef .tc main_arg10) := by skip_ops hostOps0_4
    _ = W3 m ρ c (Proc.devRef .tc main_arg10) := by skip_ops hostOps0_3
    _ = W2 m ρ c (Proc.devRef .tc main_arg10) := by skip_ops hostOps0_2
    _ = W1 m ρ c (Proc.devRef .tc main_arg10) := by skip_ops hostOps0_1
    _ = W0 m ρ c (Proc.devRef .tc main_arg10) := by skip_ops hostOps0
    _ = m ((c : Thread nD τ).loc main_arg10) := rfl

theorem arg11_at7 (c : Dev nD) : W7 m ρ c (Proc.devRef .tc main_arg11) = m ((c : Thread nD τ).loc main_arg11) :=
  calc W7 m ρ c (Proc.devRef .tc main_arg11)
    _ = W6 m ρ c (Proc.devRef .tc main_arg11) := by skip_ops hostOps1
    _ = W5 m ρ c (Proc.devRef .tc main_arg11) := W6_of_ne m ρ c main_arg11 (by decide)
    _ = W4 m ρ c (Proc.devRef .tc main_arg11) := by skip_ops hostOps0_4
    _ = W3 m ρ c (Proc.devRef .tc main_arg11) := by skip_ops hostOps0_3
    _ = W2 m ρ c (Proc.devRef .tc main_arg11) := by skip_ops hostOps0_2
    _ = W1 m ρ c (Proc.devRef .tc main_arg11) := by skip_ops hostOps0_1
    _ = W0 m ρ c (Proc.devRef .tc main_arg11) := by skip_ops hostOps0
    _ = m ((c : Thread nD τ).loc main_arg11) := rfl

theorem arg12_at7 (c : Dev nD) : W7 m ρ c (Proc.devRef .tc main_arg12) = m ((c : Thread nD τ).loc main_arg12) :=
  calc W7 m ρ c (Proc.devRef .tc main_arg12)
    _ = W6 m ρ c (Proc.devRef .tc main_arg12) := by skip_ops hostOps1
    _ = W5 m ρ c (Proc.devRef .tc main_arg12) := W6_of_ne m ρ c main_arg12 (by decide)
    _ = W4 m ρ c (Proc.devRef .tc main_arg12) := by skip_ops hostOps0_4
    _ = W3 m ρ c (Proc.devRef .tc main_arg12) := by skip_ops hostOps0_3
    _ = W2 m ρ c (Proc.devRef .tc main_arg12) := by skip_ops hostOps0_2
    _ = W1 m ρ c (Proc.devRef .tc main_arg12) := by skip_ops hostOps0_1
    _ = W0 m ρ c (Proc.devRef .tc main_arg12) := by skip_ops hostOps0
    _ = m ((c : Thread nD τ).loc main_arg12) := rfl

theorem arg5_at9 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := by skip_ops hostOps1_1
    _ = W6 m ρ c (Proc.devRef .tc main_arg5) := by skip_ops hostOps1
    _ = W5 m ρ c (Proc.devRef .tc main_arg5) := W6_of_ne m ρ c main_arg5 (by decide)
    _ = W4 m ρ c (Proc.devRef .tc main_arg5) := by skip_ops hostOps0_4
    _ = W3 m ρ c (Proc.devRef .tc main_arg5) := by skip_ops hostOps0_3
    _ = W2 m ρ c (Proc.devRef .tc main_arg5) := by skip_ops hostOps0_2
    _ = W1 m ρ c (Proc.devRef .tc main_arg5) := by skip_ops hostOps0_1
    _ = W0 m ρ c (Proc.devRef .tc main_arg5) := by skip_ops hostOps0
    _ = m ((c : Thread nD τ).loc main_arg5) := rfl

theorem v8_at10 (c : Dev nD) : W10 m ρ c (Proc.devRef .tc main_v8) = W5 m ρ c (Proc.devRef .tc main_v8) :=
  calc W10 m ρ c (Proc.devRef .tc main_v8)
    _ = W9 m ρ c (Proc.devRef .tc main_v8) := W10_of_ne m ρ c main_v8 (by decide)
    _ = W8 m ρ c (Proc.devRef .tc main_v8) := W9_of_ne m ρ c main_v8 (by decide)
    _ = W7 m ρ c (Proc.devRef .tc main_v8) := by skip_ops hostOps1_1
    _ = W6 m ρ c (Proc.devRef .tc main_v8) := by skip_ops hostOps1
    _ = W5 m ρ c (Proc.devRef .tc main_v8) := W6_of_ne m ρ c main_v8 (by decide)

theorem v10_at11 (c : Dev nD) : W11 m ρ c (Proc.devRef .tc main_v10) = W5 m ρ c (Proc.devRef .tc main_v10) :=
  calc W11 m ρ c (Proc.devRef .tc main_v10)
    _ = W10 m ρ c (Proc.devRef .tc main_v10) := by skip_ops hostOps3
    _ = W9 m ρ c (Proc.devRef .tc main_v10) := W10_of_ne m ρ c main_v10 (by decide)
    _ = W8 m ρ c (Proc.devRef .tc main_v10) := W9_of_ne m ρ c main_v10 (by decide)
    _ = W7 m ρ c (Proc.devRef .tc main_v10) := by skip_ops hostOps1_1
    _ = W6 m ρ c (Proc.devRef .tc main_v10) := by skip_ops hostOps1
    _ = W5 m ρ c (Proc.devRef .tc main_v10) := W6_of_ne m ρ c main_v10 (by decide)

theorem v36_at11 (c : Dev nD) : W11 m ρ c (Proc.devRef .tc main_v36) = W5 m ρ c (Proc.devRef .tc main_v36) :=
  calc W11 m ρ c (Proc.devRef .tc main_v36)
    _ = W10 m ρ c (Proc.devRef .tc main_v36) := by skip_ops hostOps3
    _ = W9 m ρ c (Proc.devRef .tc main_v36) := W10_of_ne m ρ c main_v36 (by decide)
    _ = W8 m ρ c (Proc.devRef .tc main_v36) := W9_of_ne m ρ c main_v36 (by decide)
    _ = W7 m ρ c (Proc.devRef .tc main_v36) := by skip_ops hostOps1_1
    _ = W6 m ρ c (Proc.devRef .tc main_v36) := by skip_ops hostOps1
    _ = W5 m ρ c (Proc.devRef .tc main_v36) := W6_of_ne m ρ c main_v36 (by decide)

theorem arg6_at11 (c : Dev nD) : W11 m ρ c (Proc.devRef .tc main_arg6) = m ((c : Thread nD τ).loc main_arg6) :=
  calc W11 m ρ c (Proc.devRef .tc main_arg6)
    _ = W10 m ρ c (Proc.devRef .tc main_arg6) := by skip_ops hostOps3
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := by skip_ops hostOps1_1
    _ = W6 m ρ c (Proc.devRef .tc main_arg6) := by skip_ops hostOps1
    _ = W5 m ρ c (Proc.devRef .tc main_arg6) := W6_of_ne m ρ c main_arg6 (by decide)
    _ = W4 m ρ c (Proc.devRef .tc main_arg6) := by skip_ops hostOps0_4
    _ = W3 m ρ c (Proc.devRef .tc main_arg6) := by skip_ops hostOps0_3
    _ = W2 m ρ c (Proc.devRef .tc main_arg6) := by skip_ops hostOps0_2
    _ = W1 m ρ c (Proc.devRef .tc main_arg6) := by skip_ops hostOps0_1
    _ = W0 m ρ c (Proc.devRef .tc main_arg6) := by skip_ops hostOps0
    _ = m ((c : Thread nD τ).loc main_arg6) := rfl

theorem arg13_at11 (c : Dev nD) : W11 m ρ c (Proc.devRef .tc main_arg13) = m ((c : Thread nD τ).loc main_arg13) :=
  calc W11 m ρ c (Proc.devRef .tc main_arg13)
    _ = W10 m ρ c (Proc.devRef .tc main_arg13) := by skip_ops hostOps3
    _ = W9 m ρ c (Proc.devRef .tc main_arg13) := W10_of_ne m ρ c main_arg13 (by decide)
    _ = W8 m ρ c (Proc.devRef .tc main_arg13) := W9_of_ne m ρ c main_arg13 (by decide)
    _ = W7 m ρ c (Proc.devRef .tc main_arg13) := by skip_ops hostOps1_1
    _ = W6 m ρ c (Proc.devRef .tc main_arg13) := by skip_ops hostOps1
    _ = W5 m ρ c (Proc.devRef .tc main_arg13) := W6_of_ne m ρ c main_arg13 (by decide)
    _ = W4 m ρ c (Proc.devRef .tc main_arg13) := by skip_ops hostOps0_4
    _ = W3 m ρ c (Proc.devRef .tc main_arg13) := by skip_ops hostOps0_3
    _ = W2 m ρ c (Proc.devRef .tc main_arg13) := by skip_ops hostOps0_2
    _ = W1 m ρ c (Proc.devRef .tc main_arg13) := by skip_ops hostOps0_1
    _ = W0 m ρ c (Proc.devRef .tc main_arg13) := by skip_ops hostOps0
    _ = m ((c : Thread nD τ).loc main_arg13) := rfl

theorem arg14_at11 (c : Dev nD) : W11 m ρ c (Proc.devRef .tc main_arg14) = m ((c : Thread nD τ).loc main_arg14) :=
  calc W11 m ρ c (Proc.devRef .tc main_arg14)
    _ = W10 m ρ c (Proc.devRef .tc main_arg14) := by skip_ops hostOps3
    _ = W9 m ρ c (Proc.devRef .tc main_arg14) := W10_of_ne m ρ c main_arg14 (by decide)
    _ = W8 m ρ c (Proc.devRef .tc main_arg14) := W9_of_ne m ρ c main_arg14 (by decide)
    _ = W7 m ρ c (Proc.devRef .tc main_arg14) := by skip_ops hostOps1_1
    _ = W6 m ρ c (Proc.devRef .tc main_arg14) := by skip_ops hostOps1
    _ = W5 m ρ c (Proc.devRef .tc main_arg14) := W6_of_ne m ρ c main_arg14 (by decide)
    _ = W4 m ρ c (Proc.devRef .tc main_arg14) := by skip_ops hostOps0_4
    _ = W3 m ρ c (Proc.devRef .tc main_arg14) := by skip_ops hostOps0_3
    _ = W2 m ρ c (Proc.devRef .tc main_arg14) := by skip_ops hostOps0_2
    _ = W1 m ρ c (Proc.devRef .tc main_arg14) := by skip_ops hostOps0_1
    _ = W0 m ρ c (Proc.devRef .tc main_arg14) := by skip_ops hostOps0
    _ = m ((c : Thread nD τ).loc main_arg14) := rfl

theorem arg15_at11 (c : Dev nD) : W11 m ρ c (Proc.devRef .tc main_arg15) = m ((c : Thread nD τ).loc main_arg15) :=
  calc W11 m ρ c (Proc.devRef .tc main_arg15)
    _ = W10 m ρ c (Proc.devRef .tc main_arg15) := by skip_ops hostOps3
    _ = W9 m ρ c (Proc.devRef .tc main_arg15) := W10_of_ne m ρ c main_arg15 (by decide)
    _ = W8 m ρ c (Proc.devRef .tc main_arg15) := W9_of_ne m ρ c main_arg15 (by decide)
    _ = W7 m ρ c (Proc.devRef .tc main_arg15) := by skip_ops hostOps1_1
    _ = W6 m ρ c (Proc.devRef .tc main_arg15) := by skip_ops hostOps1
    _ = W5 m ρ c (Proc.devRef .tc main_arg15) := W6_of_ne m ρ c main_arg15 (by decide)
    _ = W4 m ρ c (Proc.devRef .tc main_arg15) := by skip_ops hostOps0_4
    _ = W3 m ρ c (Proc.devRef .tc main_arg15) := by skip_ops hostOps0_3
    _ = W2 m ρ c (Proc.devRef .tc main_arg15) := by skip_ops hostOps0_2
    _ = W1 m ρ c (Proc.devRef .tc main_arg15) := by skip_ops hostOps0_1
    _ = W0 m ρ c (Proc.devRef .tc main_arg15) := by skip_ops hostOps0
    _ = m ((c : Thread nD τ).loc main_arg15) := rfl

theorem arg16_at11 (c : Dev nD) : W11 m ρ c (Proc.devRef .tc main_arg16) = m ((c : Thread nD τ).loc main_arg16) :=
  calc W11 m ρ c (Proc.devRef .tc main_arg16)
    _ = W10 m ρ c (Proc.devRef .tc main_arg16) := by skip_ops hostOps3
    _ = W9 m ρ c (Proc.devRef .tc main_arg16) := W10_of_ne m ρ c main_arg16 (by decide)
    _ = W8 m ρ c (Proc.devRef .tc main_arg16) := W9_of_ne m ρ c main_arg16 (by decide)
    _ = W7 m ρ c (Proc.devRef .tc main_arg16) := by skip_ops hostOps1_1
    _ = W6 m ρ c (Proc.devRef .tc main_arg16) := by skip_ops hostOps1
    _ = W5 m ρ c (Proc.devRef .tc main_arg16) := W6_of_ne m ρ c main_arg16 (by decide)
    _ = W4 m ρ c (Proc.devRef .tc main_arg16) := by skip_ops hostOps0_4
    _ = W3 m ρ c (Proc.devRef .tc main_arg16) := by skip_ops hostOps0_3
    _ = W2 m ρ c (Proc.devRef .tc main_arg16) := by skip_ops hostOps0_2
    _ = W1 m ρ c (Proc.devRef .tc main_arg16) := by skip_ops hostOps0_1
    _ = W0 m ρ c (Proc.devRef .tc main_arg16) := by skip_ops hostOps0
    _ = m ((c : Thread nD τ).loc main_arg16) := rfl

theorem arg7_at13 (c : Dev nD) : W13 m ρ c (Proc.devRef .tc main_arg7) = m ((c : Thread nD τ).loc main_arg7) :=
  calc W13 m ρ c (Proc.devRef .tc main_arg7)
    _ = W12 m ρ c (Proc.devRef .tc main_arg7) := W13_of_ne m ρ c main_arg7 (by decide)
    _ = W11 m ρ c (Proc.devRef .tc main_arg7) := by skip_ops hostOps3_1
    _ = W10 m ρ c (Proc.devRef .tc main_arg7) := by skip_ops hostOps3
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := by skip_ops hostOps1_1
    _ = W6 m ρ c (Proc.devRef .tc main_arg7) := by skip_ops hostOps1
    _ = W5 m ρ c (Proc.devRef .tc main_arg7) := W6_of_ne m ρ c main_arg7 (by decide)
    _ = W4 m ρ c (Proc.devRef .tc main_arg7) := by skip_ops hostOps0_4
    _ = W3 m ρ c (Proc.devRef .tc main_arg7) := by skip_ops hostOps0_3
    _ = W2 m ρ c (Proc.devRef .tc main_arg7) := by skip_ops hostOps0_2
    _ = W1 m ρ c (Proc.devRef .tc main_arg7) := by skip_ops hostOps0_1
    _ = W0 m ρ c (Proc.devRef .tc main_arg7) := by skip_ops hostOps0
    _ = m ((c : Thread nD τ).loc main_arg7) := rfl

theorem v8_at14 (c : Dev nD) : W14 m ρ c (Proc.devRef .tc main_v8) = W5 m ρ c (Proc.devRef .tc main_v8) :=
  calc W14 m ρ c (Proc.devRef .tc main_v8)
    _ = W13 m ρ c (Proc.devRef .tc main_v8) := W14_of_ne m ρ c main_v8 (by decide)
    _ = W12 m ρ c (Proc.devRef .tc main_v8) := W13_of_ne m ρ c main_v8 (by decide)
    _ = W11 m ρ c (Proc.devRef .tc main_v8) := by skip_ops hostOps3_1
    _ = W10 m ρ c (Proc.devRef .tc main_v8) := by skip_ops hostOps3
    _ = W9 m ρ c (Proc.devRef .tc main_v8) := W10_of_ne m ρ c main_v8 (by decide)
    _ = W8 m ρ c (Proc.devRef .tc main_v8) := W9_of_ne m ρ c main_v8 (by decide)
    _ = W7 m ρ c (Proc.devRef .tc main_v8) := by skip_ops hostOps1_1
    _ = W6 m ρ c (Proc.devRef .tc main_v8) := by skip_ops hostOps1
    _ = W5 m ρ c (Proc.devRef .tc main_v8) := W6_of_ne m ρ c main_v8 (by decide)

theorem v10_at15 (c : Dev nD) : W15 m ρ c (Proc.devRef .tc main_v10) = W5 m ρ c (Proc.devRef .tc main_v10) :=
  calc W15 m ρ c (Proc.devRef .tc main_v10)
    _ = W14 m ρ c (Proc.devRef .tc main_v10) := by skip_ops hostOps5
    _ = W13 m ρ c (Proc.devRef .tc main_v10) := W14_of_ne m ρ c main_v10 (by decide)
    _ = W12 m ρ c (Proc.devRef .tc main_v10) := W13_of_ne m ρ c main_v10 (by decide)
    _ = W11 m ρ c (Proc.devRef .tc main_v10) := by skip_ops hostOps3_1
    _ = W10 m ρ c (Proc.devRef .tc main_v10) := by skip_ops hostOps3
    _ = W9 m ρ c (Proc.devRef .tc main_v10) := W10_of_ne m ρ c main_v10 (by decide)
    _ = W8 m ρ c (Proc.devRef .tc main_v10) := W9_of_ne m ρ c main_v10 (by decide)
    _ = W7 m ρ c (Proc.devRef .tc main_v10) := by skip_ops hostOps1_1
    _ = W6 m ρ c (Proc.devRef .tc main_v10) := by skip_ops hostOps1
    _ = W5 m ρ c (Proc.devRef .tc main_v10) := W6_of_ne m ρ c main_v10 (by decide)

theorem v36_at15 (c : Dev nD) : W15 m ρ c (Proc.devRef .tc main_v36) = W5 m ρ c (Proc.devRef .tc main_v36) :=
  calc W15 m ρ c (Proc.devRef .tc main_v36)
    _ = W14 m ρ c (Proc.devRef .tc main_v36) := by skip_ops hostOps5
    _ = W13 m ρ c (Proc.devRef .tc main_v36) := W14_of_ne m ρ c main_v36 (by decide)
    _ = W12 m ρ c (Proc.devRef .tc main_v36) := W13_of_ne m ρ c main_v36 (by decide)
    _ = W11 m ρ c (Proc.devRef .tc main_v36) := by skip_ops hostOps3_1
    _ = W10 m ρ c (Proc.devRef .tc main_v36) := by skip_ops hostOps3
    _ = W9 m ρ c (Proc.devRef .tc main_v36) := W10_of_ne m ρ c main_v36 (by decide)
    _ = W8 m ρ c (Proc.devRef .tc main_v36) := W9_of_ne m ρ c main_v36 (by decide)
    _ = W7 m ρ c (Proc.devRef .tc main_v36) := by skip_ops hostOps1_1
    _ = W6 m ρ c (Proc.devRef .tc main_v36) := by skip_ops hostOps1
    _ = W5 m ρ c (Proc.devRef .tc main_v36) := W6_of_ne m ρ c main_v36 (by decide)

theorem arg8_at15 (c : Dev nD) : W15 m ρ c (Proc.devRef .tc main_arg8) = m ((c : Thread nD τ).loc main_arg8) :=
  calc W15 m ρ c (Proc.devRef .tc main_arg8)
    _ = W14 m ρ c (Proc.devRef .tc main_arg8) := by skip_ops hostOps5
    _ = W13 m ρ c (Proc.devRef .tc main_arg8) := W14_of_ne m ρ c main_arg8 (by decide)
    _ = W12 m ρ c (Proc.devRef .tc main_arg8) := W13_of_ne m ρ c main_arg8 (by decide)
    _ = W11 m ρ c (Proc.devRef .tc main_arg8) := by skip_ops hostOps3_1
    _ = W10 m ρ c (Proc.devRef .tc main_arg8) := by skip_ops hostOps3
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := by skip_ops hostOps1_1
    _ = W6 m ρ c (Proc.devRef .tc main_arg8) := by skip_ops hostOps1
    _ = W5 m ρ c (Proc.devRef .tc main_arg8) := W6_of_ne m ρ c main_arg8 (by decide)
    _ = W4 m ρ c (Proc.devRef .tc main_arg8) := by skip_ops hostOps0_4
    _ = W3 m ρ c (Proc.devRef .tc main_arg8) := by skip_ops hostOps0_3
    _ = W2 m ρ c (Proc.devRef .tc main_arg8) := by skip_ops hostOps0_2
    _ = W1 m ρ c (Proc.devRef .tc main_arg8) := by skip_ops hostOps0_1
    _ = W0 m ρ c (Proc.devRef .tc main_arg8) := by skip_ops hostOps0
    _ = m ((c : Thread nD τ).loc main_arg8) := rfl

theorem arg17_at15 (c : Dev nD) : W15 m ρ c (Proc.devRef .tc main_arg17) = m ((c : Thread nD τ).loc main_arg17) :=
  calc W15 m ρ c (Proc.devRef .tc main_arg17)
    _ = W14 m ρ c (Proc.devRef .tc main_arg17) := by skip_ops hostOps5
    _ = W13 m ρ c (Proc.devRef .tc main_arg17) := W14_of_ne m ρ c main_arg17 (by decide)
    _ = W12 m ρ c (Proc.devRef .tc main_arg17) := W13_of_ne m ρ c main_arg17 (by decide)
    _ = W11 m ρ c (Proc.devRef .tc main_arg17) := by skip_ops hostOps3_1
    _ = W10 m ρ c (Proc.devRef .tc main_arg17) := by skip_ops hostOps3
    _ = W9 m ρ c (Proc.devRef .tc main_arg17) := W10_of_ne m ρ c main_arg17 (by decide)
    _ = W8 m ρ c (Proc.devRef .tc main_arg17) := W9_of_ne m ρ c main_arg17 (by decide)
    _ = W7 m ρ c (Proc.devRef .tc main_arg17) := by skip_ops hostOps1_1
    _ = W6 m ρ c (Proc.devRef .tc main_arg17) := by skip_ops hostOps1
    _ = W5 m ρ c (Proc.devRef .tc main_arg17) := W6_of_ne m ρ c main_arg17 (by decide)
    _ = W4 m ρ c (Proc.devRef .tc main_arg17) := by skip_ops hostOps0_4
    _ = W3 m ρ c (Proc.devRef .tc main_arg17) := by skip_ops hostOps0_3
    _ = W2 m ρ c (Proc.devRef .tc main_arg17) := by skip_ops hostOps0_2
    _ = W1 m ρ c (Proc.devRef .tc main_arg17) := by skip_ops hostOps0_1
    _ = W0 m ρ c (Proc.devRef .tc main_arg17) := by skip_ops hostOps0
    _ = m ((c : Thread nD τ).loc main_arg17) := rfl

theorem arg18_at15 (c : Dev nD) : W15 m ρ c (Proc.devRef .tc main_arg18) = m ((c : Thread nD τ).loc main_arg18) :=
  calc W15 m ρ c (Proc.devRef .tc main_arg18)
    _ = W14 m ρ c (Proc.devRef .tc main_arg18) := by skip_ops hostOps5
    _ = W13 m ρ c (Proc.devRef .tc main_arg18) := W14_of_ne m ρ c main_arg18 (by decide)
    _ = W12 m ρ c (Proc.devRef .tc main_arg18) := W13_of_ne m ρ c main_arg18 (by decide)
    _ = W11 m ρ c (Proc.devRef .tc main_arg18) := by skip_ops hostOps3_1
    _ = W10 m ρ c (Proc.devRef .tc main_arg18) := by skip_ops hostOps3
    _ = W9 m ρ c (Proc.devRef .tc main_arg18) := W10_of_ne m ρ c main_arg18 (by decide)
    _ = W8 m ρ c (Proc.devRef .tc main_arg18) := W9_of_ne m ρ c main_arg18 (by decide)
    _ = W7 m ρ c (Proc.devRef .tc main_arg18) := by skip_ops hostOps1_1
    _ = W6 m ρ c (Proc.devRef .tc main_arg18) := by skip_ops hostOps1
    _ = W5 m ρ c (Proc.devRef .tc main_arg18) := W6_of_ne m ρ c main_arg18 (by decide)
    _ = W4 m ρ c (Proc.devRef .tc main_arg18) := by skip_ops hostOps0_4
    _ = W3 m ρ c (Proc.devRef .tc main_arg18) := by skip_ops hostOps0_3
    _ = W2 m ρ c (Proc.devRef .tc main_arg18) := by skip_ops hostOps0_2
    _ = W1 m ρ c (Proc.devRef .tc main_arg18) := by skip_ops hostOps0_1
    _ = W0 m ρ c (Proc.devRef .tc main_arg18) := by skip_ops hostOps0
    _ = m ((c : Thread nD τ).loc main_arg18) := rfl

theorem arg19_at15 (c : Dev nD) : W15 m ρ c (Proc.devRef .tc main_arg19) = m ((c : Thread nD τ).loc main_arg19) :=
  calc W15 m ρ c (Proc.devRef .tc main_arg19)
    _ = W14 m ρ c (Proc.devRef .tc main_arg19) := by skip_ops hostOps5
    _ = W13 m ρ c (Proc.devRef .tc main_arg19) := W14_of_ne m ρ c main_arg19 (by decide)
    _ = W12 m ρ c (Proc.devRef .tc main_arg19) := W13_of_ne m ρ c main_arg19 (by decide)
    _ = W11 m ρ c (Proc.devRef .tc main_arg19) := by skip_ops hostOps3_1
    _ = W10 m ρ c (Proc.devRef .tc main_arg19) := by skip_ops hostOps3
    _ = W9 m ρ c (Proc.devRef .tc main_arg19) := W10_of_ne m ρ c main_arg19 (by decide)
    _ = W8 m ρ c (Proc.devRef .tc main_arg19) := W9_of_ne m ρ c main_arg19 (by decide)
    _ = W7 m ρ c (Proc.devRef .tc main_arg19) := by skip_ops hostOps1_1
    _ = W6 m ρ c (Proc.devRef .tc main_arg19) := by skip_ops hostOps1
    _ = W5 m ρ c (Proc.devRef .tc main_arg19) := W6_of_ne m ρ c main_arg19 (by decide)
    _ = W4 m ρ c (Proc.devRef .tc main_arg19) := by skip_ops hostOps0_4
    _ = W3 m ρ c (Proc.devRef .tc main_arg19) := by skip_ops hostOps0_3
    _ = W2 m ρ c (Proc.devRef .tc main_arg19) := by skip_ops hostOps0_2
    _ = W1 m ρ c (Proc.devRef .tc main_arg19) := by skip_ops hostOps0_1
    _ = W0 m ρ c (Proc.devRef .tc main_arg19) := by skip_ops hostOps0
    _ = m ((c : Thread nD τ).loc main_arg19) := rfl

theorem arg20_at15 (c : Dev nD) : W15 m ρ c (Proc.devRef .tc main_arg20) = m ((c : Thread nD τ).loc main_arg20) :=
  calc W15 m ρ c (Proc.devRef .tc main_arg20)
    _ = W14 m ρ c (Proc.devRef .tc main_arg20) := by skip_ops hostOps5
    _ = W13 m ρ c (Proc.devRef .tc main_arg20) := W14_of_ne m ρ c main_arg20 (by decide)
    _ = W12 m ρ c (Proc.devRef .tc main_arg20) := W13_of_ne m ρ c main_arg20 (by decide)
    _ = W11 m ρ c (Proc.devRef .tc main_arg20) := by skip_ops hostOps3_1
    _ = W10 m ρ c (Proc.devRef .tc main_arg20) := by skip_ops hostOps3
    _ = W9 m ρ c (Proc.devRef .tc main_arg20) := W10_of_ne m ρ c main_arg20 (by decide)
    _ = W8 m ρ c (Proc.devRef .tc main_arg20) := W9_of_ne m ρ c main_arg20 (by decide)
    _ = W7 m ρ c (Proc.devRef .tc main_arg20) := by skip_ops hostOps1_1
    _ = W6 m ρ c (Proc.devRef .tc main_arg20) := by skip_ops hostOps1
    _ = W5 m ρ c (Proc.devRef .tc main_arg20) := W6_of_ne m ρ c main_arg20 (by decide)
    _ = W4 m ρ c (Proc.devRef .tc main_arg20) := by skip_ops hostOps0_4
    _ = W3 m ρ c (Proc.devRef .tc main_arg20) := by skip_ops hostOps0_3
    _ = W2 m ρ c (Proc.devRef .tc main_arg20) := by skip_ops hostOps0_2
    _ = W1 m ρ c (Proc.devRef .tc main_arg20) := by skip_ops hostOps0_1
    _ = W0 m ρ c (Proc.devRef .tc main_arg20) := by skip_ops hostOps0
    _ = m ((c : Thread nD τ).loc main_arg20) := rfl

theorem arg22_at15 (c : Dev nD) : W15 m ρ c (Proc.devRef .tc main_arg22) = m ((c : Thread nD τ).loc main_arg22) :=
  calc W15 m ρ c (Proc.devRef .tc main_arg22)
    _ = W14 m ρ c (Proc.devRef .tc main_arg22) := by skip_ops hostOps5
    _ = W13 m ρ c (Proc.devRef .tc main_arg22) := W14_of_ne m ρ c main_arg22 (by decide)
    _ = W12 m ρ c (Proc.devRef .tc main_arg22) := W13_of_ne m ρ c main_arg22 (by decide)
    _ = W11 m ρ c (Proc.devRef .tc main_arg22) := by skip_ops hostOps3_1
    _ = W10 m ρ c (Proc.devRef .tc main_arg22) := by skip_ops hostOps3
    _ = W9 m ρ c (Proc.devRef .tc main_arg22) := W10_of_ne m ρ c main_arg22 (by decide)
    _ = W8 m ρ c (Proc.devRef .tc main_arg22) := W9_of_ne m ρ c main_arg22 (by decide)
    _ = W7 m ρ c (Proc.devRef .tc main_arg22) := by skip_ops hostOps1_1
    _ = W6 m ρ c (Proc.devRef .tc main_arg22) := by skip_ops hostOps1
    _ = W5 m ρ c (Proc.devRef .tc main_arg22) := W6_of_ne m ρ c main_arg22 (by decide)
    _ = W4 m ρ c (Proc.devRef .tc main_arg22) := by skip_ops hostOps0_4
    _ = W3 m ρ c (Proc.devRef .tc main_arg22) := by skip_ops hostOps0_3
    _ = W2 m ρ c (Proc.devRef .tc main_arg22) := by skip_ops hostOps0_2
    _ = W1 m ρ c (Proc.devRef .tc main_arg22) := by skip_ops hostOps0_1
    _ = W0 m ρ c (Proc.devRef .tc main_arg22) := by skip_ops hostOps0
    _ = m ((c : Thread nD τ).loc main_arg22) := rfl

theorem arg21_at16 (c : Dev nD) : W16 m ρ c (Proc.devRef .tc main_arg21) = m ((c : Thread nD τ).loc main_arg21) :=
  calc W16 m ρ c (Proc.devRef .tc main_arg21)
    _ = W15 m ρ c (Proc.devRef .tc main_arg21) := by skip_ops hostOps5_1
    _ = W14 m ρ c (Proc.devRef .tc main_arg21) := by skip_ops hostOps5
    _ = W13 m ρ c (Proc.devRef .tc main_arg21) := W14_of_ne m ρ c main_arg21 (by decide)
    _ = W12 m ρ c (Proc.devRef .tc main_arg21) := W13_of_ne m ρ c main_arg21 (by decide)
    _ = W11 m ρ c (Proc.devRef .tc main_arg21) := by skip_ops hostOps3_1
    _ = W10 m ρ c (Proc.devRef .tc main_arg21) := by skip_ops hostOps3
    _ = W9 m ρ c (Proc.devRef .tc main_arg21) := W10_of_ne m ρ c main_arg21 (by decide)
    _ = W8 m ρ c (Proc.devRef .tc main_arg21) := W9_of_ne m ρ c main_arg21 (by decide)
    _ = W7 m ρ c (Proc.devRef .tc main_arg21) := by skip_ops hostOps1_1
    _ = W6 m ρ c (Proc.devRef .tc main_arg21) := by skip_ops hostOps1
    _ = W5 m ρ c (Proc.devRef .tc main_arg21) := W6_of_ne m ρ c main_arg21 (by decide)
    _ = W4 m ρ c (Proc.devRef .tc main_arg21) := by skip_ops hostOps0_4
    _ = W3 m ρ c (Proc.devRef .tc main_arg21) := by skip_ops hostOps0_3
    _ = W2 m ρ c (Proc.devRef .tc main_arg21) := by skip_ops hostOps0_2
    _ = W1 m ρ c (Proc.devRef .tc main_arg21) := by skip_ops hostOps0_1
    _ = W0 m ρ c (Proc.devRef .tc main_arg21) := by skip_ops hostOps0
    _ = m ((c : Thread nD τ).loc main_arg21) := rfl

/-! ## The scaled scatter-add of a layer: the gathered rows times the edge coefficients, added up per target node -/

/-- 16 columns. -/
def agg16 (g : FVec F S3300000x16 .f32) (col : IVec S3300000 32) (nrm : FVec F S3300000 .f32) : FVec F S100000x16 .f32 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 col)
    (mulf g (broadcastInDim S3300000x16 ![0, 1] bcast_S3300000x1_S3300000x16_0_1
      (broadcastInDim S3300000x1 ![0] bcast_S3300000_S3300000x1_0 nrm)))

/-- 4 columns. -/
def agg4 (g : FVec F S3300000x4 .f32) (col : IVec S3300000 32) (nrm : FVec F S3300000 .f32) : FVec F S100000x4 .f32 :=
  Host.scatterAdd scatter_S100000x4_S3300000x1_S3300000x4_1_0_0_1
    (broadcastInDim S100000x4 ![] bcast_S_S100000x4 (constant S_ .f32 0x00000000#32))
    (broadcastInDim S3300000x1 ![0] bcast_S3300000_S3300000x1_0 col)
    (mulf g (broadcastInDim S3300000x4 ![0, 1] bcast_S3300000x1_S3300000x4_0_1
      (broadcastInDim S3300000x1 ![0] bcast_S3300000_S3300000x1_0 nrm)))

/-- 1 column. -/
def agg1 (g : FVec F S3300000x1 .f32) (col : IVec S3300000 32) (nrm : FVec F S3300000 .f32) : FVec F S100000x1 .f32 :=
  Host.scatterAdd scatter_S100000x1_S3300000x1_S3300000x1_1_0_0_1
    (broadcastInDim S100000x1 ![] bcast_S_S100000x1 (constant S_ .f32 0x00000000#32))
    (broadcastInDim S3300000x1 ![0] bcast_S3300000_S3300000x1_0 col)
    (mulf g (broadcastInDim S3300000x1 ![0] bcast_S3300000_S3300000x1_0 nrm))

/-! ## A typed reference's transport of contents is the identity -/

/-- Contents carried to a buffer's own type and back are the contents, whichever proofs the two references carry. -/
theorem ofBuf_toBuf_of {T : BufTy} (r : Ref sig .tc) (p1 : r.ty = T) (p2 p3) (q1 : r.ty = T) (q2 q3) (v : T.Contents (Elt F)) :
    (TRef.of r p1 p2 p3).ofBuf ((TRef.of r q1 q2 q3).toBuf v) = v := by
  unfold TRef.ofBuf TRef.toBuf
  simp

theorem ofBuf_v8 (p1 p2 p3) (v : (Proc.devRef (τ := τ) .tc main_v8).ty.Contents (Elt F)) :
    (TRef.of (T := ⟨S3300000, .i32⟩) main_v8 p1 p2 p3).ofBuf v = v := rfl
theorem ofBuf_v37 (p1 p2 p3) (v : (Proc.devRef (τ := τ) .tc main_v37).ty.Contents (Elt F)) :
    (TRef.of (T := ⟨S100000x16, .f32⟩) main_v37 p1 p2 p3).ofBuf v = v := rfl
theorem ofBuf_v51 (p1 p2 p3) (v : (Proc.devRef (τ := τ) .tc main_v51).ty.Contents (Elt F)) :
    (TRef.of (T := ⟨S100000x4, .f32⟩) main_v51 p1 p2 p3).ofBuf v = v := rfl
theorem ofBuf_v65 (p1 p2 p3) (v : (Proc.devRef (τ := τ) .tc main_v65).ty.Contents (Elt F)) :
    (TRef.of (T := ⟨S100000x1, .f32⟩) main_v65 p1 p2 p3).ofBuf v = v := rfl
theorem toBuf_v38 (p1 p2 p3) (v : (⟨S3300000x16, .f32⟩ : BufTy).Contents (Elt F)) :
    (TRef.of (T := ⟨S3300000x16, .f32⟩) main_v38 p1 p2 p3).toBuf v = v := rfl
theorem toBuf_v52 (p1 p2 p3) (v : (⟨S3300000x4, .f32⟩ : BufTy).Contents (Elt F)) :
    (TRef.of (T := ⟨S3300000x4, .f32⟩) main_v52 p1 p2 p3).toBuf v = v := rfl
theorem toBuf_v66 (p1 p2 p3) (v : (⟨S3300000x1, .f32⟩ : BufTy).Contents (Elt F)) :
    (TRef.of (T := ⟨S3300000x1, .f32⟩) main_v66 p1 p2 p3).toBuf v = v := rfl

/-! ## Each host stretch, read back -/

/-- The source-node words, as the first stretch leaves them. -/
theorem row_eq (c : Dev nD) : W5 m ρ c (Proc.devRef .tc main_v8) = rowOf (m ((c : Thread nD τ).loc main_arg1)) := by
  dsimp only [W5, W4, W3, W2, W1, W0, hostOps0_4, hostOps0_3, hostOps0_2, hostOps0_1, hostOps0]
  after_results_simp
  rfl

set_option maxHeartbeats 4000000 in
/-- The first gather. -/
theorem take_at7 (c : Dev nD) : W7 m ρ c (Proc.devRef .tc main_v38)
    = take16 (W6 m ρ c (Proc.devRef .tc main_v37)) (W6 m ρ c (Proc.devRef .tc main_v8)) := by
  dsimp only [W7, hostOps1]
  after_results_simp
  simp only [ofBuf_toBuf_of, ofBuf_v8, ofBuf_v37, toBuf_v38]
  unfold take16 inRange rowCol wrapRow
  with_reducible rfl

set_option maxHeartbeats 4000000 in
/-- The first aggregate. -/
theorem agg_at8 (c : Dev nD) : W8 m ρ c (Proc.devRef .tc main_v44)
    = agg16 (W7 m ρ c (Proc.devRef .tc main_v38)) (W7 m ρ c (Proc.devRef .tc main_v10)) (W7 m ρ c (Proc.devRef .tc main_v36)) := by
  dsimp only [W8, hostOps1_1]
  after_results_simp
  rfl

/-- The reshaped parameter row main_v45: the argument main_arg4 as one row. -/
theorem v45_at8 (c : Dev nD) : W8 m ρ c (Proc.devRef .tc main_v45)
    = shapeCast S1x16 (m ((c : Thread nD τ).loc main_arg4)) shapeCasts_S16_S1x16 := by
  have h : W8 m ρ c (Proc.devRef .tc main_v45) = shapeCast S1x16 (W7 m ρ c (Proc.devRef .tc main_arg4)) shapeCasts_S16_S1x16 := by
    dsimp only [W8, hostOps1_1]
    after_results_simp
    rfl
  rw [h, arg4_at7]

/-- The reshaped parameter row main_v46: the argument main_arg9 as one row. -/
theorem v46_at8 (c : Dev nD) : W8 m ρ c (Proc.devRef .tc main_v46)
    = shapeCast S1x16 (m ((c : Thread nD τ).loc main_arg9)) shapeCasts_S16_S1x16 := by
  have h : W8 m ρ c (Proc.devRef .tc main_v46) = shapeCast S1x16 (W7 m ρ c (Proc.devRef .tc main_arg9)) shapeCasts_S16_S1x16 := by
    dsimp only [W8, hostOps1_1]
    after_results_simp
    rfl
  rw [h, arg9_at7]

/-- The reshaped parameter row main_v47: the argument main_arg10 as one row. -/
theorem v47_at8 (c : Dev nD) : W8 m ρ c (Proc.devRef .tc main_v47)
    = shapeCast S1x16 (m ((c : Thread nD τ).loc main_arg10)) shapeCasts_S16_S1x16 := by
  have h : W8 m ρ c (Proc.devRef .tc main_v47) = shapeCast S1x16 (W7 m ρ c (Proc.devRef .tc main_arg10)) shapeCasts_S16_S1x16 := by
    dsimp only [W8, hostOps1_1]
    after_results_simp
    rfl
  rw [h, arg10_at7]

/-- The reshaped parameter row main_v48: the argument main_arg11 as one row. -/
theorem v48_at8 (c : Dev nD) : W8 m ρ c (Proc.devRef .tc main_v48)
    = shapeCast S1x16 (m ((c : Thread nD τ).loc main_arg11)) shapeCasts_S16_S1x16 := by
  have h : W8 m ρ c (Proc.devRef .tc main_v48) = shapeCast S1x16 (W7 m ρ c (Proc.devRef .tc main_arg11)) shapeCasts_S16_S1x16 := by
    dsimp only [W8, hostOps1_1]
    after_results_simp
    rfl
  rw [h, arg11_at7]

/-- The reshaped parameter row main_v49: the argument main_arg12 as one row. -/
theorem v49_at8 (c : Dev nD) : W8 m ρ c (Proc.devRef .tc main_v49)
    = shapeCast S1x16 (m ((c : Thread nD τ).loc main_arg12)) shapeCasts_S16_S1x16 := by
  have h : W8 m ρ c (Proc.devRef .tc main_v49) = shapeCast S1x16 (W7 m ρ c (Proc.devRef .tc main_arg12)) shapeCasts_S16_S1x16 := by
    dsimp only [W8, hostOps1_1]
    after_results_simp
    rfl
  rw [h, arg12_at7]

set_option maxHeartbeats 4000000 in
/-- The second gather. -/
theorem take_at11 (c : Dev nD) : W11 m ρ c (Proc.devRef .tc main_v52)
    = take4 (W10 m ρ c (Proc.devRef .tc main_v51)) (W10 m ρ c (Proc.devRef .tc main_v8)) := by
  dsimp only [W11, hostOps3]
  after_results_simp
  simp only [ofBuf_toBuf_of, ofBuf_v8, ofBuf_v51, toBuf_v52]
  unfold take4 inRange rowCol wrapRow
  with_reducible rfl

set_option maxHeartbeats 4000000 in
/-- The second aggregate. -/
theorem agg_at12 (c : Dev nD) : W12 m ρ c (Proc.devRef .tc main_v58)
    = agg4 (W11 m ρ c (Proc.devRef .tc main_v52)) (W11 m ρ c (Proc.devRef .tc main_v10)) (W11 m ρ c (Proc.devRef .tc main_v36)) := by
  dsimp only [W12, hostOps3_1]
  after_results_simp
  rfl

/-- The reshaped parameter row main_v59: the argument main_arg6 as one row. -/
theorem v59_at12 (c : Dev nD) : W12 m ρ c (Proc.devRef .tc main_v59)
    = shapeCast S1x4 (m ((c : Thread nD τ).loc main_arg6)) shapeCasts_S4_S1x4 := by
  have h : W12 m ρ c (Proc.devRef .tc main_v59) = shapeCast S1x4 (W11 m ρ c (Proc.devRef .tc main_arg6)) shapeCasts_S4_S1x4 := by
    dsimp only [W12, hostOps3_1]
    after_results_simp
    rfl
  rw [h, arg6_at11]

/-- The reshaped parameter row main_v60: the argument main_arg13 as one row. -/
theorem v60_at12 (c : Dev nD) : W12 m ρ c (Proc.devRef .tc main_v60)
    = shapeCast S1x4 (m ((c : Thread nD τ).loc main_arg13)) shapeCasts_S4_S1x4 := by
  have h : W12 m ρ c (Proc.devRef .tc main_v60) = shapeCast S1x4 (W11 m ρ c (Proc.devRef .tc main_arg13)) shapeCasts_S4_S1x4 := by
    dsimp only [W12, hostOps3_1]
    after_results_simp
    rfl
  rw [h, arg13_at11]

/-- The reshaped parameter row main_v61: the argument main_arg14 as one row. -/
theorem v61_at12 (c : Dev nD) : W12 m ρ c (Proc.devRef .tc main_v61)
    = shapeCast S1x4 (m ((c : Thread nD τ).loc main_arg14)) shapeCasts_S4_S1x4 := by
  have h : W12 m ρ c (Proc.devRef .tc main_v61) = shapeCast S1x4 (W11 m ρ c (Proc.devRef .tc main_arg14)) shapeCasts_S4_S1x4 := by
    dsimp only [W12, hostOps3_1]
    after_results_simp
    rfl
  rw [h, arg14_at11]

/-- The reshaped parameter row main_v62: the argument main_arg15 as one row. -/
theorem v62_at12 (c : Dev nD) : W12 m ρ c (Proc.devRef .tc main_v62)
    = shapeCast S1x4 (m ((c : Thread nD τ).loc main_arg15)) shapeCasts_S4_S1x4 := by
  have h : W12 m ρ c (Proc.devRef .tc main_v62) = shapeCast S1x4 (W11 m ρ c (Proc.devRef .tc main_arg15)) shapeCasts_S4_S1x4 := by
    dsimp only [W12, hostOps3_1]
    after_results_simp
    rfl
  rw [h, arg15_at11]

/-- The reshaped parameter row main_v63: the argument main_arg16 as one row. -/
theorem v63_at12 (c : Dev nD) : W12 m ρ c (Proc.devRef .tc main_v63)
    = shapeCast S1x4 (m ((c : Thread nD τ).loc main_arg16)) shapeCasts_S4_S1x4 := by
  have h : W12 m ρ c (Proc.devRef .tc main_v63) = shapeCast S1x4 (W11 m ρ c (Proc.devRef .tc main_arg16)) shapeCasts_S4_S1x4 := by
    dsimp only [W12, hostOps3_1]
    after_results_simp
    rfl
  rw [h, arg16_at11]

set_option maxHeartbeats 4000000 in
/-- The third gather. -/
theorem take_at15 (c : Dev nD) : W15 m ρ c (Proc.devRef .tc main_v66)
    = take1 (W14 m ρ c (Proc.devRef .tc main_v65)) (W14 m ρ c (Proc.devRef .tc main_v8)) := by
  dsimp only [W15, hostOps5]
  after_results_simp
  simp only [ofBuf_toBuf_of, ofBuf_v8, ofBuf_v65, toBuf_v66]
  unfold take1 inRange rowCol wrapRow
  with_reducible rfl

set_option maxHeartbeats 4000000 in
/-- The third aggregate. -/
theorem agg_at16 (c : Dev nD) : W16 m ρ c (Proc.devRef .tc main_v71)
    = agg1 (W15 m ρ c (Proc.devRef .tc main_v66)) (W15 m ρ c (Proc.devRef .tc main_v10)) (W15 m ρ c (Proc.devRef .tc main_v36)) := by
  dsimp only [W16, hostOps5_1]
  after_results_simp
  rfl

/-- The reshaped parameter row main_v72: the argument main_arg8 as one row. -/
theorem v72_at16 (c : Dev nD) : W16 m ρ c (Proc.devRef .tc main_v72)
    = shapeCast S1x1 (m ((c : Thread nD τ).loc main_arg8)) shapeCasts_S1_S1x1 := by
  have h : W16 m ρ c (Proc.devRef .tc main_v72) = shapeCast S1x1 (W15 m ρ c (Proc.devRef .tc main_arg8)) shapeCasts_S1_S1x1 := by
    dsimp only [W16, hostOps5_1]
    after_results_simp
    rfl
  rw [h, arg8_at15]

/-- The reshaped parameter row main_v73: the argument main_arg17 as one row. -/
theorem v73_at16 (c : Dev nD) : W16 m ρ c (Proc.devRef .tc main_v73)
    = shapeCast S1x1 (m ((c : Thread nD τ).loc main_arg17)) shapeCasts_S1_S1x1 := by
  have h : W16 m ρ c (Proc.devRef .tc main_v73) = shapeCast S1x1 (W15 m ρ c (Proc.devRef .tc main_arg17)) shapeCasts_S1_S1x1 := by
    dsimp only [W16, hostOps5_1]
    after_results_simp
    rfl
  rw [h, arg17_at15]

/-- The reshaped parameter row main_v74: the argument main_arg18 as one row. -/
theorem v74_at16 (c : Dev nD) : W16 m ρ c (Proc.devRef .tc main_v74)
    = shapeCast S1x1 (m ((c : Thread nD τ).loc main_arg18)) shapeCasts_S1_S1x1 := by
  have h : W16 m ρ c (Proc.devRef .tc main_v74) = shapeCast S1x1 (W15 m ρ c (Proc.devRef .tc main_arg18)) shapeCasts_S1_S1x1 := by
    dsimp only [W16, hostOps5_1]
    after_results_simp
    rfl
  rw [h, arg18_at15]

/-- The reshaped parameter row main_v75: the argument main_arg19 as one row. -/
theorem v75_at16 (c : Dev nD) : W16 m ρ c (Proc.devRef .tc main_v75)
    = shapeCast S1x1 (m ((c : Thread nD τ).loc main_arg19)) shapeCasts_S1_S1x1 := by
  have h : W16 m ρ c (Proc.devRef .tc main_v75) = shapeCast S1x1 (W15 m ρ c (Proc.devRef .tc main_arg19)) shapeCasts_S1_S1x1 := by
    dsimp only [W16, hostOps5_1]
    after_results_simp
    rfl
  rw [h, arg19_at15]

/-- The reshaped parameter row main_v76: the argument main_arg20 as one row. -/
theorem v76_at16 (c : Dev nD) : W16 m ρ c (Proc.devRef .tc main_v76)
    = shapeCast S1x1 (m ((c : Thread nD τ).loc main_arg20)) shapeCasts_S1_S1x1 := by
  have h : W16 m ρ c (Proc.devRef .tc main_v76) = shapeCast S1x1 (W15 m ρ c (Proc.devRef .tc main_arg20)) shapeCasts_S1_S1x1 := by
    dsimp only [W16, hostOps5_1]
    after_results_simp
    rfl
  rw [h, arg20_at15]

/-- The reshaped parameter row main_v77: the argument main_arg22 as one row. -/
theorem v77_at16 (c : Dev nD) : W16 m ρ c (Proc.devRef .tc main_v77)
    = shapeCast S1x1 (m ((c : Thread nD τ).loc main_arg22)) shapeCasts_S1_S1x1 := by
  have h : W16 m ρ c (Proc.devRef .tc main_v77) = shapeCast S1x1 (W15 m ρ c (Proc.devRef .tc main_arg22)) shapeCasts_S1_S1x1 := by
    dsimp only [W16, hostOps5_1]
    after_results_simp
    rfl
  rw [h, arg22_at15]

/-! ## Each region's result array is what its pipeline leaves -/

theorem lin_at6 (c : Dev nD) : W6 m ρ c (Proc.devRef .tc main_v37) = (dat0 (V5 m ρ) c).arrAt 2 cfg0.N := W6_arr m ρ c 2
theorem bn_at9 (c : Dev nD) : W9 m ρ c (Proc.devRef .tc main_v50) = (dat1 (V8 m ρ) c).arrAt 6 cfg1.N := W9_arr m ρ c 6
theorem lin_at10 (c : Dev nD) : W10 m ρ c (Proc.devRef .tc main_v51) = (dat2 (V9 m ρ) c).arrAt 2 cfg2.N := W10_arr m ρ c 2
theorem bn_at13 (c : Dev nD) : W13 m ρ c (Proc.devRef .tc main_v64) = (dat3 (V12 m ρ) c).arrAt 6 cfg3.N := W13_arr m ρ c 6
theorem lin_at14 (c : Dev nD) : W14 m ρ c (Proc.devRef .tc main_v65) = (dat4 (V13 m ρ) c).arrAt 2 cfg4.N := W14_arr m ρ c 2
theorem head_at17 (c : Dev nD) : W17 m ρ c (Proc.devRef .tc main_v78) = (dat5 (V16 m ρ) c).arrAt 8 cfg5.N := W17_arr m ρ c 8

end Cert.KernelIdeal.KV

end
-- ==== Proof.Spec.lean ====
/-
  The arithmetic both programs share, one entry at a time, over the extended reals.
  A graph-convolution layer ends in an eval-mode batch normalisation of the aggregate plus the bias; the first two
  layers clamp it at zero, the last feeds a 1 × 1 linear map and the logistic function.
-/
import Idealize.ShloMosaic.PureOps.Ideal

noncomputable section

namespace Cert.Spec

open Idealize.ShloMosaic

/-- The variance floor ε as both programs print it (the f32 nearest 1e-5). -/
def eps : EReal := Ideal.ofBits .f32 0x3727C5AC#32

/-- One entry of the batch normalisation after the bias: ((a + b − μ) · (σ² + ε)^(−1/2)) · γ + β. -/
def bn (a b μ v γ β : EReal) : EReal := ((a + b - μ) * Ideal.rsqrt (v + eps)) * γ + β

/-- … clamped at zero (the first two layers). -/
def bnRelu (a b μ v γ β : EReal) : EReal := max (bn a b μ v γ β) 0

/-- … through the 1 × 1 linear map and the logistic function (the head). -/
def head (a b μ v γ β wl bl : EReal) : EReal := Ideal.logistic (bn a b μ v γ β * wl + bl)

end Cert.Spec

end
-- ==== Proof.Lin0.lean ====
/-
  The first linear map, read off the pipeline: after its ten row blocks have been written back, the result array holds,
  at row r and column q, the sum over the contracted coordinate of input row r times weight column q.
-/
import proofs.«412636_j1769526526166_2_alg».proof.Proof.Gen.KernelIdeal.Frame
import proofs.«412636_j1769526526166_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The payload at an entry

The contraction's operand indices at an output index `y` and a contracted index `q`, axis by axis: the left operand
is read at row `y 0` and column `q`, the right operand at row `q` and column `y 1`. -/

theorem lhs_lin0_0 (y : S10000x16.Idx) (q : dot_S10000x1_S1x16_S10000x16_1_0_0_1_n_n.contr.Idx) :
    (dot_S10000x1_S1x16_S10000x16_1_0_0_1_n_n.lhsIdx y q 0).val = (y 0).val := by
  unfold DotDims.lhsIdx
  rw [dif_neg (show ¬(0 : Fin S10000x1.rank) ∈ dot_S10000x1_S1x16_S10000x16_1_0_0_1_n_n.lhsBatch by decide), dif_pos (show (0 : Fin S10000x1.rank) ∈ dot_S10000x1_S1x16_S10000x16_1_0_0_1_n_n.lhsNonContracting by decide)]
  rfl
theorem lhs_lin0_1 (y : S10000x16.Idx) (q : dot_S10000x1_S1x16_S10000x16_1_0_0_1_n_n.contr.Idx) :
    (dot_S10000x1_S1x16_S10000x16_1_0_0_1_n_n.lhsIdx y q 1).val = (q ⟨0, by decide⟩).val :=
  dot_S10000x1_S1x16_S10000x16_1_0_0_1_n_n.lhsIdx_val_of_single rfl y q
theorem rhs_lin0_0 (y : S10000x16.Idx) (q : dot_S10000x1_S1x16_S10000x16_1_0_0_1_n_n.contr.Idx) :
    (dot_S10000x1_S1x16_S10000x16_1_0_0_1_n_n.rhsIdx y q 0).val = (q ⟨0, by decide⟩).val :=
  dot_S10000x1_S1x16_S10000x16_1_0_0_1_n_n.rhsIdx_val_of_single rfl y q
theorem rhs_lin0_1 (y : S10000x16.Idx) (q : dot_S10000x1_S1x16_S10000x16_1_0_0_1_n_n.contr.Idx) :
    (dot_S10000x1_S1x16_S10000x16_1_0_0_1_n_n.rhsIdx y q 1).val = (y 1).val := by
  unfold DotDims.rhsIdx
  rw [dif_neg (show ¬(1 : Fin S1x16.rank) ∈ dot_S10000x1_S1x16_S10000x16_1_0_0_1_n_n.rhsBatch by decide), dif_pos (show (1 : Fin S1x16.rank) ∈ dot_S10000x1_S1x16_S10000x16_1_0_0_1_n_n.rhsNonContracting by decide)]
  rfl

/-- The block's row `y 0` and contracted coordinate `k`, as an index of the input block. -/
abbrev lblk0 (y : S10000x16.Idx) (k : Fin 1) : S10000x1.Idx := fun a => match a with
  | ⟨0, _⟩ => ⟨(y 0).val, (y 0).isLt⟩
  | ⟨1, _⟩ => ⟨k.val, k.isLt⟩
/-- The contracted coordinate `k` and the block's column `y 1`, as an index of the weight block. -/
abbrev rblk0 (y : S10000x16.Idx) (k : Fin 1) : S1x16.Idx := fun a => match a with
  | ⟨0, _⟩ => ⟨k.val, k.isLt⟩
  | ⟨1, _⟩ => ⟨(y 1).val, (y 1).isLt⟩

/-- The body's payload at an entry of the block: the truncations are the identity on the ideal values and the
    accumulator is zero, so it is the sum over the one contracted coordinate of input row times weight column. -/
theorem k0_pay1_apply (xb : Vec Ideal S10000x1 .f32) (wb : Vec Ideal S1x16 .f32) (y : S10000x16.Idx) :
    k0_pay1 (F := Ideal) xb wb y = ∑ k : Fin 1, xb (lblk0 y k) * wb (rblk0 y k) := by
  unfold k0_pay1
  simp only [matmul]
  rw [Ideal.matmul_constant_zero_apply, ← Equiv.sum_comp (ValueIdx.contrEquiv1 dot_S10000x1_S1x16_S10000x16_1_0_0_1_n_n 1 rfl rfl).symm]
  refine Finset.sum_congr rfl fun k _ => ?_
  have hk := ValueIdx.contrEquiv1_symm_val dot_S10000x1_S1x16_S10000x16_1_0_0_1_n_n 1 rfl rfl k
  have el : dot_S10000x1_S1x16_S10000x16_1_0_0_1_n_n.lhsIdx y ((ValueIdx.contrEquiv1 dot_S10000x1_S1x16_S10000x16_1_0_0_1_n_n 1 rfl rfl).symm k) = lblk0 y k := funext fun a => Fin.ext (by
    match a with
    | ⟨0, _⟩ => exact lhs_lin0_0 _ _
    | ⟨1, _⟩ => exact (lhs_lin0_1 _ _).trans hk)
  have er : dot_S10000x1_S1x16_S10000x16_1_0_0_1_n_n.rhsIdx y ((ValueIdx.contrEquiv1 dot_S10000x1_S1x16_S10000x16_1_0_0_1_n_n 1 rfl rfl).symm k) = rblk0 y k := funext fun a => Fin.ext (by
    match a with
    | ⟨0, _⟩ => exact (rhs_lin0_0 _ _).trans hk
    | ⟨1, _⟩ => exact rhs_lin0_1 _ _)
  rw [el, er]
  rfl

/-! ## From blocks to the array

Each point writes back its row block of the product, and the ten row blocks fill the array. -/

theorem hz0 : (![0, 0] : Fin 2 → Nat) = fun _ => 0 := funext fun a => by fin_cases a <;> rfl

/-- The printed index maps over the grid: the input's row block moves with the output's, which is the point's number;
    every other block index is zero. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The input window's block at a point, at a block index, is the input array at the index the block's view sends it to. -/
theorem iblk0_0_apply (c : Dev nD) (t : Fin cfg0.N) (z : S10000x1.Idx) :
    iblk0 V c 0 t z = V c main_arg0 (((cfg0.win 0).blk t).view.emb z) := by
  unfold iblk0; rw [View.read_apply]; rfl
/-- The weight window's block likewise. -/
theorem iblk0_1_apply (c : Dev nD) (t : Fin cfg0.N) (z : S1x16.Idx) :
    iblk0 V c 1 t z = V c main_arg3 (((cfg0.win 1).blk t).view.emb z) := by
  unfold iblk0; rw [View.read_apply]; rfl

/-- What a point writes back is that point's block of `G`. -/
theorem flushed0_2_eq (c : Dev nD) (x : S100000x1.Idx → EReal) (w : S1x16.Idx → EReal) (G : S100000x16.Idx → EReal)
    (lx : S100000x16.Idx → Fin 1 → S100000x1.Idx) (rx : S100000x16.Idx → Fin 1 → S1x16.Idx)
    (hx : V c main_arg0 = x) (hw : V c main_arg3 = w)
    (hl0 : ∀ i k, (lx i k 0).val = (i 0).val) (hl1 : ∀ i k, (lx i k 1).val = k.val)
    (hr0 : ∀ i k, (rx i k 0).val = k.val) (hr1 : ∀ i k, (rx i k 1).val = (i 1).val)
    (hG : ∀ i, G i = ∑ k : Fin 1, x (lx i k) * w (rx i k)) (t : Fin cfg0.N) :
    (dat0 (F := Ideal) V c).flushed 2 t = ((cfg0.win 2).blk t).view.read (Elt Ideal) G := by
  show (cfg0.win 2).cut (grid0.coords t) ((dat0 V c).after 2 t) = _
  rw [after0_2]
  unfold out0_2
  rw [View.canon_unit_zero hz0]
  simp only [View.ld_unit_zero (S := S10000x1) hz0, View.ld_unit_zero (S := S1x16) hz0]
  funext y
  show k0_pay1 (F := Ideal) (iblk0 V c 0 t) (iblk0 V c 1 t) y = G (((cfg0.win 2).blk t).view.emb y)
  refine (k0_pay1_apply _ _ y).trans ?_
  rw [hG]
  refine Finset.sum_congr rfl fun k _ => ?_
  rw [iblk0_0_apply, iblk0_1_apply, hx, hw]
  obtain ⟨e0, e1, e2, e3, e4, e5⟩ := idx_facts0 t
  have hl : ((cfg0.win 0).blk t).view.emb (lblk0 y k) = lx (((cfg0.win 2).blk t).view.emb y) k := by
    funext a; apply Fin.ext
    match a with
    | ⟨0, _⟩ =>
      refine Eq.trans ?_ (hl0 _ _).symm
      show win0_0.index t (0 : Fin 2) * 10000 + 1 * (y 0).val = win0_2.index t (0 : Fin 2) * 10000 + 1 * (y 0).val
      omega
    | ⟨1, _⟩ =>
      refine Eq.trans ?_ (hl1 _ _).symm
      show win0_0.index t (1 : Fin 2) * 1 + 1 * k.val = k.val
      omega
  have hr : ((cfg0.win 1).blk t).view.emb (rblk0 y k) = rx (((cfg0.win 2).blk t).view.emb y) k := by
    funext a; apply Fin.ext
    match a with
    | ⟨0, _⟩ =>
      refine Eq.trans ?_ (hr0 _ _).symm
      show win0_1.index t (0 : Fin 2) * 1 + 1 * k.val = k.val
      omega
    | ⟨1, _⟩ =>
      refine Eq.trans ?_ (hr1 _ _).symm
      show win0_1.index t (1 : Fin 2) * 16 + 1 * (y 1).val = win0_2.index t (1 : Fin 2) * 16 + 1 * (y 1).val
      omega
  rw [hl, hr]

/-- An index of the result array is in a point's block iff each coordinate is in the block's range on its axis. -/
theorem mem_blk0_2 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v37).slice (win0_2.rect t)).set ↔ _
  rw [View.set_slice_whole, Rect.mem_set_unit]
  exact Iff.rfl

/-- The ten row blocks fill the result array: row `r` is in the block of point `r / 10000`. -/
theorem blocks_fill0_2 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 10000 < cfg0.N := by show (i 0).val / 10000 < 10; omega
  refine ⟨⟨(i 0).val / 10000, hN⟩, flush0_2 _, ?_⟩
  rw [mem_blk0_2]
  obtain ⟨e0, e1, e2, e3, e4, e5⟩ := idx_facts0 ⟨(i 0).val / 10000, hN⟩
  have e5' : win0_2.index ⟨(i 0).val / 10000, hN⟩ (0 : Fin 2) = (i 0).val / 10000 := e5
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    omega
  | ⟨1, _⟩ =>
    show win0_2.index ⟨(i 0).val / 10000, hN⟩ (1 : Fin 2) * 16 ≤ (i 1).val ∧ (i 1).val < win0_2.index ⟨(i 0).val / 10000, hN⟩ (1 : Fin 2) * 16 + 16
    omega

/-- The result array of the 1 → 16 linear map after the region: any array `G` that is, entry by entry, the
    contraction of the region's two input arrays. The index functions are parameters so that a caller may pass its own. -/
theorem lin0_arr (c : Dev nD) (x : S100000x1.Idx → EReal) (w : S1x16.Idx → EReal) (G : S100000x16.Idx → EReal)
    (lx : S100000x16.Idx → Fin 1 → S100000x1.Idx) (rx : S100000x16.Idx → Fin 1 → S1x16.Idx)
    (hx : V c main_arg0 = x) (hw : V c main_arg3 = w)
    (hl0 : ∀ i k, (lx i k 0).val = (i 0).val) (hl1 : ∀ i k, (lx i k 1).val = k.val)
    (hr0 : ∀ i k, (rx i k 0).val = k.val) (hr1 : ∀ i k, (rx i k 1).val = (i 1).val)
    (hG : ∀ i, G i = ∑ k : Fin 1, x (lx i k) * w (rx i k)) :
    (dat0 (F := Ideal) V c).arrAt 2 cfg0.N = G :=
  (dat0 (F := Ideal) V c).arrAt_eq_of_cover 2 G
    (fun t _ => flushed0_2_eq V c x w G lx rx hx hw hl0 hl1 hr0 hr1 hG t) blocks_fill0_2

end Cert.KernelIdeal.KV

end
-- ==== Proof.Lin2.lean ====
/-
  The second linear map, read off the pipeline: after its ten row blocks have been written back, the result array holds,
  at row r and column q, the sum over the contracted coordinate of input row r times weight column q.
-/
import proofs.«412636_j1769526526166_2_alg».proof.Proof.Gen.KernelIdeal.Frame
import proofs.«412636_j1769526526166_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The payload at an entry

The contraction's operand indices at an output index `y` and a contracted index `q`, axis by axis: the left operand
is read at row `y 0` and column `q`, the right operand at row `q` and column `y 1`. -/

theorem lhs_lin2_0 (y : S10000x4.Idx) (q : dot_S10000x16_S16x4_S10000x4_1_0_0_1_n_n.contr.Idx) :
    (dot_S10000x16_S16x4_S10000x4_1_0_0_1_n_n.lhsIdx y q 0).val = (y 0).val := by
  unfold DotDims.lhsIdx
  rw [dif_neg (show ¬(0 : Fin S10000x16.rank) ∈ dot_S10000x16_S16x4_S10000x4_1_0_0_1_n_n.lhsBatch by decide), dif_pos (show (0 : Fin S10000x16.rank) ∈ dot_S10000x16_S16x4_S10000x4_1_0_0_1_n_n.lhsNonContracting by decide)]
  rfl
theorem lhs_lin2_1 (y : S10000x4.Idx) (q : dot_S10000x16_S16x4_S10000x4_1_0_0_1_n_n.contr.Idx) :
    (dot_S10000x16_S16x4_S10000x4_1_0_0_1_n_n.lhsIdx y q 1).val = (q ⟨0, by decide⟩).val :=
  dot_S10000x16_S16x4_S10000x4_1_0_0_1_n_n.lhsIdx_val_of_single rfl y q
theorem rhs_lin2_0 (y : S10000x4.Idx) (q : dot_S10000x16_S16x4_S10000x4_1_0_0_1_n_n.contr.Idx) :
    (dot_S10000x16_S16x4_S10000x4_1_0_0_1_n_n.rhsIdx y q 0).val = (q ⟨0, by decide⟩).val :=
  dot_S10000x16_S16x4_S10000x4_1_0_0_1_n_n.rhsIdx_val_of_single rfl y q
theorem rhs_lin2_1 (y : S10000x4.Idx) (q : dot_S10000x16_S16x4_S10000x4_1_0_0_1_n_n.contr.Idx) :
    (dot_S10000x16_S16x4_S10000x4_1_0_0_1_n_n.rhsIdx y q 1).val = (y 1).val := by
  unfold DotDims.rhsIdx
  rw [dif_neg (show ¬(1 : Fin S16x4.rank) ∈ dot_S10000x16_S16x4_S10000x4_1_0_0_1_n_n.rhsBatch by decide), dif_pos (show (1 : Fin S16x4.rank) ∈ dot_S10000x16_S16x4_S10000x4_1_0_0_1_n_n.rhsNonContracting by decide)]
  rfl

/-- The block's row `y 0` and contracted coordinate `k`, as an index of the input block. -/
abbrev lblk2 (y : S10000x4.Idx) (k : Fin 16) : S10000x16.Idx := fun a => match a with
  | ⟨0, _⟩ => ⟨(y 0).val, (y 0).isLt⟩
  | ⟨1, _⟩ => ⟨k.val, k.isLt⟩
/-- The contracted coordinate `k` and the block's column `y 1`, as an index of the weight block. -/
abbrev rblk2 (y : S10000x4.Idx) (k : Fin 16) : S16x4.Idx := fun a => match a with
  | ⟨0, _⟩ => ⟨k.val, k.isLt⟩
  | ⟨1, _⟩ => ⟨(y 1).val, (y 1).isLt⟩

/-- The body's payload at an entry of the block: the same-shape cast and the truncations are the identity on the ideal values and the
    accumulator is zero, so it is the sum over the contracted coordinate of input row times weight column. -/
theorem k2_pay1_apply (xb : Vec Ideal S10000x16 .f32) (wb : Vec Ideal S16x4 .f32) (y : S10000x4.Idx) :
    k2_pay1 (F := Ideal) xb wb y = ∑ k : Fin 16, xb (lblk2 y k) * wb (rblk2 y k) := by
  unfold k2_pay1
  simp only [matmul]
  rw [shapeCast_self]
  rw [Ideal.matmul_constant_zero_apply, ← Equiv.sum_comp (ValueIdx.contrEquiv1 dot_S10000x16_S16x4_S10000x4_1_0_0_1_n_n 16 rfl rfl).symm]
  refine Finset.sum_congr rfl fun k _ => ?_
  have hk := ValueIdx.contrEquiv1_symm_val dot_S10000x16_S16x4_S10000x4_1_0_0_1_n_n 16 rfl rfl k
  have el : dot_S10000x16_S16x4_S10000x4_1_0_0_1_n_n.lhsIdx y ((ValueIdx.contrEquiv1 dot_S10000x16_S16x4_S10000x4_1_0_0_1_n_n 16 rfl rfl).symm k) = lblk2 y k := funext fun a => Fin.ext (by
    match a with
    | ⟨0, _⟩ => exact lhs_lin2_0 _ _
    | ⟨1, _⟩ => exact (lhs_lin2_1 _ _).trans hk)
  have er : dot_S10000x16_S16x4_S10000x4_1_0_0_1_n_n.rhsIdx y ((ValueIdx.contrEquiv1 dot_S10000x16_S16x4_S10000x4_1_0_0_1_n_n 16 rfl rfl).symm k) = rblk2 y k := funext fun a => Fin.ext (by
    match a with
    | ⟨0, _⟩ => exact (rhs_lin2_0 _ _).trans hk
    | ⟨1, _⟩ => exact rhs_lin2_1 _ _)
  rw [el, er]
  rfl

/-! ## From blocks to the array

Each point writes back its row block of the product, and the ten row blocks fill the array. -/

theorem hz2 : (![0, 0] : Fin 2 → Nat) = fun _ => 0 := funext fun a => by fin_cases a <;> rfl

/-- The printed index maps over the grid: the input's row block moves with the output's, which is the point's number;
    every other block index is zero. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- The input window's block at a point, at a block index, is the input array at the index the block's view sends it to. -/
theorem iblk2_0_apply (c : Dev nD) (t : Fin cfg2.N) (z : S10000x16.Idx) :
    iblk2 V c 0 t z = V c main_v50 (((cfg2.win 0).blk t).view.emb z) := by
  unfold iblk2; rw [View.read_apply]; rfl
/-- The weight window's block likewise. -/
theorem iblk2_1_apply (c : Dev nD) (t : Fin cfg2.N) (z : S16x4.Idx) :
    iblk2 V c 1 t z = V c main_arg5 (((cfg2.win 1).blk t).view.emb z) := by
  unfold iblk2; rw [View.read_apply]; rfl

/-- What a point writes back is that point's block of `G`. -/
theorem flushed2_2_eq (c : Dev nD) (x : S100000x16.Idx → EReal) (w : S16x4.Idx → EReal) (G : S100000x4.Idx → EReal)
    (lx : S100000x4.Idx → Fin 16 → S100000x16.Idx) (rx : S100000x4.Idx → Fin 16 → S16x4.Idx)
    (hx : V c main_v50 = x) (hw : V c main_arg5 = w)
    (hl0 : ∀ i k, (lx i k 0).val = (i 0).val) (hl1 : ∀ i k, (lx i k 1).val = k.val)
    (hr0 : ∀ i k, (rx i k 0).val = k.val) (hr1 : ∀ i k, (rx i k 1).val = (i 1).val)
    (hG : ∀ i, G i = ∑ k : Fin 16, x (lx i k) * w (rx i k)) (t : Fin cfg2.N) :
    (dat2 (F := Ideal) V c).flushed 2 t = ((cfg2.win 2).blk t).view.read (Elt Ideal) G := by
  show (cfg2.win 2).cut (grid2.coords t) ((dat2 V c).after 2 t) = _
  rw [after2_2]
  unfold out2_2
  rw [View.canon_unit_zero hz2]
  simp only [View.ld_unit_zero (S := S10000x16) hz2, View.ld_unit_zero (S := S16x4) hz2]
  funext y
  show k2_pay1 (F := Ideal) (iblk2 V c 0 t) (iblk2 V c 1 t) y = G (((cfg2.win 2).blk t).view.emb y)
  refine (k2_pay1_apply _ _ y).trans ?_
  rw [hG]
  refine Finset.sum_congr rfl fun k _ => ?_
  rw [iblk2_0_apply, iblk2_1_apply, hx, hw]
  obtain ⟨e0, e1, e2, e3, e4, e5⟩ := idx_facts2 t
  have hl : ((cfg2.win 0).blk t).view.emb (lblk2 y k) = lx (((cfg2.win 2).blk t).view.emb y) k := by
    funext a; apply Fin.ext
    match a with
    | ⟨0, _⟩ =>
      refine Eq.trans ?_ (hl0 _ _).symm
      show win2_0.index t (0 : Fin 2) * 10000 + 1 * (y 0).val = win2_2.index t (0 : Fin 2) * 10000 + 1 * (y 0).val
      omega
    | ⟨1, _⟩ =>
      refine Eq.trans ?_ (hl1 _ _).symm
      show win2_0.index t (1 : Fin 2) * 16 + 1 * k.val = k.val
      omega
  have hr : ((cfg2.win 1).blk t).view.emb (rblk2 y k) = rx (((cfg2.win 2).blk t).view.emb y) k := by
    funext a; apply Fin.ext
    match a with
    | ⟨0, _⟩ =>
      refine Eq.trans ?_ (hr0 _ _).symm
      show win2_1.index t (0 : Fin 2) * 16 + 1 * k.val = k.val
      omega
    | ⟨1, _⟩ =>
      refine Eq.trans ?_ (hr1 _ _).symm
      show win2_1.index t (1 : Fin 2) * 4 + 1 * (y 1).val = win2_2.index t (1 : Fin 2) * 4 + 1 * (y 1).val
      omega
  rw [hl, hr]

/-- An index of the result array is in a point's block iff each coordinate is in the block's range on its axis. -/
theorem mem_blk2_2 (t : Fin cfg2.N) (i : S100000x4.Idx) :
    i ∈ ((cfg2.win 2).blk t).view.set ↔ ∀ a : Fin 2, win2_2.index t a * S10000x4.size a ≤ (i a).val ∧ (i a).val < win2_2.index t a * S10000x4.size a + S10000x4.size a := by
  show i ∈ ((View.whole main_v51).slice (win2_2.rect t)).set ↔ _
  rw [View.set_slice_whole, Rect.mem_set_unit]
  exact Iff.rfl

/-- The ten row blocks fill the result array: row `r` is in the block of point `r / 10000`. -/
theorem blocks_fill2_2 (i : S100000x4.Idx) :
    ∃ t : Fin cfg2.N, (cfg2.win 2).flush t = true ∧ i ∈ ((cfg2.win 2).blk t).view.set := by
  have hi0 : (i 0).val < 100000 := (i 0).isLt
  have hi1 : (i 1).val < 4 := (i 1).isLt
  have hN : (i 0).val / 10000 < cfg2.N := by show (i 0).val / 10000 < 10; omega
  refine ⟨⟨(i 0).val / 10000, hN⟩, flush2_2 _, ?_⟩
  rw [mem_blk2_2]
  obtain ⟨e0, e1, e2, e3, e4, e5⟩ := idx_facts2 ⟨(i 0).val / 10000, hN⟩
  have e5' : win2_2.index ⟨(i 0).val / 10000, hN⟩ (0 : Fin 2) = (i 0).val / 10000 := e5
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    omega
  | ⟨1, _⟩ =>
    show win2_2.index ⟨(i 0).val / 10000, hN⟩ (1 : Fin 2) * 4 ≤ (i 1).val ∧ (i 1).val < win2_2.index ⟨(i 0).val / 10000, hN⟩ (1 : Fin 2) * 4 + 4
    omega

/-- The result array of the 16 → 4 linear map after the region: any array `G` that is, entry by entry, the
    contraction of the region's two input arrays. The index functions are parameters so that a caller may pass its own. -/
theorem lin2_arr (c : Dev nD) (x : S100000x16.Idx → EReal) (w : S16x4.Idx → EReal) (G : S100000x4.Idx → EReal)
    (lx : S100000x4.Idx → Fin 16 → S100000x16.Idx) (rx : S100000x4.Idx → Fin 16 → S16x4.Idx)
    (hx : V c main_v50 = x) (hw : V c main_arg5 = w)
    (hl0 : ∀ i k, (lx i k 0).val = (i 0).val) (hl1 : ∀ i k, (lx i k 1).val = k.val)
    (hr0 : ∀ i k, (rx i k 0).val = k.val) (hr1 : ∀ i k, (rx i k 1).val = (i 1).val)
    (hG : ∀ i, G i = ∑ k : Fin 16, x (lx i k) * w (rx i k)) :
    (dat2 (F := Ideal) V c).arrAt 2 cfg2.N = G :=
  (dat2 (F := Ideal) V c).arrAt_eq_of_cover 2 G
    (fun t _ => flushed2_2_eq V c x w G lx rx hx hw hl0 hl1 hr0 hr1 hG t) blocks_fill2_2

end Cert.KernelIdeal.KV

end
-- ==== Proof.Lin4.lean ====
/-
  The third linear map, read off the pipeline: after its ten row blocks have been written back, the result array holds,
  at row r and column q, the sum over the contracted coordinate of input row r times weight column q.
-/
import proofs.«412636_j1769526526166_2_alg».proof.Proof.Gen.KernelIdeal.Frame
import proofs.«412636_j1769526526166_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-! ## The payload at an entry

The contraction's operand indices at an output index `y` and a contracted index `q`, axis by axis: the left operand
is read at row `y 0` and column `q`, the right operand at row `q` and column `y 1`. -/

theorem lhs_lin4_0 (y : S10000x1.Idx) (q : dot_S10000x4_S4x1_S10000x1_1_0_0_1_n_n.contr.Idx) :
    (dot_S10000x4_S4x1_S10000x1_1_0_0_1_n_n.lhsIdx y q 0).val = (y 0).val := by
  unfold DotDims.lhsIdx
  rw [dif_neg (show ¬(0 : Fin S10000x4.rank) ∈ dot_S10000x4_S4x1_S10000x1_1_0_0_1_n_n.lhsBatch by decide), dif_pos (show (0 : Fin S10000x4.rank) ∈ dot_S10000x4_S4x1_S10000x1_1_0_0_1_n_n.lhsNonContracting by decide)]
  rfl
theorem lhs_lin4_1 (y : S10000x1.Idx) (q : dot_S10000x4_S4x1_S10000x1_1_0_0_1_n_n.contr.Idx) :
    (dot_S10000x4_S4x1_S10000x1_1_0_0_1_n_n.lhsIdx y q 1).val = (q ⟨0, by decide⟩).val :=
  dot_S10000x4_S4x1_S10000x1_1_0_0_1_n_n.lhsIdx_val_of_single rfl y q
theorem rhs_lin4_0 (y : S10000x1.Idx) (q : dot_S10000x4_S4x1_S10000x1_1_0_0_1_n_n.contr.Idx) :
    (dot_S10000x4_S4x1_S10000x1_1_0_0_1_n_n.rhsIdx y q 0).val = (q ⟨0, by decide⟩).val :=
  dot_S10000x4_S4x1_S10000x1_1_0_0_1_n_n.rhsIdx_val_of_single rfl y q
theorem rhs_lin4_1 (y : S10000x1.Idx) (q : dot_S10000x4_S4x1_S10000x1_1_0_0_1_n_n.contr.Idx) :
    (dot_S10000x4_S4x1_S10000x1_1_0_0_1_n_n.rhsIdx y q 1).val = (y 1).val := by
  unfold DotDims.rhsIdx
  rw [dif_neg (show ¬(1 : Fin S4x1.rank) ∈ dot_S10000x4_S4x1_S10000x1_1_0_0_1_n_n.rhsBatch by decide), dif_pos (show (1 : Fin S4x1.rank) ∈ dot_S10000x4_S4x1_S10000x1_1_0_0_1_n_n.rhsNonContracting by decide)]
  rfl

/-- The block's row `y 0` and contracted coordinate `k`, as an index of the input block. -/
abbrev lblk4 (y : S10000x1.Idx) (k : Fin 4) : S10000x4.Idx := fun a => match a with
  | ⟨0, _⟩ => ⟨(y 0).val, (y 0).isLt⟩
  | ⟨1, _⟩ => ⟨k.val, k.isLt⟩
/-- The contracted coordinate `k` and the block's column `y 1`, as an index of the weight block. -/
abbrev rblk4 (y : S10000x1.Idx) (k : Fin 4) : S4x1.Idx := fun a => match a with
  | ⟨0, _⟩ => ⟨k.val, k.isLt⟩
  | ⟨1, _⟩ => ⟨(y 1).val, (y 1).isLt⟩

/-- The body's payload at an entry of the block: the same-shape cast and the truncations are the identity on the ideal values and the
    accumulator is zero, so it is the sum over the contracted coordinate of input row times weight column. -/
theorem k4_pay1_apply (xb : Vec Ideal S10000x4 .f32) (wb : Vec Ideal S4x1 .f32) (y : S10000x1.Idx) :
    k4_pay1 (F := Ideal) xb wb y = ∑ k : Fin 4, xb (lblk4 y k) * wb (rblk4 y k) := by
  unfold k4_pay1
  simp only [matmul]
  rw [shapeCast_self]
  rw [Ideal.matmul_constant_zero_apply, ← Equiv.sum_comp (ValueIdx.contrEquiv1 dot_S10000x4_S4x1_S10000x1_1_0_0_1_n_n 4 rfl rfl).symm]
  refine Finset.sum_congr rfl fun k _ => ?_
  have hk := ValueIdx.contrEquiv1_symm_val dot_S10000x4_S4x1_S10000x1_1_0_0_1_n_n 4 rfl rfl k
  have el : dot_S10000x4_S4x1_S10000x1_1_0_0_1_n_n.lhsIdx y ((ValueIdx.contrEquiv1 dot_S10000x4_S4x1_S10000x1_1_0_0_1_n_n 4 rfl rfl).symm k) = lblk4 y k := funext fun a => Fin.ext (by
    match a with
    | ⟨0, _⟩ => exact lhs_lin4_0 _ _
    | ⟨1, _⟩ => exact (lhs_lin4_1 _ _).trans hk)
  have er : dot_S10000x4_S4x1_S10000x1_1_0_0_1_n_n.rhsIdx y ((ValueIdx.contrEquiv1 dot_S10000x4_S4x1_S10000x1_1_0_0_1_n_n 4 rfl rfl).symm k) = rblk4 y k := funext fun a => Fin.ext (by
    match a with
    | ⟨0, _⟩ => exact (rhs_lin4_0 _ _).trans hk
    | ⟨1, _⟩ => exact rhs_lin4_1 _ _)
  rw [el, er]
  rfl

/-! ## From blocks to the array

Each point writes back its row block of the product, and the ten row blocks fill the array. -/

theorem hz4 : (![0, 0] : Fin 2 → Nat) = fun _ => 0 := funext fun a => by fin_cases a <;> rfl

/-- The printed index maps over the grid: the input's row block moves with the output's, which is the point's number;
    every other block index is zero. -/
theorem idx_facts4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- The input window's block at a point, at a block index, is the input array at the index the block's view sends it to. -/
theorem iblk4_0_apply (c : Dev nD) (t : Fin cfg4.N) (z : S10000x4.Idx) :
    iblk4 V c 0 t z = V c main_v64 (((cfg4.win 0).blk t).view.emb z) := by
  unfold iblk4; rw [View.read_apply]; rfl
/-- The weight window's block likewise. -/
theorem iblk4_1_apply (c : Dev nD) (t : Fin cfg4.N) (z : S4x1.Idx) :
    iblk4 V c 1 t z = V c main_arg7 (((cfg4.win 1).blk t).view.emb z) := by
  unfold iblk4; rw [View.read_apply]; rfl

/-- What a point writes back is that point's block of `G`. -/
theorem flushed4_2_eq (c : Dev nD) (x : S100000x4.Idx → EReal) (w : S4x1.Idx → EReal) (G : S100000x1.Idx → EReal)
    (lx : S100000x1.Idx → Fin 4 → S100000x4.Idx) (rx : S100000x1.Idx → Fin 4 → S4x1.Idx)
    (hx : V c main_v64 = x) (hw : V c main_arg7 = w)
    (hl0 : ∀ i k, (lx i k 0).val = (i 0).val) (hl1 : ∀ i k, (lx i k 1).val = k.val)
    (hr0 : ∀ i k, (rx i k 0).val = k.val) (hr1 : ∀ i k, (rx i k 1).val = (i 1).val)
    (hG : ∀ i, G i = ∑ k : Fin 4, x (lx i k) * w (rx i k)) (t : Fin cfg4.N) :
    (dat4 (F := Ideal) V c).flushed 2 t = ((cfg4.win 2).blk t).view.read (Elt Ideal) G := by
  show (cfg4.win 2).cut (grid4.coords t) ((dat4 V c).after 2 t) = _
  rw [after4_2]
  unfold out4_2
  rw [View.canon_unit_zero hz4]
  simp only [View.ld_unit_zero (S := S10000x4) hz4, View.ld_unit_zero (S := S4x1) hz4]
  funext y
  show k4_pay1 (F := Ideal) (iblk4 V c 0 t) (iblk4 V c 1 t) y = G (((cfg4.win 2).blk t).view.emb y)
  refine (k4_pay1_apply _ _ y).trans ?_
  rw [hG]
  refine Finset.sum_congr rfl fun k _ => ?_
  rw [iblk4_0_apply, iblk4_1_apply, hx, hw]
  obtain ⟨e0, e1, e2, e3, e4, e5⟩ := idx_facts4 t
  have hl : ((cfg4.win 0).blk t).view.emb (lblk4 y k) = lx (((cfg4.win 2).blk t).view.emb y) k := by
    funext a; apply Fin.ext
    match a with
    | ⟨0, _⟩ =>
      refine Eq.trans ?_ (hl0 _ _).symm
      show win4_0.index t (0 : Fin 2) * 10000 + 1 * (y 0).val = win4_2.index t (0 : Fin 2) * 10000 + 1 * (y 0).val
      omega
    | ⟨1, _⟩ =>
      refine Eq.trans ?_ (hl1 _ _).symm
      show win4_0.index t (1 : Fin 2) * 4 + 1 * k.val = k.val
      omega
  have hr : ((cfg4.win 1).blk t).view.emb (rblk4 y k) = rx (((cfg4.win 2).blk t).view.emb y) k := by
    funext a; apply Fin.ext
    match a with
    | ⟨0, _⟩ =>
      refine Eq.trans ?_ (hr0 _ _).symm
      show win4_1.index t (0 : Fin 2) * 4 + 1 * k.val = k.val
      omega
    | ⟨1, _⟩ =>
      refine Eq.trans ?_ (hr1 _ _).symm
      show win4_1.index t (1 : Fin 2) * 1 + 1 * (y 1).val = win4_2.index t (1 : Fin 2) * 1 + 1 * (y 1).val
      omega
  rw [hl, hr]

/-- An index of the result array is in a point's block iff each coordinate is in the block's range on its axis. -/
theorem mem_blk4_2 (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v65).slice (win4_2.rect t)).set ↔ _
  rw [View.set_slice_whole, Rect.mem_set_unit]
  exact Iff.rfl

/-- The ten row blocks fill the result array: row `r` is in the block of point `r / 10000`. -/
theorem blocks_fill4_2 (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  have hN : (i 0).val / 10000 < cfg4.N := by show (i 0).val / 10000 < 10; omega
  refine ⟨⟨(i 0).val / 10000, hN⟩, flush4_2 _, ?_⟩
  rw [mem_blk4_2]
  obtain ⟨e0, e1, e2, e3, e4, e5⟩ := idx_facts4 ⟨(i 0).val / 10000, hN⟩
  have e5' : win4_2.index ⟨(i 0).val / 10000, hN⟩ (0 : Fin 2) = (i 0).val / 10000 := e5
  intro a
  match a with
  | ⟨0, _⟩ =>
    show win4_2.index ⟨(i 0).val / 10000, hN⟩ (0 : Fin 2) * 10000 ≤ (i 0).val ∧ (i 0).val < win4_2.index ⟨(i 0).val / 10000, hN⟩ (0 : Fin 2) * 10000 + 10000
    omega
  | ⟨1, _⟩ =>
    show win4_2.index ⟨(i 0).val / 10000, hN⟩ (1 : Fin 2) * 1 ≤ (i 1).val ∧ (i 1).val < win4_2.index ⟨(i 0).val / 10000, hN⟩ (1 : Fin 2) * 1 + 1
    omega

/-- The result array of the 4 → 1 linear map after the region: any array `G` that is, entry by entry, the
    contraction of the region's two input arrays. The index functions are parameters so that a caller may pass its own. -/
theorem lin4_arr (c : Dev nD) (x : S100000x4.Idx → EReal) (w : S4x1.Idx → EReal) (G : S100000x1.Idx → EReal)
    (lx : S100000x1.Idx → Fin 4 → S100000x4.Idx) (rx : S100000x1.Idx → Fin 4 → S4x1.Idx)
    (hx : V c main_v64 = x) (hw : V c main_arg7 = w)
    (hl0 : ∀ i k, (lx i k 0).val = (i 0).val) (hl1 : ∀ i k, (lx i k 1).val = k.val)
    (hr0 : ∀ i k, (rx i k 0).val = k.val) (hr1 : ∀ i k, (rx i k 1).val = (i 1).val)
    (hG : ∀ i, G i = ∑ k : Fin 4, x (lx i k) * w (rx i k)) :
    (dat4 (F := Ideal) V c).arrAt 2 cfg4.N = G :=
  (dat4 (F := Ideal) V c).arrAt_eq_of_cover 2 G
    (fun t _ => flushed4_2_eq V c x w G lx rx hx hw hl0 hl1 hr0 hr1 hG t) blocks_fill4_2

end Cert.KernelIdeal.KV

end
-- ==== Proof.Bn1.lean ====
/-
  The first batch normalisation with its clamp, read off the pipeline: after its ten row blocks have been written back,
  the result array holds at (r, q) the normalised, clamped value of the aggregate at (r, q) with column q's parameters.
-/
import proofs.«412636_j1769526526166_2_alg».proof.Proof.Gen.KernelIdeal.Frame
import proofs.«412636_j1769526526166_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.SL.Sem
open Idealize.ShloMosaic.Pipeline (Dat)
variable (V : (c : Dev nD) → (b : Ref sig .tc) → Buf (Elt Ideal) ((c : Thread nD τ).loc b))

namespace Bn1

/-! ## One entry of the block the body stores -/

/-- A [1, 16] row broadcast down the 10000 rows of a block reads, at (p, q), the row's entry for column q. -/
theorem bcast_row {α : Type} (x : S1x16.Idx → α) (y : S10000x16.Idx) (k : S1x16.Idx) (hk0 : (k 0).val = 0)
    (hk1 : (k 1).val = (y 1).val) : broadcastTo S10000x16 x broadcasts_S1x16_S10000x16 y = x k := by
  refine broadcastTo_apply x _ y k (fun a => ?_)
  match a with
  | ⟨0, _⟩ => exact hk0
  | ⟨1, _⟩ => exact hk1

set_option maxHeartbeats 400000 in
/-- The stored value at (p, q) of a block: max(((a + b − μ) · (σ² + ε)^(−1/2)) · γ + β, 0) of the aggregate's entry at
    (p, q) and the parameter rows' entries for column q (`k` is the row index with column q). -/
theorem pay_apply (xa : Vec Ideal S10000x16 .f32) (xb xv xm xg xbe : Vec Ideal S1x16 .f32)
    (y : S10000x16.Idx) (k : S1x16.Idx) (hk0 : (k 0).val = 0) (hk1 : (k 1).val = (y 1).val) :
    k1_pay1 xa xb xv xm xg xbe y = Cert.Spec.bnRelu (xa y) (xb k) (xm k) (xv k) (xg k) (xbe k) := by
  unfold k1_pay1
  simp only [shapeCast_self]
  show max ((((xa y + broadcastTo S10000x16 xb broadcasts_S1x16_S10000x16 y)
        - broadcastTo S10000x16 xm broadcasts_S1x16_S10000x16 y)
        * broadcastTo S10000x16 (rsqrt (F := Ideal) (addf (F := Ideal) xv (broadcast S1x16 (FloatOps.ofBits (F := Ideal) FTy.f32 0x3727C5AC#32)))) broadcasts_S1x16_S10000x16 y)
        * broadcastTo S10000x16 xg broadcasts_S1x16_S10000x16 y
        + broadcastTo S10000x16 xbe broadcasts_S1x16_S10000x16 y) (Ideal.ofBits .f32 0x00000000#32) = _
  rw [bcast_row xb y k hk0 hk1, bcast_row xm y k hk0 hk1, bcast_row xg y k hk0 hk1, bcast_row xbe y k hk0 hk1,
    bcast_row _ y k hk0 hk1, Ideal.ofBits_zero_f32]
  rfl

/-- The same entry from entries of the arrays: the aggregate's at the array index `i` that the block index `y` stands
    for (it has `y`'s column), each parameter row's at `r i`, the row index with `i`'s column. -/
theorem stored_entry (xa : Vec Ideal S10000x16 .f32) (xb xg xbe xm xv : Vec Ideal S1x16 .f32)
    (a : S100000x16.Idx → EReal) (pb pg pbe pm pv : S1x16.Idx → EReal)
    (r : S100000x16.Idx → S1x16.Idx) (hr : ∀ i, (r i 1).val = (i 1).val)
    (y : S10000x16.Idx) (i : S100000x16.Idx) (hi : (i 1).val = (y 1).val)
    (ha : xa y = a i) (hb : ∀ k, xb k = pb k) (hg : ∀ k, xg k = pg k) (hbe : ∀ k, xbe k = pbe k)
    (hm : ∀ k, xm k = pm k) (hv : ∀ k, xv k = pv k) :
    k1_pay1 xa xb xv xm xg xbe y
      = Cert.Spec.bnRelu (a i) (pb (r i)) (pm (r i)) (pv (r i)) (pg (r i)) (pbe (r i)) := by
  have h0 : (r i 0).val = 0 := by have : (r i 0).val < 1 := (r i 0).isLt; omega
  rw [pay_apply xa xb xv xm xg xbe y (r i) h0 ((hr i).trans hi), ha, hb, hm, hv, hg, hbe]

/-! ## The windows' blocks -/

theorem zero_offsets : (![0, 0] : Fin 2 → Nat) = fun _ => 0 := funext fun a => by fin_cases a <;> rfl

/-- The printed index maps over the grid: the aggregate's window and the result's are at row block t of column
    block 0 at point t, the five parameter windows at block (0, 0) throughout. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 400000 in
/-- Window 1 (the bias) sits at block (0, 0) at every point: its block is the whole [1, 16] row. -/
theorem blk_1_apply (c : Dev nD) (t : Fin cfg1.N) (k : S1x16.Idx) :
    (iblk1 V c 1 t : Vec Ideal S1x16 .f32) k = (V c main_v45 : S1x16.Idx → EReal) k := by
  obtain ⟨e00, e01, e10, e11, e20, e21, e30, e31, e40, e41, e50, e51, e60, e61⟩ := idx_facts t
  unfold iblk1
  rw [View.read_apply]
  show V c main_v45 _ = V c main_v45 _
  congr 1
  funext a
  apply Fin.ext
  match a with
  | ⟨0, _⟩ => show win1_1.index t 0 * 1 + 1 * (k 0).val = (k 0).val; rw [e10]; omega
  | ⟨1, _⟩ => show win1_1.index t 1 * 16 + 1 * (k 1).val = (k 1).val; rw [e11]; omega

set_option maxHeartbeats 400000 in
/-- Window 2 (γ) sits at block (0, 0) at every point: its block is the whole [1, 16] row. -/
theorem blk_2_apply (c : Dev nD) (t : Fin cfg1.N) (k : S1x16.Idx) :
    (iblk1 V c 2 t : Vec Ideal S1x16 .f32) k = (V c main_v46 : S1x16.Idx → EReal) k := by
  obtain ⟨e00, e01, e10, e11, e20, e21, e30, e31, e40, e41, e50, e51, e60, e61⟩ := idx_facts t
  unfold iblk1
  rw [View.read_apply]
  show V c main_v46 _ = V c main_v46 _
  congr 1
  funext a
  apply Fin.ext
  match a with
  | ⟨0, _⟩ => show win1_2.index t 0 * 1 + 1 * (k 0).val = (k 0).val; rw [e20]; omega
  | ⟨1, _⟩ => show win1_2.index t 1 * 16 + 1 * (k 1).val = (k 1).val; rw [e21]; omega

set_option maxHeartbeats 400000 in
/-- Window 3 (β) sits at block (0, 0) at every point: its block is the whole [1, 16] row. -/
theorem blk_3_apply (c : Dev nD) (t : Fin cfg1.N) (k : S1x16.Idx) :
    (iblk1 V c 3 t : Vec Ideal S1x16 .f32) k = (V c main_v47 : S1x16.Idx → EReal) k := by
  obtain ⟨e00, e01, e10, e11, e20, e21, e30, e31, e40, e41, e50, e51, e60, e61⟩ := idx_facts t
  unfold iblk1
  rw [View.read_apply]
  show V c main_v47 _ = V c main_v47 _
  congr 1
  funext a
  apply Fin.ext
  match a with
  | ⟨0, _⟩ => show win1_3.index t 0 * 1 + 1 * (k 0).val = (k 0).val; rw [e30]; omega
  | ⟨1, _⟩ => show win1_3.index t 1 * 16 + 1 * (k 1).val = (k 1).val; rw [e31]; omega

set_option maxHeartbeats 400000 in
/-- Window 4 (the running mean) sits at block (0, 0) at every point: its block is the whole [1, 16] row. -/
theorem blk_4_apply (c : Dev nD) (t : Fin cfg1.N) (k : S1x16.Idx) :
    (iblk1 V c 4 t : Vec Ideal S1x16 .f32) k = (V c main_v48 : S1x16.Idx → EReal) k := by
  obtain ⟨e00, e01, e10, e11, e20, e21, e30, e31, e40, e41, e50, e51, e60, e61⟩ := idx_facts t
  unfold iblk1
  rw [View.read_apply]
  show V c main_v48 _ = V c main_v48 _
  congr 1
  funext a
  apply Fin.ext
  match a with
  | ⟨0, _⟩ => show win1_4.index t 0 * 1 + 1 * (k 0).val = (k 0).val; rw [e40]; omega
  | ⟨1, _⟩ => show win1_4.index t 1 * 16 + 1 * (k 1).val = (k 1).val; rw [e41]; omega

set_option maxHeartbeats 400000 in
/-- Window 5 (the running variance) sits at block (0, 0) at every point: its block is the whole [1, 16] row. -/
theorem blk_5_apply (c : Dev nD) (t : Fin cfg1.N) (k : S1x16.Idx) :
    (iblk1 V c 5 t : Vec Ideal S1x16 .f32) k = (V c main_v49 : S1x16.Idx → EReal) k := by
  obtain ⟨e00, e01, e10, e11, e20, e21, e30, e31, e40, e41, e50, e51, e60, e61⟩ := idx_facts t
  unfold iblk1
  rw [View.read_apply]
  show V c main_v49 _ = V c main_v49 _
  congr 1
  funext a
  apply Fin.ext
  match a with
  | ⟨0, _⟩ => show win1_5.index t 0 * 1 + 1 * (k 0).val = (k 0).val; rw [e50]; omega
  | ⟨1, _⟩ => show win1_5.index t 1 * 16 + 1 * (k 1).val = (k 1).val; rw [e51]; omega

/-! ## What a point writes back, and the array after the region -/

set_option maxHeartbeats 400000 in
/-- Point t writes back block t of the array of normalised, clamped entries: the aggregate's window is at the same
    row block as the result's, and a block index keeps its column. -/
theorem flushed_eq (c : Dev nD) (a : S100000x16.Idx → EReal) (pb pg pbe pm pv : S1x16.Idx → EReal)
    (r : S100000x16.Idx → S1x16.Idx) (hr : ∀ i, (r i 1).val = (i 1).val)
    (ha : V c main_v44 = a) (hb : V c main_v45 = pb) (hg : V c main_v46 = pg) (hbe : V c main_v47 = pbe)
    (hm : V c main_v48 = pm) (hv : V c main_v49 = pv) (t : Fin cfg1.N) :
    (dat1 (F := Ideal) V c).flushed 6 t = ((cfg1.win 6).blk t).view.read (Elt Ideal)
      (fun i => Cert.Spec.bnRelu (a i) (pb (r i)) (pm (r i)) (pv (r i)) (pg (r i)) (pbe (r i))) := by
  show (cfg1.win 6).cut (grid1.coords t) ((dat1 V c).after 6 t) = _
  rw [after1_6]
  unfold out1_6
  rw [View.canon_unit_zero zero_offsets]
  simp only [View.ld_unit_zero (S := S10000x16) zero_offsets, View.ld_unit_zero (S := S1x16) zero_offsets]
  obtain ⟨e00, e01, e10, e11, e20, e21, e30, e31, e40, e41, e50, e51, e60, e61⟩ := idx_facts t
  funext y
  have hi : ((((cfg1.win 6).blk t).view.emb y : S100000x16.Idx) 1).val = ((y : S10000x16.Idx) 1).val := by
    show win1_6.index t 1 * 16 + 1 * (y 1).val = (y 1).val
    rw [e61]; omega
  have h0 : (((cfg1.win 0).blk t).view.emb y : S100000x16.Idx) = ((cfg1.win 6).blk t).view.emb y := by
    funext d; apply Fin.ext
    match d with
    | ⟨0, _⟩ => show win1_0.index t 0 * 10000 + 1 * (y 0).val = win1_6.index t 0 * 10000 + 1 * (y 0).val; rw [e00, e60]
    | ⟨1, _⟩ => show win1_0.index t 1 * 16 + 1 * (y 1).val = win1_6.index t 1 * 16 + 1 * (y 1).val; rw [e01, e61]
  refine stored_entry (iblk1 V c 0 t) (iblk1 V c 1 t) (iblk1 V c 2 t) (iblk1 V c 3 t) (iblk1 V c 4 t) (iblk1 V c 5 t)
    a pb pg pbe pm pv r hr y (((cfg1.win 6).blk t).view.emb y) hi ?_
    (fun k => (blk_1_apply V c t k).trans (congrFun hb k)) (fun k => (blk_2_apply V c t k).trans (congrFun hg k))
    (fun k => (blk_3_apply V c t k).trans (congrFun hbe k)) (fun k => (blk_4_apply V c t k).trans (congrFun hm k))
    (fun k => (blk_5_apply V c t k).trans (congrFun hv k))
  show V c main_v44 (((cfg1.win 0).blk t).view.emb y) = a _
  rw [h0, ha]

end Bn1

set_option maxHeartbeats 400000 in
/-- The result array of the 16-wide normalisation after the region. Windows, in order: the aggregate, then the
    bias, γ, β, the running mean and the running variance as [1, 16] rows; `r i` is the row's entry for column `i 1`.
    Row p of the array is in the block of point p / 10000, so the ten blocks cover it. -/
theorem bn1_arr (c : Dev nD) (a : S100000x16.Idx → EReal) (pb pg pbe pm pv : S1x16.Idx → EReal)
    (r : S100000x16.Idx → S1x16.Idx) (hr : ∀ i, (r i 1).val = (i 1).val)
    (ha : V c main_v44 = a) (hb : V c main_v45 = pb) (hg : V c main_v46 = pg) (hbe : V c main_v47 = pbe)
    (hm : V c main_v48 = pm) (hv : V c main_v49 = pv) :
    (dat1 (F := Ideal) V c).arrAt 6 cfg1.N
      = fun i => Cert.Spec.bnRelu (a i) (pb (r i)) (pm (r i)) (pv (r i)) (pg (r i)) (pbe (r i)) := by
  refine (dat1 (F := Ideal) V c).arrAt_eq_of_cover 6 _
    (fun t _ => Bn1.flushed_eq V c a pb pg pbe pm pv r hr ha hb hg hbe hm hv t) (fun i => ?_)
  have hi0 : ((i : S100000x16.Idx) 0).val < 100000 := (i 0).isLt
  have hi1 : ((i : S100000x16.Idx) 1).val < 16 := (i 1).isLt
  have hN : grid1.N = 10 := N_1
  let t : Fin cfg1.N := ⟨((i : S100000x16.Idx) 0).val / 10000, by show _ < grid1.N; omega⟩
  obtain ⟨e00, e01, e10, e11, e20, e21, e30, e31, e40, e41, e50, e51, e60, e61⟩ := Bn1.idx_facts t
  have ht : t.val = ((i : S100000x16.Idx) 0).val / 10000 := rfl
  refine ⟨t, flush1_6 t, ?_⟩
  show i ∈ ((View.whole main_v50).slice (win1_6.rect t)).set
  rw [View.set_slice_whole, Rect.mem_set_unit]
  intro d
  match d with
  | ⟨0, _⟩ =>
    show win1_6.index t 0 * 10000 ≤ (i 0).val ∧ (i 0).val < win1_6.index t 0 * 10000 + 10000
    rw [e60]; omega
  | ⟨1, _⟩ =>
    show win1_6.index t 1 * 16 ≤ (i 1).val ∧ (i 1).val < win1_6.index t 1 * 16 + 16
    rw [e61]; omega

end Cert.KernelIdeal.KV

end
-- ==== Proof.Bn3.lean ====
/-
  The second batch normalisation with its clamp, read off the pipeline: after its ten row blocks have been written back,
  the result array holds at (r, q) the normalised, clamped value of the aggregate at (r, q) with column q's parameters.
-/
import proofs.«412636_j1769526526166_2_alg».proof.Proof.Gen.KernelIdeal.Frame
import proofs.«412636_j1769526526166_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.SL.Sem
open Idealize.ShloMosaic.Pipeline (Dat)
variable (V : (c : Dev nD) → (b : Ref sig .tc) → Buf (Elt Ideal) ((c : Thread nD τ).loc b))

namespace Bn3

/-! ## One entry of the block the body stores -/

/-- A [1, 4] row broadcast down the 10000 rows of a block reads, at (p, q), the row's entry for column q. -/
theorem bcast_row {α : Type} (x : S1x4.Idx → α) (y : S10000x4.Idx) (k : S1x4.Idx) (hk0 : (k 0).val = 0)
    (hk1 : (k 1).val = (y 1).val) : broadcastTo S10000x4 x broadcasts_S1x4_S10000x4 y = x k := by
  refine broadcastTo_apply x _ y k (fun a => ?_)
  match a with
  | ⟨0, _⟩ => exact hk0
  | ⟨1, _⟩ => exact hk1

set_option maxHeartbeats 400000 in
/-- The stored value at (p, q) of a block: max(((a + b − μ) · (σ² + ε)^(−1/2)) · γ + β, 0) of the aggregate's entry at
    (p, q) and the parameter rows' entries for column q (`k` is the row index with column q). -/
theorem pay_apply (xa : Vec Ideal S10000x4 .f32) (xb xv xm xg xbe : Vec Ideal S1x4 .f32)
    (y : S10000x4.Idx) (k : S1x4.Idx) (hk0 : (k 0).val = 0) (hk1 : (k 1).val = (y 1).val) :
    k3_pay1 xa xb xv xm xg xbe y = Cert.Spec.bnRelu (xa y) (xb k) (xm k) (xv k) (xg k) (xbe k) := by
  unfold k3_pay1
  simp only [shapeCast_self]
  show max ((((xa y + broadcastTo S10000x4 xb broadcasts_S1x4_S10000x4 y)
        - broadcastTo S10000x4 xm broadcasts_S1x4_S10000x4 y)
        * broadcastTo S10000x4 (rsqrt (F := Ideal) (addf (F := Ideal) xv (broadcast S1x4 (FloatOps.ofBits (F := Ideal) FTy.f32 0x3727C5AC#32)))) broadcasts_S1x4_S10000x4 y)
        * broadcastTo S10000x4 xg broadcasts_S1x4_S10000x4 y
        + broadcastTo S10000x4 xbe broadcasts_S1x4_S10000x4 y) (Ideal.ofBits .f32 0x00000000#32) = _
  rw [bcast_row xb y k hk0 hk1, bcast_row xm y k hk0 hk1, bcast_row xg y k hk0 hk1, bcast_row xbe y k hk0 hk1,
    bcast_row _ y k hk0 hk1, Ideal.ofBits_zero_f32]
  rfl

/-- The same entry from entries of the arrays: the aggregate's at the array index `i` that the block index `y` stands
    for (it has `y`'s column), each parameter row's at `r i`, the row index with `i`'s column. -/
theorem stored_entry (xa : Vec Ideal S10000x4 .f32) (xb xg xbe xm xv : Vec Ideal S1x4 .f32)
    (a : S100000x4.Idx → EReal) (pb pg pbe pm pv : S1x4.Idx → EReal)
    (r : S100000x4.Idx → S1x4.Idx) (hr : ∀ i, (r i 1).val = (i 1).val)
    (y : S10000x4.Idx) (i : S100000x4.Idx) (hi : (i 1).val = (y 1).val)
    (ha : xa y = a i) (hb : ∀ k, xb k = pb k) (hg : ∀ k, xg k = pg k) (hbe : ∀ k, xbe k = pbe k)
    (hm : ∀ k, xm k = pm k) (hv : ∀ k, xv k = pv k) :
    k3_pay1 xa xb xv xm xg xbe y
      = Cert.Spec.bnRelu (a i) (pb (r i)) (pm (r i)) (pv (r i)) (pg (r i)) (pbe (r i)) := by
  have h0 : (r i 0).val = 0 := by have : (r i 0).val < 1 := (r i 0).isLt; omega
  rw [pay_apply xa xb xv xm xg xbe y (r i) h0 ((hr i).trans hi), ha, hb, hm, hv, hg, hbe]

/-! ## The windows' blocks -/

theorem zero_offsets : (![0, 0] : Fin 2 → Nat) = fun _ => 0 := funext fun a => by fin_cases a <;> rfl

/-- The printed index maps over the grid: the aggregate's window and the result's are at row block t of column
    block 0 at point t, the five parameter windows at block (0, 0) throughout. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 400000 in
/-- Window 1 (the bias) sits at block (0, 0) at every point: its block is the whole [1, 4] row. -/
theorem blk_1_apply (c : Dev nD) (t : Fin cfg3.N) (k : S1x4.Idx) :
    (iblk3 V c 1 t : Vec Ideal S1x4 .f32) k = (V c main_v59 : S1x4.Idx → EReal) k := by
  obtain ⟨e00, e01, e10, e11, e20, e21, e30, e31, e40, e41, e50, e51, e60, e61⟩ := idx_facts t
  unfold iblk3
  rw [View.read_apply]
  show V c main_v59 _ = V c main_v59 _
  congr 1
  funext a
  apply Fin.ext
  match a with
  | ⟨0, _⟩ => show win3_1.index t 0 * 1 + 1 * (k 0).val = (k 0).val; rw [e10]; omega
  | ⟨1, _⟩ => show win3_1.index t 1 * 4 + 1 * (k 1).val = (k 1).val; rw [e11]; omega

set_option maxHeartbeats 400000 in
/-- Window 2 (γ) sits at block (0, 0) at every point: its block is the whole [1, 4] row. -/
theorem blk_2_apply (c : Dev nD) (t : Fin cfg3.N) (k : S1x4.Idx) :
    (iblk3 V c 2 t : Vec Ideal S1x4 .f32) k = (V c main_v60 : S1x4.Idx → EReal) k := by
  obtain ⟨e00, e01, e10, e11, e20, e21, e30, e31, e40, e41, e50, e51, e60, e61⟩ := idx_facts t
  unfold iblk3
  rw [View.read_apply]
  show V c main_v60 _ = V c main_v60 _
  congr 1
  funext a
  apply Fin.ext
  match a with
  | ⟨0, _⟩ => show win3_2.index t 0 * 1 + 1 * (k 0).val = (k 0).val; rw [e20]; omega
  | ⟨1, _⟩ => show win3_2.index t 1 * 4 + 1 * (k 1).val = (k 1).val; rw [e21]; omega

set_option maxHeartbeats 400000 in
/-- Window 3 (β) sits at block (0, 0) at every point: its block is the whole [1, 4] row. -/
theorem blk_3_apply (c : Dev nD) (t : Fin cfg3.N) (k : S1x4.Idx) :
    (iblk3 V c 3 t : Vec Ideal S1x4 .f32) k = (V c main_v61 : S1x4.Idx → EReal) k := by
  obtain ⟨e00, e01, e10, e11, e20, e21, e30, e31, e40, e41, e50, e51, e60, e61⟩ := idx_facts t
  unfold iblk3
  rw [View.read_apply]
  show V c main_v61 _ = V c main_v61 _
  congr 1
  funext a
  apply Fin.ext
  match a with
  | ⟨0, _⟩ => show win3_3.index t 0 * 1 + 1 * (k 0).val = (k 0).val; rw [e30]; omega
  | ⟨1, _⟩ => show win3_3.index t 1 * 4 + 1 * (k 1).val = (k 1).val; rw [e31]; omega

set_option maxHeartbeats 400000 in
/-- Window 4 (the running mean) sits at block (0, 0) at every point: its block is the whole [1, 4] row. -/
theorem blk_4_apply (c : Dev nD) (t : Fin cfg3.N) (k : S1x4.Idx) :
    (iblk3 V c 4 t : Vec Ideal S1x4 .f32) k = (V c main_v62 : S1x4.Idx → EReal) k := by
  obtain ⟨e00, e01, e10, e11, e20, e21, e30, e31, e40, e41, e50, e51, e60, e61⟩ := idx_facts t
  unfold iblk3
  rw [View.read_apply]
  show V c main_v62 _ = V c main_v62 _
  congr 1
  funext a
  apply Fin.ext
  match a with
  | ⟨0, _⟩ => show win3_4.index t 0 * 1 + 1 * (k 0).val = (k 0).val; rw [e40]; omega
  | ⟨1, _⟩ => show win3_4.index t 1 * 4 + 1 * (k 1).val = (k 1).val; rw [e41]; omega

set_option maxHeartbeats 400000 in
/-- Window 5 (the running variance) sits at block (0, 0) at every point: its block is the whole [1, 4] row. -/
theorem blk_5_apply (c : Dev nD) (t : Fin cfg3.N) (k : S1x4.Idx) :
    (iblk3 V c 5 t : Vec Ideal S1x4 .f32) k = (V c main_v63 : S1x4.Idx → EReal) k := by
  obtain ⟨e00, e01, e10, e11, e20, e21, e30, e31, e40, e41, e50, e51, e60, e61⟩ := idx_facts t
  unfold iblk3
  rw [View.read_apply]
  show V c main_v63 _ = V c main_v63 _
  congr 1
  funext a
  apply Fin.ext
  match a with
  | ⟨0, _⟩ => show win3_5.index t 0 * 1 + 1 * (k 0).val = (k 0).val; rw [e50]; omega
  | ⟨1, _⟩ => show win3_5.index t 1 * 4 + 1 * (k 1).val = (k 1).val; rw [e51]; omega

/-! ## What a point writes back, and the array after the region -/

set_option maxHeartbeats 400000 in
/-- Point t writes back block t of the array of normalised, clamped entries: the aggregate's window is at the same
    row block as the result's, and a block index keeps its column. -/
theorem flushed_eq (c : Dev nD) (a : S100000x4.Idx → EReal) (pb pg pbe pm pv : S1x4.Idx → EReal)
    (r : S100000x4.Idx → S1x4.Idx) (hr : ∀ i, (r i 1).val = (i 1).val)
    (ha : V c main_v58 = a) (hb : V c main_v59 = pb) (hg : V c main_v60 = pg) (hbe : V c main_v61 = pbe)
    (hm : V c main_v62 = pm) (hv : V c main_v63 = pv) (t : Fin cfg3.N) :
    (dat3 (F := Ideal) V c).flushed 6 t = ((cfg3.win 6).blk t).view.read (Elt Ideal)
      (fun i => Cert.Spec.bnRelu (a i) (pb (r i)) (pm (r i)) (pv (r i)) (pg (r i)) (pbe (r i))) := by
  show (cfg3.win 6).cut (grid3.coords t) ((dat3 V c).after 6 t) = _
  rw [after3_6]
  unfold out3_6
  rw [View.canon_unit_zero zero_offsets]
  simp only [View.ld_unit_zero (S := S10000x4) zero_offsets, View.ld_unit_zero (S := S1x4) zero_offsets]
  obtain ⟨e00, e01, e10, e11, e20, e21, e30, e31, e40, e41, e50, e51, e60, e61⟩ := idx_facts t
  funext y
  have hi : ((((cfg3.win 6).blk t).view.emb y : S100000x4.Idx) 1).val = ((y : S10000x4.Idx) 1).val := by
    show win3_6.index t 1 * 4 + 1 * (y 1).val = (y 1).val
    rw [e61]; omega
  have h0 : (((cfg3.win 0).blk t).view.emb y : S100000x4.Idx) = ((cfg3.win 6).blk t).view.emb y := by
    funext d; apply Fin.ext
    match d with
    | ⟨0, _⟩ => show win3_0.index t 0 * 10000 + 1 * (y 0).val = win3_6.index t 0 * 10000 + 1 * (y 0).val; rw [e00, e60]
    | ⟨1, _⟩ => show win3_0.index t 1 * 4 + 1 * (y 1).val = win3_6.index t 1 * 4 + 1 * (y 1).val; rw [e01, e61]
  refine stored_entry (iblk3 V c 0 t) (iblk3 V c 1 t) (iblk3 V c 2 t) (iblk3 V c 3 t) (iblk3 V c 4 t) (iblk3 V c 5 t)
    a pb pg pbe pm pv r hr y (((cfg3.win 6).blk t).view.emb y) hi ?_
    (fun k => (blk_1_apply V c t k).trans (congrFun hb k)) (fun k => (blk_2_apply V c t k).trans (congrFun hg k))
    (fun k => (blk_3_apply V c t k).trans (congrFun hbe k)) (fun k => (blk_4_apply V c t k).trans (congrFun hm k))
    (fun k => (blk_5_apply V c t k).trans (congrFun hv k))
  show V c main_v58 (((cfg3.win 0).blk t).view.emb y) = a _
  rw [h0, ha]

end Bn3

set_option maxHeartbeats 400000 in
/-- The result array of the 4-wide normalisation after the region. Windows, in order: the aggregate, then the
    bias, γ, β, the running mean and the running variance as [1, 4] rows; `r i` is the row's entry for column `i 1`.
    Row p of the array is in the block of point p / 10000, so the ten blocks cover it. -/
theorem bn3_arr (c : Dev nD) (a : S100000x4.Idx → EReal) (pb pg pbe pm pv : S1x4.Idx → EReal)
    (r : S100000x4.Idx → S1x4.Idx) (hr : ∀ i, (r i 1).val = (i 1).val)
    (ha : V c main_v58 = a) (hb : V c main_v59 = pb) (hg : V c main_v60 = pg) (hbe : V c main_v61 = pbe)
    (hm : V c main_v62 = pm) (hv : V c main_v63 = pv) :
    (dat3 (F := Ideal) V c).arrAt 6 cfg3.N
      = fun i => Cert.Spec.bnRelu (a i) (pb (r i)) (pm (r i)) (pv (r i)) (pg (r i)) (pbe (r i)) := by
  refine (dat3 (F := Ideal) V c).arrAt_eq_of_cover 6 _
    (fun t _ => Bn3.flushed_eq V c a pb pg pbe pm pv r hr ha hb hg hbe hm hv t) (fun i => ?_)
  have hi0 : ((i : S100000x4.Idx) 0).val < 100000 := (i 0).isLt
  have hi1 : ((i : S100000x4.Idx) 1).val < 4 := (i 1).isLt
  have hN : grid3.N = 10 := N_3
  let t : Fin cfg3.N := ⟨((i : S100000x4.Idx) 0).val / 10000, by show _ < grid3.N; omega⟩
  obtain ⟨e00, e01, e10, e11, e20, e21, e30, e31, e40, e41, e50, e51, e60, e61⟩ := Bn3.idx_facts t
  have ht : t.val = ((i : S100000x4.Idx) 0).val / 10000 := rfl
  refine ⟨t, flush3_6 t, ?_⟩
  show i ∈ ((View.whole main_v64).slice (win3_6.rect t)).set
  rw [View.set_slice_whole, Rect.mem_set_unit]
  intro d
  match d with
  | ⟨0, _⟩ =>
    show win3_6.index t 0 * 10000 ≤ (i 0).val ∧ (i 0).val < win3_6.index t 0 * 10000 + 10000
    rw [e60]; omega
  | ⟨1, _⟩ =>
    show win3_6.index t 1 * 4 ≤ (i 1).val ∧ (i 1).val < win3_6.index t 1 * 4 + 4
    rw [e61]; omega

end Cert.KernelIdeal.KV

end
-- ==== Proof.Fin5.lean ====
/-
  The head, read off the pipeline: after its ten row blocks have been written back, the result array holds at row r the
  logistic function of the 1 × 1 linear map of the normalised aggregate at row r.
-/
import proofs.«412636_j1769526526166_2_alg».proof.Proof.Gen.KernelIdeal.Frame
import proofs.«412636_j1769526526166_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen
open Idealize.ShloMosaic Idealize.ShloMosaic.TcCoe Idealize.SL.Sem
open Idealize.ShloMosaic.Pipeline (Dat)
variable (V : (c : Dev nD) → (b : Ref sig .tc) → Buf (Elt Ideal) ((c : Thread nD τ).loc b))

namespace Fin5

/-! ## One entry of the block the body stores -/

/-- A [1, 1] array broadcast down the 10000 rows of a block reads its one entry everywhere. -/
theorem bcast_one {α : Type} (x : S1x1.Idx → α) (y : S10000x1.Idx) (k : S1x1.Idx) :
    broadcastTo S10000x1 x broadcasts_S1x1_S10000x1 y = x k := by
  refine broadcastTo_apply x _ y k (fun a => ?_)
  match a with
  | ⟨0, _⟩ => have : (k 0).val < 1 := (k 0).isLt; show (k 0).val = 0; omega
  | ⟨1, _⟩ => have : (k 1).val < 1 := (k 1).isLt; show (k 1).val = 0; omega

set_option maxHeartbeats 400000 in
/-- The stored value at row p of a block: the logistic function of (((a + b − μ) · (σ² + ε)^(−1/2)) · γ + β) · w + l, of
    the aggregate's entry at row p and the seven parameters' one entry each (`k` is any index of a [1, 1] array). -/
theorem pay_apply (xa : Vec Ideal S10000x1 .f32) (xb xv xm xg xbe xw xl : Vec Ideal S1x1 .f32)
    (y : S10000x1.Idx) (k : S1x1.Idx) :
    k5_pay1 xa xb xv xm xg xbe xw xl y
      = Cert.Spec.head (xa y) (xb k) (xm k) (xv k) (xg k) (xbe k) (xw k) (xl k) := by
  unfold k5_pay1
  simp only [shapeCast_self]
  show Ideal.logistic (((((xa y + broadcastTo S10000x1 xb broadcasts_S1x1_S10000x1 y)
        - broadcastTo S10000x1 xm broadcasts_S1x1_S10000x1 y)
        * broadcastTo S10000x1 (rsqrt (F := Ideal) (addf (F := Ideal) xv (broadcast S1x1 (FloatOps.ofBits (F := Ideal) FTy.f32 0x3727C5AC#32)))) broadcasts_S1x1_S10000x1 y)
        * broadcastTo S10000x1 xg broadcasts_S1x1_S10000x1 y
        + broadcastTo S10000x1 xbe broadcasts_S1x1_S10000x1 y)
        * broadcastTo S10000x1 xw broadcasts_S1x1_S10000x1 y
        + broadcastTo S10000x1 xl broadcasts_S1x1_S10000x1 y) = _
  rw [bcast_one xb y k, bcast_one xm y k, bcast_one xg y k, bcast_one xbe y k, bcast_one xw y k, bcast_one xl y k,
    bcast_one _ y k]
  rfl

/-- The same entry from entries of the arrays: the aggregate's at the array index `i` that the block index `y` stands
    for, each parameter's at its one index `z`. -/
theorem stored_entry (xa : Vec Ideal S10000x1 .f32) (xb xg xbe xm xv xw xl : Vec Ideal S1x1 .f32)
    (a : S100000x1.Idx → EReal) (pb pg pbe pm pv pw pl : S1x1.Idx → EReal) (z : S1x1.Idx)
    (y : S10000x1.Idx) (i : S100000x1.Idx)
    (ha : xa y = a i) (hb : ∀ k, xb k = pb k) (hg : ∀ k, xg k = pg k) (hbe : ∀ k, xbe k = pbe k)
    (hm : ∀ k, xm k = pm k) (hv : ∀ k, xv k = pv k) (hw : ∀ k, xw k = pw k) (hl : ∀ k, xl k = pl k) :
    k5_pay1 xa xb xv xm xg xbe xw xl y
      = Cert.Spec.head (a i) (pb z) (pm z) (pv z) (pg z) (pbe z) (pw z) (pl z) := by
  rw [pay_apply xa xb xv xm xg xbe xw xl y z, ha, hb, hm, hv, hg, hbe, hw, hl]

/-! ## The windows' blocks -/

theorem zero_offsets : (![0, 0] : Fin 2 → Nat) = fun _ => 0 := funext fun a => by fin_cases a <;> rfl

/-- The printed index maps over the grid: the aggregate's window and the result's are at row block t of column
    block 0 at point t, the seven parameter windows at block (0, 0) throughout. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

set_option maxHeartbeats 400000 in
/-- Window 1 (the bias) sits at block (0, 0) at every point: its block is the whole [1, 1] array. -/
theorem blk_1_apply (c : Dev nD) (t : Fin cfg5.N) (k : S1x1.Idx) :
    (iblk5 V c 1 t : Vec Ideal S1x1 .f32) k = (V c main_v72 : S1x1.Idx → EReal) k := by
  obtain ⟨e00, e01, e10, e11, e20, e21, e30, e31, e40, e41, e50, e51, e60, e61, e70, e71, e80, e81⟩ := idx_facts t
  unfold iblk5
  rw [View.read_apply]
  show V c main_v72 _ = V c main_v72 _
  congr 1
  funext a
  apply Fin.ext
  match a with
  | ⟨0, _⟩ => show win5_1.index t 0 * 1 + 1 * (k 0).val = (k 0).val; rw [e10]; omega
  | ⟨1, _⟩ => show win5_1.index t 1 * 1 + 1 * (k 1).val = (k 1).val; rw [e11]; omega

set_option maxHeartbeats 400000 in
/-- Window 2 (γ) sits at block (0, 0) at every point: its block is the whole [1, 1] array. -/
theorem blk_2_apply (c : Dev nD) (t : Fin cfg5.N) (k : S1x1.Idx) :
    (iblk5 V c 2 t : Vec Ideal S1x1 .f32) k = (V c main_v73 : S1x1.Idx → EReal) k := by
  obtain ⟨e00, e01, e10, e11, e20, e21, e30, e31, e40, e41, e50, e51, e60, e61, e70, e71, e80, e81⟩ := idx_facts t
  unfold iblk5
  rw [View.read_apply]
  show V c main_v73 _ = V c main_v73 _
  congr 1
  funext a
  apply Fin.ext
  match a with
  | ⟨0, _⟩ => show win5_2.index t 0 * 1 + 1 * (k 0).val = (k 0).val; rw [e20]; omega
  | ⟨1, _⟩ => show win5_2.index t 1 * 1 + 1 * (k 1).val = (k 1).val; rw [e21]; omega

set_option maxHeartbeats 400000 in
/-- Window 3 (β) sits at block (0, 0) at every point: its block is the whole [1, 1] array. -/
theorem blk_3_apply (c : Dev nD) (t : Fin cfg5.N) (k : S1x1.Idx) :
    (iblk5 V c 3 t : Vec Ideal S1x1 .f32) k = (V c main_v74 : S1x1.Idx → EReal) k := by
  obtain ⟨e00, e01, e10, e11, e20, e21, e30, e31, e40, e41, e50, e51, e60, e61, e70, e71, e80, e81⟩ := idx_facts t
  unfold iblk5
  rw [View.read_apply]
  show V c main_v74 _ = V c main_v74 _
  congr 1
  funext a
  apply Fin.ext
  match a with
  | ⟨0, _⟩ => show win5_3.index t 0 * 1 + 1 * (k 0).val = (k 0).val; rw [e30]; omega
  | ⟨1, _⟩ => show win5_3.index t 1 * 1 + 1 * (k 1).val = (k 1).val; rw [e31]; omega

set_option maxHeartbeats 400000 in
/-- Window 4 (the running mean) sits at block (0, 0) at every point: its block is the whole [1, 1] array. -/
theorem blk_4_apply (c : Dev nD) (t : Fin cfg5.N) (k : S1x1.Idx) :
    (iblk5 V c 4 t : Vec Ideal S1x1 .f32) k = (V c main_v75 : S1x1.Idx → EReal) k := by
  obtain ⟨e00, e01, e10, e11, e20, e21, e30, e31, e40, e41, e50, e51, e60, e61, e70, e71, e80, e81⟩ := idx_facts t
  unfold iblk5
  rw [View.read_apply]
  show V c main_v75 _ = V c main_v75 _
  congr 1
  funext a
  apply Fin.ext
  match a with
  | ⟨0, _⟩ => show win5_4.index t 0 * 1 + 1 * (k 0).val = (k 0).val; rw [e40]; omega
  | ⟨1, _⟩ => show win5_4.index t 1 * 1 + 1 * (k 1).val = (k 1).val; rw [e41]; omega

set_option maxHeartbeats 400000 in
/-- Window 5 (the running variance) sits at block (0, 0) at every point: its block is the whole [1, 1] array. -/
theorem blk_5_apply (c : Dev nD) (t : Fin cfg5.N) (k : S1x1.Idx) :
    (iblk5 V c 5 t : Vec Ideal S1x1 .f32) k = (V c main_v76 : S1x1.Idx → EReal) k := by
  obtain ⟨e00, e01, e10, e11, e20, e21, e30, e31, e40, e41, e50, e51, e60, e61, e70, e71, e80, e81⟩ := idx_facts t
  unfold iblk5
  rw [View.read_apply]
  show V c main_v76 _ = V c main_v76 _
  congr 1
  funext a
  apply Fin.ext
  match a with
  | ⟨0, _⟩ => show win5_5.index t 0 * 1 + 1 * (k 0).val = (k 0).val; rw [e50]; omega
  | ⟨1, _⟩ => show win5_5.index t 1 * 1 + 1 * (k 1).val = (k 1).val; rw [e51]; omega

set_option maxHeartbeats 400000 in
/-- Window 6 (the 1 × 1 weight) sits at block (0, 0) at every point: its block is the whole [1, 1] array. -/
theorem blk_6_apply (c : Dev nD) (t : Fin cfg5.N) (k : S1x1.Idx) :
    (iblk5 V c 6 t : Vec Ideal S1x1 .f32) k = (V c main_arg21 : S1x1.Idx → EReal) k := by
  obtain ⟨e00, e01, e10, e11, e20, e21, e30, e31, e40, e41, e50, e51, e60, e61, e70, e71, e80, e81⟩ := idx_facts t
  unfold iblk5
  rw [View.read_apply]
  show V c main_arg21 _ = V c main_arg21 _
  congr 1
  funext a
  apply Fin.ext
  match a with
  | ⟨0, _⟩ => show win5_6.index t 0 * 1 + 1 * (k 0).val = (k 0).val; rw [e60]; omega
  | ⟨1, _⟩ => show win5_6.index t 1 * 1 + 1 * (k 1).val = (k 1).val; rw [e61]; omega

set_option maxHeartbeats 400000 in
/-- Window 7 (the 1 × 1 map's bias) sits at block (0, 0) at every point: its block is the whole [1, 1] array. -/
theorem blk_7_apply (c : Dev nD) (t : Fin cfg5.N) (k : S1x1.Idx) :
    (iblk5 V c 7 t : Vec Ideal S1x1 .f32) k = (V c main_v77 : S1x1.Idx → EReal) k := by
  obtain ⟨e00, e01, e10, e11, e20, e21, e30, e31, e40, e41, e50, e51, e60, e61, e70, e71, e80, e81⟩ := idx_facts t
  unfold iblk5
  rw [View.read_apply]
  show V c main_v77 _ = V c main_v77 _
  congr 1
  funext a
  apply Fin.ext
  match a with
  | ⟨0, _⟩ => show win5_7.index t 0 * 1 + 1 * (k 0).val = (k 0).val; rw [e70]; omega
  | ⟨1, _⟩ => show win5_7.index t 1 * 1 + 1 * (k 1).val = (k 1).val; rw [e71]; omega

/-! ## What a point writes back, and the array after the region -/

set_option maxHeartbeats 400000 in
/-- Point t writes back block t of the array of head values: the aggregate's window is at the same row block as the
    result's. -/
theorem flushed_eq (c : Dev nD) (a : S100000x1.Idx → EReal) (pb pg pbe pm pv pw pl : S1x1.Idx → EReal) (z : S1x1.Idx)
    (ha : V c main_v71 = a) (hb : V c main_v72 = pb) (hg : V c main_v73 = pg) (hbe : V c main_v74 = pbe)
    (hm : V c main_v75 = pm) (hv : V c main_v76 = pv) (hw : V c main_arg21 = pw) (hl : V c main_v77 = pl)
    (t : Fin cfg5.N) :
    (dat5 (F := Ideal) V c).flushed 8 t = ((cfg5.win 8).blk t).view.read (Elt Ideal)
      (fun i => Cert.Spec.head (a i) (pb z) (pm z) (pv z) (pg z) (pbe z) (pw z) (pl z)) := by
  show (cfg5.win 8).cut (grid5.coords t) ((dat5 V c).after 8 t) = _
  rw [after5_8]
  unfold out5_8
  rw [View.canon_unit_zero zero_offsets]
  simp only [View.ld_unit_zero (S := S10000x1) zero_offsets, View.ld_unit_zero (S := S1x1) zero_offsets]
  obtain ⟨e00, e01, e10, e11, e20, e21, e30, e31, e40, e41, e50, e51, e60, e61, e70, e71, e80, e81⟩ := idx_facts t
  funext y
  have h0 : (((cfg5.win 0).blk t).view.emb y : S100000x1.Idx) = ((cfg5.win 8).blk t).view.emb y := by
    funext d; apply Fin.ext
    match d with
    | ⟨0, _⟩ => show win5_0.index t 0 * 10000 + 1 * (y 0).val = win5_8.index t 0 * 10000 + 1 * (y 0).val; rw [e00, e80]
    | ⟨1, _⟩ => show win5_0.index t 1 * 1 + 1 * (y 1).val = win5_8.index t 1 * 1 + 1 * (y 1).val; rw [e01, e81]
  refine stored_entry (iblk5 V c 0 t) (iblk5 V c 1 t) (iblk5 V c 2 t) (iblk5 V c 3 t) (iblk5 V c 4 t) (iblk5 V c 5 t)
    (iblk5 V c 6 t) (iblk5 V c 7 t) a pb pg pbe pm pv pw pl z y (((cfg5.win 8).blk t).view.emb y) ?_
    (fun k => (blk_1_apply V c t k).trans (congrFun hb k)) (fun k => (blk_2_apply V c t k).trans (congrFun hg k))
    (fun k => (blk_3_apply V c t k).trans (congrFun hbe k)) (fun k => (blk_4_apply V c t k).trans (congrFun hm k))
    (fun k => (blk_5_apply V c t k).trans (congrFun hv k)) (fun k => (blk_6_apply V c t k).trans (congrFun hw k))
    (fun k => (blk_7_apply V c t k).trans (congrFun hl k))
  show V c main_v71 (((cfg5.win 0).blk t).view.emb y) = a _
  rw [h0, ha]

end Fin5

set_option maxHeartbeats 400000 in
/-- The result array of the head after the region. Windows, in order: the aggregate, then the bias, γ, β, the running
    mean, the running variance, the 1 × 1 weight and its bias, each a [1, 1] array read at its one index `z`.
    Row p of the array is in the block of point p / 10000, so the ten blocks cover it. -/
theorem fin5_arr (c : Dev nD) (a : S100000x1.Idx → EReal) (pb pg pbe pm pv pw pl : S1x1.Idx → EReal) (z : S1x1.Idx)
    (ha : V c main_v71 = a) (hb : V c main_v72 = pb) (hg : V c main_v73 = pg) (hbe : V c main_v74 = pbe)
    (hm : V c main_v75 = pm) (hv : V c main_v76 = pv) (hw : V c main_arg21 = pw) (hl : V c main_v77 = pl) :
    (dat5 (F := Ideal) V c).arrAt 8 cfg5.N
      = fun i => Cert.Spec.head (a i) (pb z) (pm z) (pv z) (pg z) (pbe z) (pw z) (pl z) := by
  refine (dat5 (F := Ideal) V c).arrAt_eq_of_cover 8 _
    (fun t _ => Fin5.flushed_eq V c a pb pg pbe pm pv pw pl z ha hb hg hbe hm hv hw hl t) (fun i => ?_)
  have hi0 : ((i : S100000x1.Idx) 0).val < 100000 := (i 0).isLt
  have hi1 : ((i : S100000x1.Idx) 1).val < 1 := (i 1).isLt
  have hN : grid5.N = 10 := N_5
  let t : Fin cfg5.N := ⟨((i : S100000x1.Idx) 0).val / 10000, by show _ < grid5.N; omega⟩
  obtain ⟨e00, e01, e10, e11, e20, e21, e30, e31, e40, e41, e50, e51, e60, e61, e70, e71, e80, e81⟩ := Fin5.idx_facts t
  have ht : t.val = ((i : S100000x1.Idx) 0).val / 10000 := rfl
  refine ⟨t, flush5_8 t, ?_⟩
  show i ∈ ((View.whole main_v78).slice (win5_8.rect t)).set
  rw [View.set_slice_whole, Rect.mem_set_unit]
  intro d
  match d with
  | ⟨0, _⟩ =>
    show win5_8.index t 0 * 10000 ≤ (i 0).val ∧ (i 0).val < win5_8.index t 0 * 10000 + 10000
    rw [e80]; omega
  | ⟨1, _⟩ =>
    show win5_8.index t 1 * 1 ≤ (i 1).val ∧ (i 1).val < win5_8.index t 1 * 1 + 1
    rw [e81]; omega

end Cert.KernelIdeal.KV

end
-- ==== Proof.RefVal.lean ====
/-
  The reference's three normalisation stages, read one entry at a time: each is the shared entrywise arithmetic of the
  aggregate before it and that column's parameters; the head's 1 × 1 matrix product is a product of two numbers and its
  quotient 1 / (1 + e^(−x)) is the logistic function.
-/
import proofs.«412636_j1769526526166_2_alg».proof.Proof.Gen.ReferenceIdeal.Read
import proofs.«412636_j1769526526166_2_alg».proof.Proof.Spec
import Idealize.ShloMosaic.Lib.Pipeline.Value
import Idealize.ShloMosaic.Lib.ValueIdx
import Idealize.ShloMosaic.PureOps.Ideal.Laws

noncomputable section

namespace Cert.ReferenceIdeal.RV

open Cert.ReferenceIdeal Cert.ReferenceIdeal.Read
open Idealize.ShloMosaic Idealize.ShloMosaic.TcCoe

variable (x0 : (⟨S100000x1, .f32⟩ : BufTy).Contents (Elt Ideal)) (x1 : (⟨S2x3200000, .i32⟩ : BufTy).Contents (Elt Ideal)) (x2 : (⟨S3200000, .f32⟩ : BufTy).Contents (Elt Ideal))
  (x3 : (⟨S1x16, .f32⟩ : BufTy).Contents (Elt Ideal)) (x4 : (⟨S16, .f32⟩ : BufTy).Contents (Elt Ideal)) (x5 : (⟨S16x4, .f32⟩ : BufTy).Contents (Elt Ideal)) (x6 : (⟨S4, .f32⟩ : BufTy).Contents (Elt Ideal))
  (x7 : (⟨S4x1, .f32⟩ : BufTy).Contents (Elt Ideal)) (x8 : (⟨S1, .f32⟩ : BufTy).Contents (Elt Ideal)) (x9 x10 x11 x12 : (⟨S16, .f32⟩ : BufTy).Contents (Elt Ideal))
  (x13 x14 x15 x16 : (⟨S4, .f32⟩ : BufTy).Contents (Elt Ideal)) (x17 x18 x19 x20 : (⟨S1, .f32⟩ : BufTy).Contents (Elt Ideal)) (x21 : (⟨S1x1, .f32⟩ : BufTy).Contents (Elt Ideal)) (x22 : (⟨S1, .f32⟩ : BufTy).Contents (Elt Ideal))

/-- The first layer's output at (r, q): the clamped normalisation of the first aggregate at (r, q) with column q's
    parameters (bias x4, mean x11, variance x12, γ x9, β x10). -/
theorem v69_apply (i : S100000x16.Idx) (q : S16.Idx) (hq : (q 0).val = (i 1).val) :
    val_main_v69 (F := Ideal) x0 x1 x2 x3 x4 x9 x10 x11 x12 i
      = Cert.Spec.bnRelu (val_main_v50 (F := Ideal) x0 x1 x2 x3 i) (x4 q) (x11 q) (x12 q) (x9 q) (x10 q) := by
  -- a [16]-index whose coordinate is the column of i is q
  have e : ∀ j : S16.Idx, (j 0).val = (i 1).val → j = q := fun j hj => by
    funext a
    match a with
    | ⟨0, _⟩ => exact Fin.ext (hj.trans hq.symm)
  rw [val_main_v69_apply, val_main_v68_apply, val_main_v65_apply, val_main_v62_apply, val_main_v56_apply, val_main_v53_apply, val_main_v52_apply, val_main_v51_apply, val_main_v55_apply, val_main_v54_apply, val_main_v61_apply, val_main_v60_apply, val_main_v59_apply, val_main_v58_apply, val_main_v57_apply, val_main_cst_11_apply, val_main_v64_apply, val_main_v63_apply, val_main_v67_apply, val_main_v66_apply, val_main_call2_v0_apply, val_main_call2_cst_apply]
  rw [e (idx_main_v51 (idx_main_v52 i)) rfl, e (idx_main_v54 (idx_main_v55 i)) rfl, e (idx_main_v60 (idx_main_v61 i)) rfl,
    e (idx_main_v63 (idx_main_v64 i)) rfl, e (idx_main_v66 (idx_main_v67 i)) rfl]
  simp only [Cert.Spec.bnRelu, Cert.Spec.bn, Cert.Spec.eps, Ideal.addf_def, Ideal.subf_def, Ideal.mulf_def, Ideal.maximumf_def,
    Ideal.hostUnary_rsqrt_def, Ideal.ofBits_def, Ideal.ofBits_zero_f32]

/-- The second layer's output at (r, q), likewise (bias x6, mean x15, variance x16, γ x13, β x14). -/
theorem v102_apply (i : S100000x4.Idx) (q : S4.Idx) (hq : (q 0).val = (i 1).val) :
    val_main_v102 (F := Ideal) x0 x1 x2 x3 x4 x5 x6 x9 x10 x11 x12 x13 x14 x15 x16 i
      = Cert.Spec.bnRelu (val_main_v83 (F := Ideal) x0 x1 x2 x3 x4 x5 x9 x10 x11 x12 i) (x6 q) (x15 q) (x16 q) (x13 q) (x14 q) := by
  -- a [4]-index whose coordinate is the column of i is q
  have e : ∀ j : S4.Idx, (j 0).val = (i 1).val → j = q := fun j hj => by
    funext a
    match a with
    | ⟨0, _⟩ => exact Fin.ext (hj.trans hq.symm)
  rw [val_main_v102_apply, val_main_v101_apply, val_main_v98_apply, val_main_v95_apply, val_main_v89_apply, val_main_v86_apply, val_main_v85_apply, val_main_v84_apply, val_main_v88_apply, val_main_v87_apply, val_main_v94_apply, val_main_v93_apply, val_main_v92_apply, val_main_v91_apply, val_main_v90_apply, val_main_cst_15_apply, val_main_v97_apply, val_main_v96_apply, val_main_v100_apply, val_main_v99_apply, val_main_call3_v0_apply, val_main_call3_cst_apply]
  rw [e (idx_main_v84 (idx_main_v85 i)) rfl, e (idx_main_v87 (idx_main_v88 i)) rfl, e (idx_main_v93 (idx_main_v94 i)) rfl,
    e (idx_main_v96 (idx_main_v97 i)) rfl, e (idx_main_v99 (idx_main_v100 i)) rfl]
  simp only [Cert.Spec.bnRelu, Cert.Spec.bn, Cert.Spec.eps, Ideal.addf_def, Ideal.subf_def, Ideal.mulf_def, Ideal.maximumf_def,
    Ideal.hostUnary_rsqrt_def, Ideal.ofBits_def, Ideal.ofBits_zero_f32]

/-- The result at row r: the head of the third aggregate at r (bias x8, mean x19, variance x20, γ x17, β x18, the 1 × 1
    weight x21 and its bias x22). -/
theorem v143_apply (i : S100000x1.Idx) (q : S1.Idx) (z : S1x1.Idx) :
    val_main_v143 (F := Ideal) x0 x1 x2 x3 x4 x5 x6 x7 x8 x9 x10 x11 x12 x13 x14 x15 x16 x17 x18 x19 x20 x21 x22 i
      = Cert.Spec.head (val_main_v115 (F := Ideal) x0 x1 x2 x3 x4 x5 x6 x7 x9 x10 x11 x12 x13 x14 x15 x16 i)
          (x8 q) (x19 q) (x20 q) (x17 q) (x18 q) (x21 z) (x22 q) := by
  -- an axis of size one has the single coordinate 0: any [1]-index is q, any [1, 1]-index is z
  have e1 : ∀ j : S1.Idx, j = q := fun j => by
    funext a
    match a with
    | ⟨0, h⟩ =>
      apply Fin.ext
      have h1 : (j ⟨0, h⟩).val < 1 := (j ⟨0, h⟩).isLt
      have h2 : (q ⟨0, h⟩).val < 1 := (q ⟨0, h⟩).isLt
      omega
  have e2 : ∀ j : S1x1.Idx, j = z := fun j => by
    funext a
    match a with
    | ⟨0, h⟩ =>
      apply Fin.ext
      have h1 : (j ⟨0, h⟩).val < 1 := (j ⟨0, h⟩).isLt
      have h2 : (z ⟨0, h⟩).val < 1 := (z ⟨0, h⟩).isLt
      omega
    | ⟨1, h⟩ =>
      apply Fin.ext
      have h1 : (j ⟨1, h⟩).val < 1 := (j ⟨1, h⟩).isLt
      have h2 : (z ⟨1, h⟩).val < 1 := (z ⟨1, h⟩).isLt
      omega
  -- the one term of the 1 × 1 product reads the left factor at i itself
  have el : lidx_main_v134 i 0 = i := by
    funext a
    match a with
    | ⟨0, h⟩ => rfl
    | ⟨1, h⟩ =>
      apply Fin.ext
      have h1 : (i ⟨1, h⟩).val < 1 := (i ⟨1, h⟩).isLt
      show (0 : Nat) = (i ⟨1, h⟩).val
      omega
  -- the word 0x3F800000 is the number 1
  have one : Ideal.ofBits .f32 0x3F800000#32 = 1 := IdealRules.sign_bit.ideal_onePat .f32
  rw [val_main_v143_apply, val_main_v142_apply, val_main_cst_21_apply, val_main_v141_apply, val_main_v140_apply, val_main_cst_20_apply, val_main_v139_apply, val_main_v138_apply, val_main_v137_apply, val_main_v134_apply, val_main_v136_apply, val_main_v135_apply, Fin.sum_univ_one, el]
  rw [val_main_v133_apply, val_main_v130_apply, val_main_v127_apply, val_main_v121_apply, val_main_v118_apply, val_main_v117_apply, val_main_v116_apply, val_main_v120_apply, val_main_v119_apply, val_main_v126_apply, val_main_v125_apply, val_main_v124_apply, val_main_v123_apply, val_main_v122_apply, val_main_cst_19_apply, val_main_v129_apply, val_main_v128_apply, val_main_v132_apply, val_main_v131_apply]
  rw [e1 (idx_main_v116 (idx_main_v117 i)), e1 (idx_main_v119 (idx_main_v120 i)), e1 (idx_main_v125 (idx_main_v126 i)),
    e1 (idx_main_v128 (idx_main_v129 i)), e1 (idx_main_v131 (idx_main_v132 i)), e1 (idx_main_v135 (idx_main_v136 i)),
    e2 (ridx_main_v134 i 0)]
  simp only [Cert.Spec.head, Cert.Spec.bn, Cert.Spec.eps, Ideal.logistic, Ideal.addf_def, Ideal.subf_def, Ideal.mulf_def,
    Ideal.hostDivf_def, Ideal.hostNegf_def, Ideal.negf_def, Ideal.hostUnary_exp_def, Ideal.hostUnary_rsqrt_def, Ideal.ofBits_def, one]

end Cert.ReferenceIdeal.RV

end
-- ==== Proof.Bridge.lean ====
/-
  The kernel program's boundary contents and the reference's stages, matched layer by layer, under the one fact the
  precondition gives about the edge list: every source-node word names a node. The edge words and coefficients are the
  same host operations in both programs. A linear map: the kernel's blocked matrix product and the reference's whole
  product are the same sums. A gather: with every word in range the kernel's guarded take is the plain gather. A
  scatter-add: the same operation of equal operands. A normalisation: the same entrywise arithmetic.
-/
import proofs.«412636_j1769526526166_2_alg».proof.Proof.Hops
import proofs.«412636_j1769526526166_2_alg».proof.Proof.Lin0
import proofs.«412636_j1769526526166_2_alg».proof.Proof.Lin2
import proofs.«412636_j1769526526166_2_alg».proof.Proof.Lin4
import proofs.«412636_j1769526526166_2_alg».proof.Proof.Bn1
import proofs.«412636_j1769526526166_2_alg».proof.Proof.Bn3
import proofs.«412636_j1769526526166_2_alg».proof.Proof.Fin5
import proofs.«412636_j1769526526166_2_alg».proof.Proof.RefVal
import Idealize.ShloMosaic.Lib.ValueLayout

set_option maxRecDepth 16384

noncomputable section

namespace Cert.Proof.Bridge

open Cert.KernelIdeal Cert.KernelIdeal.Gen Cert.KernelIdeal.KV
open Idealize.ShloMosaic Idealize.ShloMosaic.TcCoe Idealize.SL.Sem Idealize.ShloMosaic.StableHlo Idealize.ShloMosaic.ValueIdx
open Cert.ReferenceIdeal.Read (val_main_v8 val_main_v10 val_main_v36 val_main_v37 val_main_v44 val_main_v50 val_main_v69 val_main_v70 val_main_v77
  val_main_v83 val_main_v102 val_main_v103 val_main_v110 val_main_v115 val_main_v143)

variable (m : (ℓ : Loc nD τ sig) → Buf (Elt Ideal) ℓ) (ρ : Dev nD → PrngReg) (c : Dev nD)

/-! ## The edge words and coefficients: the same host operations in both programs -/

theorem row_ref : rowOf (m ((c : Thread nD τ).loc main_arg1)) = val_main_v8 (F := Ideal) (m ((c : Thread nD τ).loc main_arg1)) := rfl

set_option maxHeartbeats 4000000 in
theorem col_eq : W5 m ρ c (Proc.devRef .tc main_v10) = val_main_v10 (F := Ideal) (m ((c : Thread nD τ).loc main_arg1)) := by
  dsimp only [W5, W4, W3, W2, W1, W0, hostOps0_4, hostOps0_3, hostOps0_2, hostOps0_1, hostOps0]
  after_results_simp
  rfl

/-- The two selects of the degree normalisation are written through typed references; their transports are the identity. -/
theorem ofBuf_cst_2 {F : FTy → Type} [FloatOps F] (p1 p2 p3) (v : (⟨S_, .f32⟩ : BufTy).Contents (Elt F)) :
    (TRef.of (T := ⟨S_, .f32⟩) main_cst_2 p1 p2 p3).ofBuf v = v := rfl
theorem ofBuf_v15 {F : FTy → Type} [FloatOps F] (p1 p2 p3) (v : (⟨S100000, .i1⟩ : BufTy).Contents (Elt F)) :
    (TRef.of (T := ⟨S100000, .i1⟩) main_v15 p1 p2 p3).ofBuf v = v := rfl
theorem ofBuf_v13 {F : FTy → Type} [FloatOps F] (p1 p2 p3) (v : (⟨S100000, .f32⟩ : BufTy).Contents (Elt F)) :
    (TRef.of (T := ⟨S100000, .f32⟩) main_v13 p1 p2 p3).ofBuf v = v := rfl
theorem toBuf_v16 {F : FTy → Type} [FloatOps F] (p1 p2 p3) (v : (⟨S100000, .f32⟩ : BufTy).Contents (Elt F)) :
    (TRef.of (T := ⟨S100000, .f32⟩) main_v16 p1 p2 p3).toBuf v = v := rfl
theorem ofBuf_cst_4 {F : FTy → Type} [FloatOps F] (p1 p2 p3) (v : (⟨S_, .f32⟩ : BufTy).Contents (Elt F)) :
    (TRef.of (T := ⟨S_, .f32⟩) main_cst_4 p1 p2 p3).ofBuf v = v := rfl
theorem ofBuf_v18 {F : FTy → Type} [FloatOps F] (p1 p2 p3) (v : (⟨S100000, .i1⟩ : BufTy).Contents (Elt F)) :
    (TRef.of (T := ⟨S100000, .i1⟩) main_v18 p1 p2 p3).ofBuf v = v := rfl
theorem ofBuf_v19 {F : FTy → Type} [FloatOps F] (p1 p2 p3) (v : (⟨S100000, .f32⟩ : BufTy).Contents (Elt F)) :
    (TRef.of (T := ⟨S100000, .f32⟩) main_v19 p1 p2 p3).ofBuf v = v := rfl
theorem toBuf_v20 {F : FTy → Type} [FloatOps F] (p1 p2 p3) (v : (⟨S100000, .f32⟩ : BufTy).Contents (Elt F)) :
    (TRef.of (T := ⟨S100000, .f32⟩) main_v20 p1 p2 p3).toBuf v = v := rfl

set_option maxHeartbeats 4000000 in
theorem norm_eq : W5 m ρ c (Proc.devRef .tc main_v36) = val_main_v36 (F := Ideal) (m ((c : Thread nD τ).loc main_arg1)) (m ((c : Thread nD τ).loc main_arg2)) := by
  dsimp only [W5, W4, W3, W2, W1, W0, hostOps0_4, hostOps0_3, hostOps0_2, hostOps0_1, hostOps0]
  after_results_simp
  simp only [ofBuf_toBuf_of, ofBuf_cst_2, ofBuf_v15, ofBuf_v13, toBuf_v16, ofBuf_cst_4, ofBuf_v18, ofBuf_v19, toBuf_v20]
  rfl

/-! ## Layer 1 -/

/-- The first linear map. -/
theorem h1_eq : W6 m ρ c (Proc.devRef .tc main_v37) = val_main_v37 (F := Ideal) (m ((c : Thread nD τ).loc main_arg0)) (m ((c : Thread nD τ).loc main_arg3)) :=
  (lin_at6 m ρ c).trans
    (lin0_arr (V5 m ρ) c (m ((c : Thread nD τ).loc main_arg0)) (m ((c : Thread nD τ).loc main_arg3)) (val_main_v37 (F := Ideal) (m ((c : Thread nD τ).loc main_arg0)) (m ((c : Thread nD τ).loc main_arg3)))
      Cert.ReferenceIdeal.Read.lidx_main_v37 Cert.ReferenceIdeal.Read.ridx_main_v37 (arg0_at5 m ρ c) (arg3_at5 m ρ c)
      (fun _ _ => rfl) (fun _ _ => rfl) (fun _ _ => rfl) (fun _ _ => rfl)
      (fun i => Cert.ReferenceIdeal.Read.val_main_v37_apply _ _ i))

section
variable (hrow : ∀ e : S3300000.Idx, 0 ≤ (rowOf (m ((c : Thread nD τ).loc main_arg1)) e).toInt ∧ (rowOf (m ((c : Thread nD τ).loc main_arg1)) e).toInt < 100000)
include hrow

/-- The first gather. -/
theorem t1_eq : W7 m ρ c (Proc.devRef .tc main_v38) = val_main_v44 (F := Ideal) (m ((c : Thread nD τ).loc main_arg0)) (m ((c : Thread nD τ).loc main_arg1)) (m ((c : Thread nD τ).loc main_arg3)) := by
  rw [take_at7, v8_at6, row_eq, h1_eq, take16_eq _ _ hrow]
  rfl

/-- The first aggregate. -/
theorem a1_eq : W8 m ρ c (Proc.devRef .tc main_v44) = val_main_v50 (F := Ideal) (m ((c : Thread nD τ).loc main_arg0)) (m ((c : Thread nD τ).loc main_arg1)) (m ((c : Thread nD τ).loc main_arg2)) (m ((c : Thread nD τ).loc main_arg3)) := by
  rw [agg_at8, v10_at7, v36_at7, col_eq, norm_eq, t1_eq m ρ c hrow]
  rfl

/-- The first normalisation. -/
theorem b1_eq : W9 m ρ c (Proc.devRef .tc main_v50) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) := by
  rw [bn_at9, bn1_arr (V8 m ρ) c (val_main_v50 (F := Ideal) (m ((c : Thread nD τ).loc main_arg0)) (m ((c : Thread nD τ).loc main_arg1)) (m ((c : Thread nD τ).loc main_arg2)) (m ((c : Thread nD τ).loc main_arg3)))
    (shapeCast S1x16 (m ((c : Thread nD τ).loc main_arg4)) shapeCasts_S16_S1x16) (shapeCast S1x16 (m ((c : Thread nD τ).loc main_arg9)) shapeCasts_S16_S1x16)
    (shapeCast S1x16 (m ((c : Thread nD τ).loc main_arg10)) shapeCasts_S16_S1x16) (shapeCast S1x16 (m ((c : Thread nD τ).loc main_arg11)) shapeCasts_S16_S1x16)
    (shapeCast S1x16 (m ((c : Thread nD τ).loc main_arg12)) shapeCasts_S16_S1x16)
    (fun i => ix2 (0 : Fin 1) (⟨(i 1).val, (i 1).isLt⟩ : Fin 16)) (fun _ => rfl)
    (a1_eq m ρ c hrow) (v45_at8 m ρ c) (v46_at8 m ρ c) (v47_at8 m ρ c) (v48_at8 m ρ c) (v49_at8 m ρ c)]
  funext i
  rw [Cert.ReferenceIdeal.RV.v69_apply _ _ _ _ _ _ _ _ _ i (ix1 (⟨(i 1).val, (i 1).isLt⟩ : Fin 16)) rfl]
  simp only [shapeCast_a_1a_apply]

/-! ## Layer 2 -/

/-- The second linear map. -/
theorem h2_eq : W10 m ρ c (Proc.devRef .tc main_v51) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) :=
  (lin_at10 m ρ c).trans
    (lin2_arr (V9 m ρ) c (val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12))) (m ((c : Thread nD τ).loc main_arg5)) (val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)))
      Cert.ReferenceIdeal.Read.lidx_main_v70 Cert.ReferenceIdeal.Read.ridx_main_v70 (b1_eq m ρ c hrow) (arg5_at9 m ρ c)
      (fun _ _ => rfl) (fun _ _ => rfl) (fun _ _ => rfl) (fun _ _ => rfl)
      (fun i => Cert.ReferenceIdeal.Read.val_main_v70_apply _ _ _ _ _ _ _ _ _ _ i))

/-- The second gather. -/
theorem t2_eq : W11 m ρ c (Proc.devRef .tc main_v52) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  rw [take_at11, v8_at10, row_eq, h2_eq m ρ c hrow, take4_eq _ _ hrow]
  rfl

/-- The second aggregate. -/
theorem a2_eq : W12 m ρ c (Proc.devRef .tc main_v58) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) := by
  rw [agg_at12, v10_at11, v36_at11, col_eq, norm_eq, t2_eq m ρ c hrow]
  rfl

/-- The second normalisation. -/
theorem b2_eq : W13 m ρ c (Proc.devRef .tc main_v64) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [bn_at13, bn3_arr (V12 m ρ) c (val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)))
    (shapeCast S1x4 (m ((c : Thread nD τ).loc main_arg6)) shapeCasts_S4_S1x4) (shapeCast S1x4 (m ((c : Thread nD τ).loc main_arg13)) shapeCasts_S4_S1x4)
    (shapeCast S1x4 (m ((c : Thread nD τ).loc main_arg14)) shapeCasts_S4_S1x4) (shapeCast S1x4 (m ((c : Thread nD τ).loc main_arg15)) shapeCasts_S4_S1x4)
    (shapeCast S1x4 (m ((c : Thread nD τ).loc main_arg16)) shapeCasts_S4_S1x4)
    (fun i => ix2 (0 : Fin 1) (⟨(i 1).val, (i 1).isLt⟩ : Fin 4)) (fun _ => rfl)
    (a2_eq m ρ c hrow) (v59_at12 m ρ c) (v60_at12 m ρ c) (v61_at12 m ρ c) (v62_at12 m ρ c) (v63_at12 m ρ c)]
  funext i
  rw [Cert.ReferenceIdeal.RV.v102_apply _ _ _ _ _ _ _ _ _ _ _ _ _ _ _ i (ix1 (⟨(i 1).val, (i 1).isLt⟩ : Fin 4)) rfl]
  simp only [shapeCast_a_1a_apply]

/-! ## Layer 3 and the head -/

/-- The third linear map. -/
theorem h3_eq : W14 m ρ c (Proc.devRef .tc main_v65) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (lin_at14 m ρ c).trans
    (lin4_arr (V13 m ρ) c (val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg7)) (val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
      Cert.ReferenceIdeal.Read.lidx_main_v103 Cert.ReferenceIdeal.Read.ridx_main_v103 (b2_eq m ρ c hrow) (arg7_at13 m ρ c)
      (fun _ _ => rfl) (fun _ _ => rfl) (fun _ _ => rfl) (fun _ _ => rfl)
      (fun i => Cert.ReferenceIdeal.Read.val_main_v103_apply _ _ _ _ _ _ _ _ _ _ _ _ _ _ _ _ i))

/-- The third gather. -/
theorem t3_eq : W15 m ρ c (Proc.devRef .tc main_v66) = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [take_at15, v8_at14, row_eq, h3_eq m ρ c hrow, take1_eq _ _ hrow]
  rfl

/-- The third aggregate. -/
theorem a3_eq : W16 m ρ c (Proc.devRef .tc main_v71) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [agg_at16, v10_at15, v36_at15, col_eq, norm_eq, t3_eq m ρ c hrow]
  rfl

/-- The head: the kernel's result array is the reference's result. -/
theorem out_eq : W17 m ρ c (Proc.devRef .tc main_v78) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  rw [head_at17, fin5_arr (V16 m ρ) c (val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))
    (shapeCast S1x1 (m ((c : Thread nD τ).loc main_arg8)) shapeCasts_S1_S1x1) (shapeCast S1x1 (m ((c : Thread nD τ).loc main_arg17)) shapeCasts_S1_S1x1)
    (shapeCast S1x1 (m ((c : Thread nD τ).loc main_arg18)) shapeCasts_S1_S1x1) (shapeCast S1x1 (m ((c : Thread nD τ).loc main_arg19)) shapeCasts_S1_S1x1)
    (shapeCast S1x1 (m ((c : Thread nD τ).loc main_arg20)) shapeCasts_S1_S1x1) (m ((c : Thread nD τ).loc main_arg21)) (shapeCast S1x1 (m ((c : Thread nD τ).loc main_arg22)) shapeCasts_S1_S1x1)
    (ix2 (0 : Fin 1) (0 : Fin 1))
    (a3_eq m ρ c hrow) (v72_at16 m ρ c) (v73_at16 m ρ c) (v74_at16 m ρ c) (v75_at16 m ρ c) (v76_at16 m ρ c)
    (arg21_at16 m ρ c) (v77_at16 m ρ c)]
  funext i
  rw [Cert.ReferenceIdeal.RV.v143_apply _ _ _ _ _ _ _ _ _ _ _ _ _ _ _ _ _ _ _ _ _ _ _ i (ix1 (0 : Fin 1)) (ix2 (0 : Fin 1) (0 : Fin 1))]
  simp only [shapeCast_a_1a_apply]

end

end Cert.Proof.Bridge

end
-- ==== Proof.lean ====
/-
  A three-layer graph-convolution network on 100000 nodes and 3200000 weighted edges: the kernel program (six
  pipelined regions for the linear maps and the normalisations, the gathers and scatter-adds between them on the host)
  against the plain reference. Over the extended reals the two compute one function wherever every word of the edge
  list names a node: a linear map is the same sums whether taken in row blocks or whole; the scatter-adds are the same
  operation; the normalisations are the same entrywise arithmetic; and the kernel's gather, which replaces a row fetched
  at an out-of-table word by not-a-number where the reference's gather clamps the word, is the reference's gather when
  no word is out of the table.
  Here: the three frames (the kernel's two from the generated frame certificate, the reference's from its generated
  run), and the equivalence — the kernel's run with its result buffer read at the last boundary, the reference's run,
  and the layer-by-layer equality of the two results.
-/
import proofs.«412636_j1769526526166_2_alg».proof.Defs
import proofs.«412636_j1769526526166_2_alg».proof.Proof.Gen.Kernel
import proofs.«412636_j1769526526166_2_alg».proof.Proof.Gen.Kernel.Skeleton
import proofs.«412636_j1769526526166_2_alg».proof.Proof.Gen.Kernel.Launch
import proofs.«412636_j1769526526166_2_alg».proof.Proof.Gen.Kernel.Points
import proofs.«412636_j1769526526166_2_alg».proof.Proof.Gen.Kernel.Frame
import proofs.«412636_j1769526526166_2_alg».proof.Proof.Gen.KernelIdeal
import proofs.«412636_j1769526526166_2_alg».proof.Proof.Gen.KernelIdeal.Skeleton
import proofs.«412636_j1769526526166_2_alg».proof.Proof.Gen.KernelIdeal.Launch
import proofs.«412636_j1769526526166_2_alg».proof.Proof.Gen.KernelIdeal.Points
import proofs.«412636_j1769526526166_2_alg».proof.Proof.Gen.KernelIdeal.Frame
import proofs.«412636_j1769526526166_2_alg».proof.Proof.Gen.ReferenceIdeal
import proofs.«412636_j1769526526166_2_alg».proof.Proof.Gen.Pre_finite_inputs
import proofs.«412636_j1769526526166_2_alg».proof.Proof.Gen.ReferenceIdeal.Run
import proofs.«412636_j1769526526166_2_alg».proof.Proof.Gen.ReferenceIdeal.Read
import proofs.«412636_j1769526526166_2_alg».proof.Proof.KRun
import proofs.«412636_j1769526526166_2_alg».proof.Proof.PreRange
import proofs.«412636_j1769526526166_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel's is its result
    buffer's contents at the last boundary, the reference's its last stage of the same arguments, and the two are equal
    because under the precondition every source-node word names a node. -/
theorem algebraic : Cert.algebraic_KernelIdeal_ReferenceIdeal := by
  intro m ρ m' ρ' hpre hagree
  refine ⟨fun c => Cert.KernelIdeal.Gen.W17 m ρ c (Proc.devRef .tc Cert.KernelIdeal.main_v78),
    Cert.KernelIdeal.GenV.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v143_eq]
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact (Cert.Proof.Bridge.out_eq m ρ c
    (fun e => Cert.KernelIdeal.KV.rowOf_range _ (Cert.KernelIdeal.KV.ei_range_of_pre m hpre c) e)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
